-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg20 : FVec F S128 .f32) (main_arg21 : FVec F S128x2 .f32) (main_arg22 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x2 .f32 := Host.absf main_arg21
  let main_cst_36 : FVec F S_ .f32 := constant S_ .f32 0x7F800000#32
  let main_v95 : FVec F S128x2 .f32 := broadcastInDim S128x2 ![] bcast_S_S128x2 main_cst_36
  let main_v96 : IVec S128x2 1 := cmpf .olt main_v94 main_v95
  let main_c_37 : IVec S_ 1 := constantI S_ 1 1#1
  let main_v97 : IVec S_ 1 := (fun x v => Host.reduce IntOp.andi x v reducesTo_S128x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x3 .f32) (main_arg1 : IVec S2x1600000 32) (main_arg2 : IVec S100000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x2 .f32) (main_arg22 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S64 : Shape := ⟨1, ![64]⟩
abbrev S100000x1 : Shape := ⟨2, ![100000, 1]⟩
abbrev S1x64 : Shape := ⟨2, ![1, 64]⟩
abbrev S100000x64 : Shape := ⟨2, ![100000, 64]⟩
abbrev S100000x128 : Shape := ⟨2, ![100000, 128]⟩
abbrev S5000x3 : Shape := ⟨2, ![5000, 3]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S5000x64 : Shape := ⟨2, ![5000, 64]⟩
abbrev S64x1 : Shape := ⟨2, ![64, 1]⟩
abbrev S64x2 : Shape := ⟨2, ![64, 2]⟩
abbrev S1x2 : Shape := ⟨2, ![1, 2]⟩

abbrev nBuf : Space → Nat
  | .hbm => 129
  | .vmem => 43
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x2, .f32⟩
  | 22 => ⟨S2, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S_, .f32⟩
  | 47 => ⟨S64, .f32⟩
  | 48 => ⟨S100000x1, .i32⟩
  | 49 => ⟨S64, .f32⟩
  | 50 => ⟨S100000x1, .i32⟩
  | 51 => ⟨S64, .i32⟩
  | 52 => ⟨S1x64, .i32⟩
  | 53 => ⟨S100000x64, .i32⟩
  | 54 => ⟨S100000x64, .i32⟩
  | 55 => ⟨S100000x64, .i1⟩
  | 56 => ⟨S100000x64, .f32⟩
  | 57 => ⟨S100000x1, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S100000x1, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S100000x1, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S100000x1, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S64x128, .f32⟩
  | 119 => ⟨S_, .f32⟩
  | 120 => ⟨S64, .f32⟩
  | 121 => ⟨S64, .f32⟩
  | 122 => ⟨S64x1, .f32⟩
  | 123 => ⟨S64x128, .f32⟩
  | 124 => ⟨S64x128, .f32⟩
  | 125 => ⟨S64x2, .f32⟩
  | 126 => ⟨S1x2, .f32⟩
  | 127 => ⟨S64x2, .f32⟩
  | _ => ⟨S100000x3, .f32⟩

abbrev hbmTy0_1 (i : Nat) : BufTy := match i % 128 with
  | 0 => ⟨S64x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x64, .f32⟩
  | .local _ .vmem, ⟨41, _⟩ => ⟨S5000x64, .f32⟩
  | .local _ .vmem, ⟨42, _⟩ => ⟨S64x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_7 : Ref sig .tc := ⟨.hbm, 79, rfl⟩
abbrev main_v45 : Ref sig .tc := ⟨.hbm, 80, rfl⟩
abbrev main_v46 : Ref sig .tc := ⟨.hbm, 81, rfl⟩
abbrev main_c_8 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_9 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_10 : Ref sig .tc := ⟨.hbm, 99, rfl⟩
abbrev main_v62 : Ref sig .tc := ⟨.hbm, 100, rfl⟩
abbrev main_v63 : Ref sig .tc := ⟨.hbm, 101, rfl⟩
abbrev main_c_11 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_12 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_13 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem8_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc3_sem8_0 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S64x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S64 : S_.BroadcastsInDim S64 (![] : Fin 0 → Fin S64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  shapeCasts_S100000_S100000x1 : S100000.ShapeCasts S100000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  scatter_S64_S100000x1_S100000_n_0_0_1_wf : ScatterDims.WF S64 S100000x1 S100000 [] [0] [0] 1
  dot_S5000x3_S3x128_S5000x128_1_0_0_1_n_n_wf : DotDims.WF S5000x3 S3x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x128.size a ≤ S64x128.size a
  hwx3_8 : ∀ i : grid3.Coords, EltTy.bits .f32 = 32 ∨ (Rect.block (s := S64x128) S64x128.size (cc3_transform_8 i) (hinb3_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v61) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v25) S5000x64.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v78) S64x128.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 200
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x2, .f32⟩
  | 22 => ⟨S2, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S100000x128, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x128, .f32⟩
  | 73 => ⟨S1700000x1, .f32⟩
  | 74 => ⟨S1700000x128, .f32⟩
  | 75 => ⟨S1700000x128, .f32⟩
  | 76 => ⟨S_, .f32⟩
  | 77 => ⟨S100000x128, .f32⟩
  | 78 => ⟨S1700000x1, .i32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S128, .f32⟩
  | 127 => ⟨S128, .f32⟩
  | _ => ⟨S100000x3, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x128, .f32⟩
  | 23 => ⟨S1700000x1, .f32⟩
  | 24 => ⟨S1700000x128, .f32⟩
  | 25 => ⟨S1700000x128, .f32⟩
  | 26 => ⟨S_, .f32⟩
  | 27 => ⟨S100000x128, .f32⟩
  | 28 => ⟨S1700000x1, .i32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S64x128, .f32⟩
  | 54 => ⟨S100000x1, .i32⟩
  | 55 => ⟨S64x128, .f32⟩
  | 56 => ⟨S_, .f32⟩
  | 57 => ⟨S100000, .f32⟩
  | 58 => ⟨S_, .f32⟩
  | 59 => ⟨S64, .f32⟩
  | 60 => ⟨S100000x1, .i32⟩
  | 61 => ⟨S64, .f32⟩
  | 62 => ⟨S_, .f32⟩
  | 63 => ⟨S64, .f32⟩
  | 64 => ⟨S64, .f32⟩
  | 65 => ⟨S64x1, .f32⟩
  | 66 => ⟨S64x128, .f32⟩
  | 67 => ⟨S64x128, .f32⟩
  | 68 => ⟨S64x2, .f32⟩
  | 69 => ⟨S1x2, .f32⟩
  | 70 => ⟨S64x2, .f32⟩
  | 71 => ⟨S64x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v14 : Ref sig .tc := ⟨.hbm, 43, rfl⟩
abbrev main_c : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_c_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_c_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call1_cst : Ref sig .tc := ⟨.hbm, 99, rfl⟩
abbrev main_call1_v0 : Ref sig .tc := ⟨.hbm, 100, rfl⟩
abbrev main_v62 : Ref sig .tc := ⟨.hbm, 101, rfl⟩
abbrev main_v63 : Ref sig .tc := ⟨.hbm, 102, rfl⟩
abbrev main_c_10 : Ref sig .tc := ⟨.hbm, 103, rfl⟩
abbrev main_v64 : Ref sig .tc := ⟨.hbm, 104, rfl⟩
abbrev main_v65 : Ref sig .tc := ⟨.hbm, 105, rfl⟩
abbrev main_c_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_12 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_13 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call2_cst : Ref sig .tc := ⟨.hbm, 138, rfl⟩
abbrev main_call2_v0 : Ref sig .tc := ⟨.hbm, 139, rfl⟩
abbrev main_v95 : Ref sig .tc := ⟨.hbm, 140, rfl⟩
abbrev main_v96 : Ref sig .tc := ⟨.hbm, 141, rfl⟩
abbrev main_c_14 : Ref sig .tc := ⟨.hbm, 142, rfl⟩
abbrev main_v97 : Ref sig .tc := ⟨.hbm, 143, rfl⟩
abbrev main_v98 : Ref sig .tc := ⟨.hbm, 144, rfl⟩
abbrev main_c_15 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_16 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_17 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_call3_cst : Ref sig .tc := ⟨.hbm, 177, rfl⟩
abbrev main_call3_v0 : Ref sig .tc := ⟨.hbm, 178, rfl⟩
abbrev main_v128 : Ref sig .tc := ⟨.hbm, 179, rfl⟩
abbrev main_cst_18 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_19 : Ref sig .tc := ⟨.hbm, 184, rfl⟩
abbrev main_v132 : Ref sig .tc := ⟨.hbm, 185, rfl⟩
abbrev main_cst_20 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_21 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x128_S100000x128_1_0_0_1_n_n_wf : DotDims.WF S100000x3 S3x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x2_S64x2_1_0_0_1_n_n_wf : DotDims.WF S64x128 S128x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«400615_j49314814493137_3_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.Net.lean ====
/-
  A three-layer graph convolution network with mean pooling, as plain functions on the extended reals.

  Nodes are Fin 100000, edges (self-loops appended) Fin 1700000, channels Fin 128, graphs Fin 64. An edge e carries a source
  word sw e and a destination word dw e. A row gather reads the row grow (sw e): the word, plus 100000 if negative, clamped
  into range. A scatter-add lands edge e on node i exactly when dw e, read signed, is i; other edges land nowhere.

  Two arrangements of one layer. The first scales each node's row by dinv before the rows are gathered and summed, and scales
  the sum by dinv of the receiving node afterwards. The second multiplies each edge's gathered row by the edge's
  norm dinv (source) * dinv (destination) before summing. They agree because dinv is a nonnegative real, by which
  multiplication distributes over any sum of extended reals, and because an edge that lands on node i has destination row i.

  Two arrangements of the pooling. The first sums, over all nodes, the node's row times the 0/1 indicator that the node's batch
  word is the graph's number. The second sums the rows of the nodes whose batch word, read signed, is the graph's number.
-/
import proofs.«400615_j49314814493137_3_alg».proof.Proof.LibScatter
import Idealize.ShloMosaic.Lib.IdealHost
import Idealize.ShloMosaic.PureOps.Ideal.Laws

noncomputable section

namespace Cert.Gcn

open Idealize.ShloMosaic Idealize.ShloMosaic.ValueIdx

abbrev NN : Nat := 100000
abbrev EE : Nat := 1700000
abbrev HH : Nat := 128
abbrev GG : Nat := 64

/-- The three float literals of both programs, as the extended reals their words denote. -/
def zeroE : EReal := Ideal.ofBits .f32 0x00000000#32
def oneE : EReal := Ideal.ofBits .f32 0x3F800000#32
def epsE : EReal := Ideal.ofBits .f32 0x3727C5AC#32

/-- A negative index word counts from the end: plus 100000. -/
def wrapN (w : BitVec 32) : BitVec 32 := Scalar.select (IntOp.cmpi .slt w 0#32) (IntOp.addi w 100000#32) w
/-- The row a gather reads for an index word. -/
def grow (w : BitVec 32) : Fin NN := crow NN (by decide) (wrapN w)

/-- The edges that land on node i. -/
def inE (dw : Fin EE → BitVec 32) (i : Fin NN) : Finset (Fin EE) :=
  Finset.univ.filter fun e => (dw e).toInt = (i.val : Int)
/-- In-degree, and its inverse square root where positive (else zero). -/
def deg (dw : Fin EE → BitVec 32) (i : Fin NN) : EReal := zeroE + ∑ e ∈ inE dw i, oneE
def dinv (dw : Fin EE → BitVec 32) (i : Fin NN) : EReal :=
  Scalar.select (Ideal.cmp .ogt (deg dw i) zeroE) (Ideal.rsqrt (deg dw i)) zeroE

/-- Gather rows by source, scatter-add by destination. -/
def agg (sw dw : Fin EE → BitVec 32) (P : Fin NN → Fin HH → EReal) (i : Fin NN) (k : Fin HH) : EReal :=
  zeroE + ∑ e ∈ inE dw i, P (grow (sw e)) k

/-- Rows times a weight matrix. -/
def lin {C : Nat} (Y : Fin NN → Fin C → EReal) (W : Fin C → Fin HH → EReal) (n : Fin NN) (k : Fin HH) : EReal :=
  ∑ q : Fin C, Y n q * W q k

/-- A layer's bias and its batch-norm parameters (scale, shift, mean, variance). -/
structure BN where
  bias : Fin HH → EReal
  g : Fin HH → EReal
  be : Fin HH → EReal
  mu : Fin HH → EReal
  va : Fin HH → EReal

/-- Bias, batch norm in evaluation mode, rectifier: of one entry, the channel's five parameters given. -/
def actE (a bias g be mu va : EReal) : EReal :=
  max ((((a + bias) - mu) * Ideal.rsqrt (va + epsE)) * g + be) zeroE
/-- The same in channel k of a layer's parameters. -/
def act (p : BN) (a : EReal) (k : Fin HH) : EReal := actE a (p.bias k) (p.g k) (p.be k) (p.mu k) (p.va k)

/-- First arrangement: scaled rows, and the activated scaled sum. -/
def kPre {C : Nat} (dw : Fin EE → BitVec 32) (Y : Fin NN → Fin C → EReal) (W : Fin C → Fin HH → EReal)
    (n : Fin NN) (k : Fin HH) : EReal := lin Y W n k * dinv dw n
def kAct (sw dw : Fin EE → BitVec 32) (p : BN) (P : Fin NN → Fin HH → EReal) (i : Fin NN) (k : Fin HH) : EReal :=
  act p (agg sw dw P i k * dinv dw i) k

/-- Second arrangement: each edge's message carries the edge's norm. -/
def rMsg (sw dw : Fin EE → BitVec 32) (H : Fin NN → Fin HH → EReal) (e : Fin EE) (k : Fin HH) : EReal :=
  H (grow (sw e)) k * (dinv dw (grow (sw e)) * dinv dw (grow (dw e)))
def rAgg (sw dw : Fin EE → BitVec 32) (H : Fin NN → Fin HH → EReal) (i : Fin NN) (k : Fin HH) : EReal :=
  zeroE + ∑ e ∈ inE dw i, rMsg sw dw H e k
def rAct (sw dw : Fin EE → BitVec 32) (p : BN) (H : Fin NN → Fin HH → EReal) (i : Fin NN) (k : Fin HH) : EReal :=
  act p (rAgg sw dw H i k) k

/-- The nodes of graph g, their count, and the indicator of membership as a float. -/
def member (bw : Fin NN → BitVec 32) (g : Fin GG) : Finset (Fin NN) :=
  Finset.univ.filter fun n => (bw n).toInt = (g.val : Int)
def cnt (bw : Fin NN → BitVec 32) (g : Fin GG) : EReal := zeroE + ∑ n ∈ member bw g, oneE
def ohv (w : BitVec 32) (g : Fin GG) : EReal := (((IntOp.cmpi .eq w (BitVec.ofNat 32 g.val)).toNat : ℝ) : EReal)
def kPool (bw : Fin NN → BitVec 32) (Y : Fin NN → Fin HH → EReal) (g : Fin GG) (k : Fin HH) : EReal :=
  ∑ n : Fin NN, ohv (bw n) g * Y n k
def rPool (bw : Fin NN → BitVec 32) (Y : Fin NN → Fin HH → EReal) (g : Fin GG) (k : Fin HH) : EReal :=
  zeroE + ∑ n ∈ member bw g, Y n k

/-- Mean over the graph's nodes (count at least one), then the classifier. -/
def head (lw : Fin HH → Fin 2 → EReal) (lb : Fin 2 → EReal) (cntv : Fin GG → EReal) (S : Fin GG → Fin HH → EReal)
    (g : Fin GG) (j : Fin 2) : EReal :=
  (∑ k : Fin HH, Ideal.div (S g k) (max (cntv g) oneE) * lw k j) + lb j

/-- Everything the network reads. -/
structure Args where
  x : Fin NN → Fin 3 → EReal
  sw : Fin EE → BitVec 32
  dw : Fin EE → BitVec 32
  bw : Fin NN → BitVec 32
  w1 : Fin 3 → Fin HH → EReal
  w2 : Fin HH → Fin HH → EReal
  w3 : Fin HH → Fin HH → EReal
  p1 : BN
  p2 : BN
  p3 : BN
  lw : Fin HH → Fin 2 → EReal
  lb : Fin 2 → EReal

def kY1 (A : Args) : Fin NN → Fin HH → EReal := kAct A.sw A.dw A.p1 (kPre A.dw A.x A.w1)
def kY2 (A : Args) : Fin NN → Fin HH → EReal := kAct A.sw A.dw A.p2 (kPre A.dw (kY1 A) A.w2)
def kY3 (A : Args) : Fin NN → Fin HH → EReal := kAct A.sw A.dw A.p3 (kPre A.dw (kY2 A) A.w3)
def kernelOut (A : Args) : Fin GG → Fin 2 → EReal := head A.lw A.lb (cnt A.bw) (kPool A.bw (kY3 A))

def rY1 (A : Args) : Fin NN → Fin HH → EReal := rAct A.sw A.dw A.p1 (lin A.x A.w1)
def rY2 (A : Args) : Fin NN → Fin HH → EReal := rAct A.sw A.dw A.p2 (lin (rY1 A) A.w2)
def rY3 (A : Args) : Fin NN → Fin HH → EReal := rAct A.sw A.dw A.p3 (lin (rY2 A) A.w3)
def refOut (A : Args) : Fin GG → Fin 2 → EReal := head A.lw A.lb (cnt A.bw) (rPool A.bw (rY3 A))

/-- Arrays of two axes and of one, float and index words, over literal extents; and their readings by coordinates. -/
abbrev A2 (a b : Nat) : Type := (⟨2, ![a, b]⟩ : Shape).Idx → EReal
abbrev A1 (a : Nat) : Type := (⟨1, ![a]⟩ : Shape).Idx → EReal
abbrev IW1 (a : Nat) : Type := (⟨1, ![a]⟩ : Shape).Idx → BitVec 32
def mat {a b : Nat} (x : A2 a b) : Fin a → Fin b → EReal := fun i j => x (ix2 i j)
def vec {a : Nat} (x : A1 a) : Fin a → EReal := fun i => x (ix1 i)
def wvec {a : Nat} (x : IW1 a) : Fin a → BitVec 32 := fun i => x (ix1 i)

/-- A layer's parameters from its five arrays; the network's arguments from the arrays both programs are given (the
    edge list already split into its source and destination words, self-loops appended). -/
def BN.ofArrays (bias g be mu va : A1 128) : BN := ⟨vec bias, vec g, vec be, vec mu, vec va⟩
def Args.ofArrays (x : A2 100000 3) (src dst : IW1 1700000) (batch : IW1 100000)
    (w1 : A2 3 128) (b1 : A1 128) (w2 : A2 128 128) (b2 : A1 128) (w3 : A2 128 128) (b3 : A1 128)
    (g1 be1 mu1 va1 g2 be2 mu2 va2 g3 be3 mu3 va3 : A1 128) (lw : A2 128 2) (lb : A1 2) : Args where
  x := mat x
  sw := wvec src
  dw := wvec dst
  bw := wvec batch
  w1 := mat w1
  w2 := mat w2
  w3 := mat w3
  p1 := BN.ofArrays b1 g1 be1 mu1 va1
  p2 := BN.ofArrays b2 g2 be2 mu2 va2
  p3 := BN.ofArrays b3 g3 be3 mu3 va3
  lw := mat lw
  lb := vec lb

/-- The two float literals zero and one denote 0 and 1. -/
private theorem zeroE_eq : zeroE = 0 := Ideal.ofBits_zero_f32
private theorem oneE_eq : oneE = 1 := Ideal.ofBits_one_f32

/-- The in-degree is the number of edges that land, a natural number read as a real. -/
private theorem deg_eq (dw : Fin EE → BitVec 32) (i : Fin NN) : deg dw i = (((inE dw i).card : ℝ) : EReal) := by
  unfold deg
  rw [zeroE_eq, oneE_eq, zero_add, Finset.sum_const, EReal.nsmul_eq_mul, mul_one]
  rfl

/-- Multiplication by a nonnegative real distributes over a finite sum of extended reals. -/
private theorem sum_mul_coe {ι : Type} (s : Finset ι) (a : ι → EReal) (r : ℝ) (hr : 0 ≤ r) :
    (∑ e ∈ s, a e) * (r : EReal) = ∑ e ∈ s, a e * (r : EReal) := by
  classical
  induction s using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- A graph number below 64, as a word, reads signed as itself. -/
private theorem toInt_ofNat_graph (g : Fin GG) : (BitVec.ofNat 32 g.val).toInt = (g.val : Int) := by
  have hg : g.val < 64 := g.isLt
  rw [BitVec.toInt_eq_toNat_cond, BitVec.toNat_ofNat]
  have : g.val % 2 ^ 32 = g.val := Nat.mod_eq_of_lt (by omega)
  rw [this]
  split <;> omega

/-- The membership indicator is 1 when the word, read signed, is the graph's number, else 0. -/
private theorem ohv_eq (w : BitVec 32) (g : Fin GG) : ohv w g = if w.toInt = (g.val : Int) then 1 else 0 := by
  unfold ohv
  by_cases h : w.toInt = (g.val : Int)
  · have hw : w = BitVec.ofNat 32 g.val := BitVec.eq_of_toInt_eq (by rw [h, toInt_ofNat_graph])
    have hc : IntOp.cmpi .eq w (BitVec.ofNat 32 g.val) = 1#1 := by
      show BitVec.ofBool (w == BitVec.ofNat 32 g.val) = 1#1
      rw [hw, beq_self_eq_true]; rfl
    rw [hc, if_pos h]
    simp
  · have hw : w ≠ BitVec.ofNat 32 g.val := fun hw => h (by rw [hw, toInt_ofNat_graph])
    have hc : IntOp.cmpi .eq w (BitVec.ofNat 32 g.val) = 0#1 := by
      show BitVec.ofBool (w == BitVec.ofNat 32 g.val) = 0#1
      rw [beq_eq_false_iff_ne.mpr hw]; rfl
    rw [hc, if_neg h]
    simp

/-- The inverse square root of the in-degree is a nonnegative real. -/
theorem dinv_real (dw : Fin EE → BitVec 32) (i : Fin NN) : ∃ r : ℝ, 0 ≤ r ∧ dinv dw i = (r : EReal) := by
  unfold dinv
  rw [deg_eq, zeroE_eq]
  by_cases hc : (0 : ℝ) < ((inE dw i).card : ℝ)
  · refine ⟨(Real.sqrt ((inE dw i).card : ℝ))⁻¹, inv_nonneg.mpr (Real.sqrt_nonneg _), ?_⟩
    have h1 : Ideal.cmp .ogt ((((inE dw i).card : ℝ)) : EReal) 0 = 1#1 := by
      show BitVec.ofBool (decide ((0 : EReal) < (((inE dw i).card : ℝ) : EReal))) = 1#1
      rw [decide_eq_true (by exact_mod_cast hc)]; rfl
    rw [h1, select_one, Ideal.rsqrt_coe, if_neg (not_lt.mpr hc.le), if_neg hc.ne']
  · refine ⟨0, le_refl _, ?_⟩
    have h0 : Ideal.cmp .ogt ((((inE dw i).card : ℝ)) : EReal) 0 = 0#1 := by
      show BitVec.ofBool (decide ((0 : EReal) < (((inE dw i).card : ℝ) : EReal))) = 0#1
      rw [decide_eq_false (by exact_mod_cast hc)]; rfl
    rw [h0, select_zero]
    rfl

/-- An edge that lands on node i reads destination row i. -/
theorem grow_of_lands (w : BitVec 32) (i : Fin NN) (h : w.toInt = (i.val : Int)) : grow w = i := by
  have hi : i.val < 100000 := i.isLt
  have hslt : IntOp.cmpi .slt w 0#32 = 0#1 := by
    show BitVec.ofBool (w.slt 0#32) = 0#1
    have hf : w.slt 0#32 = false := by
      rw [Bool.eq_false_iff]
      intro hh
      rw [BitVec.slt_iff_toInt_lt] at hh
      have h0 : (0#32 : BitVec 32).toInt = 0 := by decide
      omega
    rw [hf]; rfl
  unfold grow wrapN
  rw [hslt, select_zero]
  apply Fin.ext
  have hc := crow_val_of_range (N := NN) (by decide) w (by omega) (by omega)
  omega

/-- One layer: the two arrangements agree. -/
theorem layer_eq {C : Nat} (sw dw : Fin EE → BitVec 32) (p : BN) (Y : Fin NN → Fin C → EReal) (W : Fin C → Fin HH → EReal) :
    kAct sw dw p (kPre dw Y W) = rAct sw dw p (lin Y W) := by
  funext i k
  have key : agg sw dw (kPre dw Y W) i k * dinv dw i = rAgg sw dw (lin Y W) i k := by
    obtain ⟨r, hr, hd⟩ := dinv_real dw i
    unfold agg rAgg
    rw [zeroE_eq, zero_add, zero_add, hd, sum_mul_coe _ _ r hr]
    refine Finset.sum_congr rfl fun e he => ?_
    have hl : (dw e).toInt = (i.val : Int) := (Finset.mem_filter.mp he).2
    unfold rMsg kPre
    rw [grow_of_lands (dw e) i hl, hd, mul_assoc]
  show act p (agg sw dw (kPre dw Y W) i k * dinv dw i) k = act p (rAgg sw dw (lin Y W) i k) k
  rw [key]

/-- The pooling: the two arrangements agree. -/
theorem pool_eq (bw : Fin NN → BitVec 32) (Y : Fin NN → Fin HH → EReal) : kPool bw Y = rPool bw Y := by
  funext g k
  unfold kPool rPool member
  rw [zeroE_eq, zero_add, Finset.sum_filter]
  refine Finset.sum_congr rfl fun n _ => ?_
  rw [ohv_eq]
  split
  · rw [one_mul]
  · rw [zero_mul]

/-- The two networks agree. -/
theorem net_eq (A : Args) : kernelOut A = refOut A := by
  have h1 : kY1 A = rY1 A := layer_eq A.sw A.dw A.p1 A.x A.w1
  have h2 : kY2 A = rY2 A := by unfold kY2 rY2; rw [h1]; exact layer_eq A.sw A.dw A.p2 (rY1 A) A.w2
  have h3 : kY3 A = rY3 A := by unfold kY3 rY3; rw [h2]; exact layer_eq A.sw A.dw A.p3 (rY2 A) A.w3
  unfold kernelOut refOut
  rw [h3, pool_eq]

end Cert.Gcn

end
-- ==== Proof.KReg0.lean ====
/-
  The first kernel region's output array, entry by entry: rows of x times the weight matrix, each row scaled by its node's dinv. The region runs over twenty blocks of 5000 rows; block t of the output is the body's store at point t, and the blocks cover the array.
-/
import proofs.«400615_j49314814493137_3_alg».proof.Proof.Gen.KernelIdeal.Frame
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's arrays as it finds them, and its output array as it leaves it, at their literal types. -/
abbrev r0_x (c : Dev nD) : A2 100000 3 := V c main_arg0
abbrev r0_w (c : Dev nD) : A2 3 128 := V c main_arg3
abbrev r0_d (c : Dev nD) : A2 100000 1 := V c main_v26
abbrev r0_out (c : Dev nD) : A2 100000 128 := (dat0 (F := Ideal) V c).arrAt 3 cfg0.N

/-- The zero offsets, however spelt. -/
private theorem hz0 : (![0, 0] : Fin 2 → Nat) = fun _ => 0 := funext fun a => by fin_cases a <;> rfl

/-! ## The body's product at an entry -/

/-- The contraction's index maps, axis by axis: a row of the left operand against a column of the right. -/
private theorem lhs_mm_0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
private theorem lhs_mm_1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
private theorem rhs_mm_0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
private theorem rhs_mm_1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- The matrix product onto a zero accumulator, at an entry: the sum over the three input channels. -/
private theorem mm_apply (a : FVec Ideal S5000x3 .bf16) (b : FVec Ideal S3x128 .bf16) (p : Fin 5000) (q : Fin 128) :
    matmul dot_S5000x3_S3x128_S5000x128_1_0_0_1_n_n none a b (constant S5000x128 .f32 0x00000000#32) (ix2 p q)
      = ∑ k : Fin 3, a (ix2 p k) * b (ix2 k q) := by
  refine (Ideal.matmul_constant_zero_apply dot_S5000x3_S3x128_S5000x128_1_0_0_1_n_n none a b (ix2 p q)).trans ?_
  rw [← Equiv.sum_comp (ValueIdx.contrEquiv1 dot_S5000x3_S3x128_S5000x128_1_0_0_1_n_n 3 rfl rfl).symm]
  refine Finset.sum_congr rfl fun k _ => ?_
  have hk := ValueIdx.contrEquiv1_symm_val dot_S5000x3_S3x128_S5000x128_1_0_0_1_n_n 3 rfl rfl k
  have el : dot_S5000x3_S3x128_S5000x128_1_0_0_1_n_n.lhsIdx (ix2 p q) ((ValueIdx.contrEquiv1 dot_S5000x3_S3x128_S5000x128_1_0_0_1_n_n 3 rfl rfl).symm k) = ix2 p k := funext fun x => Fin.ext (by
    match x with
    | ⟨0, _⟩ => exact lhs_mm_0 _ _
    | ⟨1, _⟩ => exact (lhs_mm_1 _ _).trans hk)
  have er : dot_S5000x3_S3x128_S5000x128_1_0_0_1_n_n.rhsIdx (ix2 p q) ((ValueIdx.contrEquiv1 dot_S5000x3_S3x128_S5000x128_1_0_0_1_n_n 3 rfl rfl).symm k) = ix2 k q := funext fun x => Fin.ext (by
    match x with
    | ⟨0, _⟩ => exact (rhs_mm_0 _ _).trans hk
    | ⟨1, _⟩ => exact rhs_mm_1 _ _)
  rw [el, er]

/-- The column of scales spread along the rows, at an entry. -/
private theorem spread_apply (d : FVec Ideal S5000x1 .f32) (p : Fin 5000) (q : Fin 128) :
    broadcastTo S5000x128 d broadcasts_S5000x1_S5000x128 (ix2 p q) = d (ix2 p 0) := by
  refine broadcastTo_apply d broadcasts_S5000x1_S5000x128 (ix2 p q) (ix2 p 0) fun a => ?_
  match a with
  | ⟨0, _⟩ => rfl
  | ⟨1, _⟩ => rfl

/-- What the body stores, at an entry: the row of x against the column of the weights, times the row's scale. -/
private theorem pay_apply (x0 : Vec Ideal S5000x3 .f32) (x1 : Vec Ideal S3x128 .f32) (x2 : Vec Ideal S5000x1 .f32) (p : Fin 5000) (q : Fin 128) :
    k0_pay1 (F := Ideal) x0 x1 x2 (ix2 p q) = (∑ k : Fin 3, x0 (ix2 p k) * x1 (ix2 k q)) * x2 (ix2 p 0) := by
  unfold k0_pay1
  refine (mulf_apply _ _ (ix2 p q)).trans ?_
  refine congrArg₂ (· * ·) ((mm_apply _ _ p q).trans rfl) ?_
  refine (spread_apply _ p q).trans ?_
  rw [shapeCast_self]

/-! ## The whole output array as one function of the region's arrays -/

/-- Entry (n, k): row n of x against column k of the weights, times the scale of node n. -/
private def rowsTimes (x : A2 100000 3) (w : A2 3 128) (d : A2 100000 1) : A2 100000 128 := fun i =>
  (∑ q : Fin 3, x (ix2 ⟨(i 0).val, idx2_lt0 i⟩ q) * w (ix2 q ⟨(i 1).val, idx2_lt1 i⟩)) * d (ix2 ⟨(i 0).val, idx2_lt0 i⟩ 0)

/-- The block indices over the grid: point t reads row block t of x and of the scales, the whole weight matrix, and writes row block t. -/
private theorem blk_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input blocks at a point, at their literal types. -/
private abbrev xblk (c : Dev nD) (t : Fin cfg0.N) : Vec Ideal S5000x3 .f32 := iblk0 V c 0 t
private abbrev wblk (c : Dev nD) (t : Fin cfg0.N) : Vec Ideal S3x128 .f32 := iblk0 V c 1 t
private abbrev dblk (c : Dev nD) (t : Fin cfg0.N) : Vec Ideal S5000x1 .f32 := iblk0 V c 2 t

/-- Row p of x's block at point t is row 5000 t + p of x. -/
private theorem xblk_apply (c : Dev nD) (t : Fin cfg0.N) (y : S5000x3.Idx) (i : S100000x3.Idx)
    (h0 : (i 0).val = t.val * 5000 + (y 0).val) (h1 : (i 1).val = (y 1).val) : xblk V c t y = r0_x V c i := by
  obtain ⟨e0, e1, -⟩ := blk_index t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 3 + 1 * (y 1).val = (i 1).val; omega

/-- The weights' block at every point is the weight matrix. -/
private theorem wblk_apply (c : Dev nD) (t : Fin cfg0.N) (y : S3x128.Idx) : wblk V c t y = r0_w V c y := by
  obtain ⟨-, -, e0, e1, -⟩ := blk_index t
  show V c main_arg3 (((cfg0.win 1).blk t).view.emb y) = V c main_arg3 y
  refine congrArg (V c main_arg3) (funext fun a => Fin.ext ?_)
  match a with
  | ⟨0, _⟩ => show win0_1.index t (0 : Fin 2) * 3 + 1 * (y 0).val = (y 0).val; omega
  | ⟨1, _⟩ => show win0_1.index t (1 : Fin 2) * 128 + 1 * (y 1).val = (y 1).val; omega

/-- Row p of the scales' block at point t is row 5000 t + p of the scales. -/
private theorem dblk_apply (c : Dev nD) (t : Fin cfg0.N) (y : S5000x1.Idx) (i : S100000x1.Idx)
    (h0 : (i 0).val = t.val * 5000 + (y 0).val) (h1 : (i 1).val = (y 1).val) : dblk V c t y = r0_d V c i := by
  obtain ⟨-, -, -, -, e0, e1, -⟩ := blk_index t
  show V c main_v26 (((cfg0.win 2).blk t).view.emb y) = V c main_v26 i
  refine congrArg (V c main_v26) (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- What point t writes back is block t of the whole-array function. -/
private theorem flushed_eq (c : Dev nD) (t : Fin cfg0.N) :
    (dat0 (F := Ideal) V c).flushed 3 t
      = ((cfg0.win 3).blk t).view.read (Elt Ideal) (rowsTimes (r0_x V c) (r0_w V c) (r0_d V c)) := by
  show (cfg0.win 3).cut (grid0.coords t) ((dat0 (F := Ideal) V c).after 3 t) = _
  rw [after0_3]
  unfold out0_3
  rw [View.canon_unit_zero hz0]
  simp only [View.ld_unit_zero (S := S5000x3) hz0, View.ld_unit_zero (S := S3x128) hz0, View.ld_unit_zero (S := S5000x1) hz0]
  obtain ⟨-, -, -, -, -, -, e0, e1⟩ := blk_index t
  funext j
  obtain ⟨p, q, rfl⟩ : ∃ (p : Fin 5000) (q : Fin 128), j = ix2 p q := ⟨j 0, j 1, eq_ix2 j⟩
  have hr : ((((cfg0.win 3).blk t).view.emb (ix2 p q)) 0).val = win0_3.index t (0 : Fin 2) * 5000 + 1 * p.val := rfl
  have hc : ((((cfg0.win 3).blk t).view.emb (ix2 p q)) 1).val = win0_3.index t (1 : Fin 2) * 128 + 1 * q.val := rfl
  show k0_pay1 (F := Ideal) (xblk V c t) (wblk V c t) (dblk V c t) (ix2 p q)
    = rowsTimes (r0_x V c) (r0_w V c) (r0_d V c) (((cfg0.win 3).blk t).view.emb (ix2 p q))
  refine (pay_apply (xblk V c t) (wblk V c t) (dblk V c t) p q).trans ?_
  unfold rowsTimes
  refine congrArg₂ (· * ·) (Finset.sum_congr rfl fun k _ => congrArg₂ (· * ·) ?_ ?_) ?_
  · exact xblk_apply V c t (ix2 p k) _ (hr.trans (show _ = t.val * 5000 + p.val by omega)) rfl
  · refine (wblk_apply V c t (ix2 k q)).trans (congrArg (r0_w V c) (funext fun a => Fin.ext ?_))
    match a with
    | ⟨0, _⟩ => rfl
    | ⟨1, _⟩ => exact (hc.trans (by omega : _ = q.val)).symm
  · exact dblk_apply V c t (ix2 p 0) _ (hr.trans (show _ = t.val * 5000 + p.val by omega)) rfl

/-- An index is in point t's block when each coordinate is in the block's range on its axis. -/
private theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v27).slice (win0_3.rect t)).set ↔ _
  rw [View.set_slice_whole, Rect.mem_set_unit]
  exact Iff.rfl

/-- Row r is in the block of point r / 5000: the twenty blocks cover the array. -/
private theorem cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := rfl
  let t : Fin cfg0.N := ⟨(i 0).val / 5000, by rw [hN]; omega⟩
  have ht : t.val = (i 0).val / 5000 := rfl
  obtain ⟨-, -, -, -, -, -, e0, e1⟩ := blk_index t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is the whole-array function of the region's arrays. -/
private theorem out_eq (c : Dev nD) : r0_out V c = rowsTimes (r0_x V c) (r0_w V c) (r0_d V c) :=
  (dat0 (F := Ideal) V c).arrAt_eq_of_cover 3 (rowsTimes (r0_x V c) (r0_w V c) (r0_d V c)) (fun t _ => flushed_eq V c t) cover

theorem reg0_value (c : Dev nD) (n : Fin 100000) (k : Fin 128) :
    r0_out V c (ix2 n k) = (∑ q : Fin 3, r0_x V c (ix2 n q) * r0_w V c (ix2 q k)) * r0_d V c (ix2 n 0) := by
  rw [out_eq]
  rfl

end Cert.KernelIdeal.RegValue

end
-- ==== Proof.KReg1.lean ====
/-
  Kernel region 1's output array, entry by entry: the aggregated rows scaled by dinv, bias and batch norm and rectifier applied, times the weight matrix, each row scaled by its node's dinv again. Twenty blocks of 5000 rows; block t of the output is the body's store at point t, and the blocks cover the array.
-/
import proofs.«400615_j49314814493137_3_alg».proof.Proof.Gen.KernelIdeal.Frame
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's arrays as it finds them, and its output array as it leaves it, at their literal types. -/
abbrev r1_a (c : Dev nD) : A2 100000 128 := V c main_v37
abbrev r1_d (c : Dev nD) : A2 100000 1 := V c main_v38
abbrev r1_bias (c : Dev nD) : A2 1 128 := V c main_v39
abbrev r1_g (c : Dev nD) : A2 1 128 := V c main_v40
abbrev r1_be (c : Dev nD) : A2 1 128 := V c main_v41
abbrev r1_mu (c : Dev nD) : A2 1 128 := V c main_v42
abbrev r1_va (c : Dev nD) : A2 1 128 := V c main_v43
abbrev r1_w (c : Dev nD) : A2 128 128 := V c main_arg5
abbrev r1_out (c : Dev nD) : A2 100000 128 := (dat1 (F := Ideal) V c).arrAt 8 cfg1.N

/-- Entry (n, q) of the activated input. -/
def r1_y (c : Dev nD) (n : Fin 100000) (q : Fin 128) : EReal :=
  actE (r1_a V c (ix2 n q) * r1_d V c (ix2 n 0)) (r1_bias V c (ix2 0 q)) (r1_g V c (ix2 0 q)) (r1_be V c (ix2 0 q))
    (r1_mu V c (ix2 0 q)) (r1_va V c (ix2 0 q))

/-! ## The body's arithmetic at one entry of a block -/

/-- A column of 5000 spread over 128 lanes reads its row's one entry. -/
theorem reg1_spread_col {α : Type} (x : S5000x1.Idx → α) (p : Fin 5000) (q : Fin 128) :
    broadcastTo S5000x128 x broadcasts_S5000x1_S5000x128 (ix2 p q) = x (ix2 p 0) := by
  refine broadcastTo_apply x _ (ix2 p q) (ix2 p 0) fun a => ?_
  match a with
  | ⟨0, _⟩ => show p.val = if (5000 : Nat) = 1 then 0 else p.val; rw [if_neg (by decide)]
  | ⟨1, _⟩ => show (0 : Nat) = if (1 : Nat) = 1 then 0 else _; rw [if_pos rfl]

/-- A row of 128 spread over 5000 rows reads its lane's one entry. -/
theorem reg1_spread_row {α : Type} (x : S1x128.Idx → α) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The product's operand indices: the left operand is read at (row, contraction), the right at (contraction, column). -/
theorem reg1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem reg1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem reg1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem reg1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product onto the zero block, at an entry: the plain sum over the 128 contracted channels. -/
theorem reg1_matmul_apply (l : FVec Ideal S5000x128 .bf16) (r : FVec Ideal S128x128 .bf16) (p : Fin 5000) (k : Fin 128) :
    matmul dot_S5000x128_S128x128_S5000x128_1_0_0_1_n_n none l r (constant S5000x128 .f32 0x00000000#32) (ix2 p k)
      = ∑ q : Fin 128, l (ix2 p q) * r (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun q _ => ?_
  have hk := contrEquiv1_symm_val dot_S5000x128_S128x128_S5000x128_1_0_0_1_n_n 128 rfl rfl q
  have el : dot_S5000x128_S128x128_S5000x128_1_0_0_1_n_n.lhsIdx (ix2 p k) ((contrEquiv1 dot_S5000x128_S128x128_S5000x128_1_0_0_1_n_n 128 rfl rfl).symm q) = ix2 p q := funext fun a => Fin.ext (by
    match a with
    | ⟨0, _⟩ => exact reg1_lhs_0 _ _
    | ⟨1, _⟩ => exact (reg1_lhs_1 _ _).trans hk)
  have er : dot_S5000x128_S128x128_S5000x128_1_0_0_1_n_n.rhsIdx (ix2 p k) ((contrEquiv1 dot_S5000x128_S128x128_S5000x128_1_0_0_1_n_n 128 rfl rfl).symm q) = ix2 q k := funext fun a => Fin.ext (by
    match a with
    | ⟨0, _⟩ => exact (reg1_rhs_0 _ _).trans hk
    | ⟨1, _⟩ => exact reg1_rhs_1 _ _)
  rw [el, er]

/-- The body's stored value at entry (p, k) of a block, from the blocks it loads: the activated input's row p times column k of the weights, scaled by the row's dinv. -/
theorem reg1_pay_apply (x0 : Vec Ideal S5000x128 .f32) (x1 : Vec Ideal S5000x1 .f32) (x2 x3 x4 x5 x6 : Vec Ideal S1x128 .f32)
    (x7 : Vec Ideal S128x128 .f32) (p : Fin 5000) (k : Fin 128) :
    k1_pay1 (k1_pay2 x0 x1 x2 x5 x6 x3 x4 x7) (k1_pay3 x1) (ix2 p k)
      = (∑ q : Fin 128, actE (x0 (ix2 p q) * x1 (ix2 p 0)) (x2 (ix2 0 q)) (x3 (ix2 0 q)) (x4 (ix2 0 q)) (x5 (ix2 0 q)) (x6 (ix2 0 q)) * x7 (ix2 q k))
          * x1 (ix2 p 0) := by
  unfold k1_pay1 k1_pay2 k1_pay3
  dsimp only
  simp only [shapeCast_self]
  rw [mulf_apply, reg1_matmul_apply, reg1_spread_col]
  refine congrArg (· * x1 (ix2 p 0)) (Finset.sum_congr rfl fun q _ => ?_)
  simp only [truncf_apply, maximumf_apply, addf_apply, mulf_apply, subf_apply, reg1_spread_col, reg1_spread_row, broadcast_apply]
  rfl

/-! ## From blocks to the array -/

theorem reg1_hz : (![0, 0] : Fin 2 → Nat) = fun _ => 0 := funext fun a => by fin_cases a <;> rfl

/-- What the body leaves in the output block at entry (p, k), from the blocks it was given. -/
theorem reg1_out_apply (x0 : Vec Ideal S5000x128 .f32) (x1 : Vec Ideal S5000x1 .f32) (x2 x3 x4 x5 x6 : Vec Ideal S1x128 .f32)
    (x7 : Vec Ideal S128x128 .f32) (p : Fin 5000) (k : Fin 128) :
    out1_8 x0 x1 x2 x3 x4 x5 x6 x7 (ix2 p k)
      = (∑ q : Fin 128, actE (x0 (ix2 p q) * x1 (ix2 p 0)) (x2 (ix2 0 q)) (x3 (ix2 0 q)) (x4 (ix2 0 q)) (x5 (ix2 0 q)) (x6 (ix2 0 q)) * x7 (ix2 q k))
          * x1 (ix2 p 0) := by
  unfold out1_8
  rw [View.canon_unit_zero reg1_hz]
  simp only [View.ld_unit_zero (S := S5000x128) reg1_hz, View.ld_unit_zero (S := S5000x1) reg1_hz, View.ld_unit_zero (S := S1x128) reg1_hz,
    View.ld_unit_zero (S := S128x128) reg1_hz]
  exact reg1_pay_apply x0 x1 x2 x3 x4 x5 x6 x7 p k

/-- The index maps, decided over the twenty points: the row blocks (windows 0, 1 and 8) are at the point's own number, the parameter arrays at block 0. -/
theorem reg1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Each input block at point t, read in the array: rows t * 5000 + p of the two row arrays, the parameter arrays whole. -/
theorem reg1_blk_a (c : Dev nD) (t : Fin cfg1.N) (p : Fin 5000) (q : Fin 128) (n : Fin 100000) (hn : n.val = t.val * 5000 + p.val) :
    (iblk1 V c 0 t : Vec Ideal S5000x128 .f32) (ix2 p q) = r1_a V c (ix2 n q) := by
  obtain ⟨e0, e1, -⟩ := reg1_idx_facts t
  unfold iblk1
  rw [View.read_apply]
  show V c main_v37 _ = V c main_v37 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * q.val = q.val; rw [e1]; omega
theorem reg1_blk_d (c : Dev nD) (t : Fin cfg1.N) (p : Fin 5000) (n : Fin 100000) (hn : n.val = t.val * 5000 + p.val) :
    (iblk1 V c 1 t : Vec Ideal S5000x1 .f32) (ix2 p 0) = r1_d V c (ix2 n 0) := by
  obtain ⟨-, -, e0, e1, -⟩ := reg1_idx_facts t
  unfold iblk1
  rw [View.read_apply]
  show V c main_v38 _ = V c main_v38 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 1 + 1 * 0 = 0; rw [e1]
theorem reg1_blk_bias (c : Dev nD) (t : Fin cfg1.N) (q : Fin 128) :
    (iblk1 V c 2 t : Vec Ideal S1x128 .f32) (ix2 0 q) = r1_bias V c (ix2 0 q) := by
  obtain ⟨-, -, -, -, e0, e1, -⟩ := reg1_idx_facts t
  unfold iblk1
  rw [View.read_apply]
  show V c main_v39 _ = V c main_v39 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega
theorem reg1_blk_g (c : Dev nD) (t : Fin cfg1.N) (q : Fin 128) :
    (iblk1 V c 3 t : Vec Ideal S1x128 .f32) (ix2 0 q) = r1_g V c (ix2 0 q) := by
  obtain ⟨-, -, -, -, -, -, e0, e1, -⟩ := reg1_idx_facts t
  unfold iblk1
  rw [View.read_apply]
  show V c main_v40 _ = V c main_v40 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega
theorem reg1_blk_be (c : Dev nD) (t : Fin cfg1.N) (q : Fin 128) :
    (iblk1 V c 4 t : Vec Ideal S1x128 .f32) (ix2 0 q) = r1_be V c (ix2 0 q) := by
  obtain ⟨-, -, -, -, -, -, -, -, e0, e1, -⟩ := reg1_idx_facts t
  unfold iblk1
  rw [View.read_apply]
  show V c main_v41 _ = V c main_v41 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega
theorem reg1_blk_mu (c : Dev nD) (t : Fin cfg1.N) (q : Fin 128) :
    (iblk1 V c 5 t : Vec Ideal S1x128 .f32) (ix2 0 q) = r1_mu V c (ix2 0 q) := by
  obtain ⟨-, -, -, -, -, -, -, -, -, -, e0, e1, -⟩ := reg1_idx_facts t
  unfold iblk1
  rw [View.read_apply]
  show V c main_v42 _ = V c main_v42 _
  congr 1
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega
theorem reg1_blk_va (c : Dev nD) (t : Fin cfg1.N) (q : Fin 128) :
    (iblk1 V c 6 t : Vec Ideal S1x128 .f32) (ix2 0 q) = r1_va V c (ix2 0 q) := by
  obtain ⟨-, -, -, -, -, -, -, -, -, -, -, -, e0, e1, -⟩ := reg1_idx_facts t
  unfold iblk1
  rw [View.read_apply]
  show V c main_v43 _ = V c main_v43 _
  congr 1
  funext a
  apply Fin.ext
  match a with
  | ⟨0, _⟩ => show win1_6.index t (0 : Fin 2) * 1 + 1 * 0 = 0; rw [e0]
  | ⟨1, _⟩ => show win1_6.index t (1 : Fin 2) * 128 + 1 * q.val = q.val; rw [e1]; omega
theorem reg1_blk_w (c : Dev nD) (t : Fin cfg1.N) (q k : Fin 128) :
    (iblk1 V c 7 t : Vec Ideal S128x128 .f32) (ix2 q k) = r1_w V c (ix2 q k) := by
  obtain ⟨-, -, -, -, -, -, -, -, -, -, -, -, -, -, e0, e1, -⟩ := reg1_idx_facts t
  unfold iblk1
  rw [View.read_apply]
  show V c main_arg5 _ = V c main_arg5 _
  congr 1
  funext a
  apply Fin.ext
  match a with
  | ⟨0, _⟩ => show win1_7.index t (0 : Fin 2) * 128 + 1 * q.val = q.val; rw [e0]; omega
  | ⟨1, _⟩ => show win1_7.index t (1 : Fin 2) * 128 + 1 * k.val = k.val; rw [e1]; omega

/-- The whole output array as one function of the region's arrays. -/
def reg1_spec (c : Dev nD) : A2 100000 128 := fun i =>
  (∑ q : Fin 128, r1_y V c (i 0) q * r1_w V c (ix2 q (i 1))) * r1_d V c (ix2 (i 0) 0)

/-- What point t writes back is block t of that function. -/
theorem reg1_flushed_eq (c : Dev nD) (t : Fin cfg1.N) :
    (dat1 (F := Ideal) V c).flushed 8 t = ((cfg1.win 8).blk t).view.read (Elt Ideal) (reg1_spec V c) := by
  show (cfg1.win 8).cut (grid1.coords t) ((dat1 (F := Ideal) V c).after 8 t) = _
  rw [after1_8]
  funext j
  have hj0 : (j 0).val < 5000 := (j 0).isLt
  have hj1 : (j 1).val < 128 := (j 1).isLt
  have ht : t.val < 20 := lt_of_lt_of_eq t.isLt N_1
  obtain ⟨-, -, -, -, -, -, -, -, -, -, -, -, -, -, -, -, e0, e1⟩ := reg1_idx_facts t
  obtain ⟨p, hp⟩ : ∃ p : Fin 5000, p.val = (j 0).val := ⟨⟨_, hj0⟩, rfl⟩
  obtain ⟨k, hk⟩ : ∃ k : Fin 128, k.val = (j 1).val := ⟨⟨_, hj1⟩, rfl⟩
  obtain ⟨n, hn⟩ : ∃ n : Fin 100000, n.val = t.val * 5000 + p.val := ⟨⟨t.val * 5000 + p.val, by omega⟩, rfl⟩
  have hx : (cfg1.win 8).xinj (grid1.coords t) j = (ix2 p k : S5000x128.Idx) :=
    funext fun a => Fin.ext (by match a with | ⟨0, _⟩ => exact hp.symm | ⟨1, _⟩ => exact hk.symm)
  have hemb : ((cfg1.win 8).blk t).view.emb j = (ix2 n k : (⟨2, ![100000, 128]⟩ : Shape).Idx) :=
    funext fun a => Fin.ext (by
      match a with
      | ⟨0, _⟩ => show win1_8.index t (0 : Fin 2) * 5000 + 1 * (j 0).val = n.val; rw [e0, hn, hp]; omega
      | ⟨1, _⟩ => show win1_8.index t (1 : Fin 2) * 128 + 1 * (j 1).val = k.val; rw [e1, hk]; omega)
  show out1_8 (iblk1 V c 0 t) (iblk1 V c 1 t) (iblk1 V c 2 t) (iblk1 V c 3 t) (iblk1 V c 4 t) (iblk1 V c 5 t) (iblk1 V c 6 t) (iblk1 V c 7 t)
      ((cfg1.win 8).xinj (grid1.coords t) j) = reg1_spec V c (((cfg1.win 8).blk t).view.emb j)
  rw [hx, hemb]
  refine (reg1_out_apply (iblk1 V c 0 t) (iblk1 V c 1 t) (iblk1 V c 2 t) (iblk1 V c 3 t) (iblk1 V c 4 t) (iblk1 V c 5 t) (iblk1 V c 6 t)
    (iblk1 V c 7 t) p k).trans ?_
  show _ = (∑ q : Fin 128, r1_y V c n q * r1_w V c (ix2 q k)) * r1_d V c (ix2 n 0)
  refine congrArg₂ (· * ·) (Finset.sum_congr rfl fun q _ => ?_) (reg1_blk_d V c t p n hn)
  unfold r1_y
  rw [reg1_blk_a V c t p q n hn, reg1_blk_d V c t p n hn, reg1_blk_bias, reg1_blk_g, reg1_blk_be, reg1_blk_mu, reg1_blk_va, reg1_blk_w]

/-- An index of the array is in point t's block iff each coordinate is in the block's range on its axis. -/
theorem reg1_mem_blk (t : Fin cfg1.N) (i : (⟨2, ![100000, 128]⟩ : Shape).Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v44).slice (win1_8.rect t)).set ↔ _
  rw [View.set_slice_whole, Rect.mem_set_unit]
  exact Iff.rfl

/-- Row r of the array is in the block of point r / 5000. -/
theorem reg1_cover (i : (⟨2, ![100000, 128]⟩ : Shape).Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  obtain ⟨-, -, -, -, -, -, -, -, -, -, -, -, -, -, -, -, e0, e1⟩ := reg1_idx_facts t
  have htv : t.val = (i 0).val / 5000 := rfl
  refine ⟨t, flush1_8 t, ?_⟩
  rw [reg1_mem_blk]
  intro a
  match a with
  | ⟨0, _⟩ => show win1_8.index t (0 : Fin 2) * 5000 ≤ (i 0).val ∧ (i 0).val < win1_8.index t (0 : Fin 2) * 5000 + 5000; rw [e0, htv]; omega
  | ⟨1, _⟩ => show win1_8.index t (1 : Fin 2) * 128 ≤ (i 1).val ∧ (i 1).val < win1_8.index t (1 : Fin 2) * 128 + 128; rw [e1]; omega

/-- So the output array ends holding that function. -/
theorem reg1_final (c : Dev nD) : (dat1 (F := Ideal) V c).arrAt 8 cfg1.N = reg1_spec V c :=
  (dat1 (F := Ideal) V c).arrAt_eq_of_cover 8 (reg1_spec V c) (fun t _ => reg1_flushed_eq V c t) reg1_cover

theorem reg1_value (c : Dev nD) (n : Fin 100000) (k : Fin 128) :
    r1_out V c (ix2 n k) = (∑ q : Fin 128, r1_y V c n q * r1_w V c (ix2 q k)) * r1_d V c (ix2 n 0) := by
  show (dat1 (F := Ideal) V c).arrAt 8 cfg1.N (ix2 n k) = _
  rw [reg1_final]
  rfl

end Cert.KernelIdeal.RegValue

end
-- ==== Proof.KReg2.lean ====
/-
  Kernel region 2's output array, entry by entry: the aggregated rows scaled by dinv, bias and batch norm and rectifier applied, times the weight matrix, each row scaled by its node's dinv again. Twenty blocks of 5000 rows; block t of the output is the body's store at point t, and the blocks cover the array.
-/
import proofs.«400615_j49314814493137_3_alg».proof.Proof.Gen.KernelIdeal.Frame
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's arrays as it finds them, and its output array as it leaves it, at their literal types. -/
abbrev r2_a (c : Dev nD) : A2 100000 128 := V c main_v54
abbrev r2_d (c : Dev nD) : A2 100000 1 := V c main_v55
abbrev r2_bias (c : Dev nD) : A2 1 128 := V c main_v56
abbrev r2_g (c : Dev nD) : A2 1 128 := V c main_v57
abbrev r2_be (c : Dev nD) : A2 1 128 := V c main_v58
abbrev r2_mu (c : Dev nD) : A2 1 128 := V c main_v59
abbrev r2_va (c : Dev nD) : A2 1 128 := V c main_v60
abbrev r2_w (c : Dev nD) : A2 128 128 := V c main_arg7
abbrev r2_out (c : Dev nD) : A2 100000 128 := (dat2 (F := Ideal) V c).arrAt 8 cfg2.N

/-- Entry (n, q) of the activated input. -/
def r2_y (c : Dev nD) (n : Fin 100000) (q : Fin 128) : EReal :=
  actE (r2_a V c (ix2 n q) * r2_d V c (ix2 n 0)) (r2_bias V c (ix2 0 q)) (r2_g V c (ix2 0 q)) (r2_be V c (ix2 0 q))
    (r2_mu V c (ix2 0 q)) (r2_va V c (ix2 0 q))

/-! ## The body's arithmetic at one entry of a block -/

/-- A column of 5000 spread over 128 lanes reads its row's one entry. -/
theorem reg2_spread_col {α : Type} (x : S5000x1.Idx → α) (p : Fin 5000) (q : Fin 128) :
    broadcastTo S5000x128 x broadcasts_S5000x1_S5000x128 (ix2 p q) = x (ix2 p 0) := by
  refine broadcastTo_apply x _ (ix2 p q) (ix2 p 0) fun a => ?_
  match a with
  | ⟨0, _⟩ => show p.val = if (5000 : Nat) = 1 then 0 else p.val; rw [if_neg (by decide)]
  | ⟨1, _⟩ => show (0 : Nat) = if (1 : Nat) = 1 then 0 else _; rw [if_pos rfl]

/-- A row of 128 spread over 5000 rows reads its lane's one entry. -/
theorem reg2_spread_row {α : Type} (x : S1x128.Idx → α) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The product's operand indices: the left operand is read at (row, contraction), the right at (contraction, column). -/
theorem reg2_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem reg2_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem reg2_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem reg2_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product onto the zero block, at an entry: the plain sum over the 128 contracted channels. -/
theorem reg2_matmul_apply (l : FVec Ideal S5000x128 .bf16) (r : FVec Ideal S128x128 .bf16) (p : Fin 5000) (k : Fin 128) :
    matmul dot_S5000x128_S128x128_S5000x128_1_0_0_1_n_n none l r (constant S5000x128 .f32 0x00000000#32) (ix2 p k)
      = ∑ q : Fin 128, l (ix2 p q) * r (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun q _ => ?_
  have hk := contrEquiv1_symm_val dot_S5000x128_S128x128_S5000x128_1_0_0_1_n_n 128 rfl rfl q
  have el : dot_S5000x128_S128x128_S5000x128_1_0_0_1_n_n.lhsIdx (ix2 p k) ((contrEquiv1 dot_S5000x128_S128x128_S5000x128_1_0_0_1_n_n 128 rfl rfl).symm q) = ix2 p q := funext fun a => Fin.ext (by
    match a with
    | ⟨0, _⟩ => exact reg2_lhs_0 _ _
    | ⟨1, _⟩ => exact (reg2_lhs_1 _ _).trans hk)
  have er : dot_S5000x128_S128x128_S5000x128_1_0_0_1_n_n.rhsIdx (ix2 p k) ((contrEquiv1 dot_S5000x128_S128x128_S5000x128_1_0_0_1_n_n 128 rfl rfl).symm q) = ix2 q k := funext fun a => Fin.ext (by
    match a with
    | ⟨0, _⟩ => exact (reg2_rhs_0 _ _).trans hk
    | ⟨1, _⟩ => exact reg2_rhs_1 _ _)
  rw [el, er]

/-- The body's stored value at entry (p, k) of a block, from the blocks it loads: the activated input's row p times column k of the weights, scaled by the row's dinv. -/
theorem reg2_pay_apply (x0 : Vec Ideal S5000x128 .f32) (x1 : Vec Ideal S5000x1 .f32) (x2 x3 x4 x5 x6 : Vec Ideal S1x128 .f32)
    (x7 : Vec Ideal S128x128 .f32) (p : Fin 5000) (k : Fin 128) :
    k2_pay1 (k2_pay2 x0 x1 x2 x5 x6 x3 x4 x7) (k2_pay3 x1) (ix2 p k)
      = (∑ q : Fin 128, actE (x0 (ix2 p q) * x1 (ix2 p 0)) (x2 (ix2 0 q)) (x3 (ix2 0 q)) (x4 (ix2 0 q)) (x5 (ix2 0 q)) (x6 (ix2 0 q)) * x7 (ix2 q k))
          * x1 (ix2 p 0) := by
  unfold k2_pay1 k2_pay2 k2_pay3
  dsimp only
  simp only [shapeCast_self]
  rw [mulf_apply, reg2_matmul_apply, reg2_spread_col]
  refine congrArg (· * x1 (ix2 p 0)) (Finset.sum_congr rfl fun q _ => ?_)
  simp only [truncf_apply, maximumf_apply, addf_apply, mulf_apply, subf_apply, reg2_spread_col, reg2_spread_row, broadcast_apply]
  rfl

/-! ## From blocks to the array -/

theorem reg2_hz : (![0, 0] : Fin 2 → Nat) = fun _ => 0 := funext fun a => by fin_cases a <;> rfl

/-- What the body leaves in the output block at entry (p, k), from the blocks it was given. -/
theorem reg2_out_apply (x0 : Vec Ideal S5000x128 .f32) (x1 : Vec Ideal S5000x1 .f32) (x2 x3 x4 x5 x6 : Vec Ideal S1x128 .f32)
    (x7 : Vec Ideal S128x128 .f32) (p : Fin 5000) (k : Fin 128) :
    out2_8 x0 x1 x2 x3 x4 x5 x6 x7 (ix2 p k)
      = (∑ q : Fin 128, actE (x0 (ix2 p q) * x1 (ix2 p 0)) (x2 (ix2 0 q)) (x3 (ix2 0 q)) (x4 (ix2 0 q)) (x5 (ix2 0 q)) (x6 (ix2 0 q)) * x7 (ix2 q k))
          * x1 (ix2 p 0) := by
  unfold out2_8
  rw [View.canon_unit_zero reg2_hz]
  simp only [View.ld_unit_zero (S := S5000x128) reg2_hz, View.ld_unit_zero (S := S5000x1) reg2_hz, View.ld_unit_zero (S := S1x128) reg2_hz,
    View.ld_unit_zero (S := S128x128) reg2_hz]
  exact reg2_pay_apply x0 x1 x2 x3 x4 x5 x6 x7 p k

/-- The index maps, decided over the twenty points: the row blocks (windows 0, 1 and 8) are at the point's own number, the parameter arrays at block 0. -/
theorem reg2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Each input block at point t, read in the array: rows t * 5000 + p of the two row arrays, the parameter arrays whole. -/
theorem reg2_blk_a (c : Dev nD) (t : Fin cfg2.N) (p : Fin 5000) (q : Fin 128) (n : Fin 100000) (hn : n.val = t.val * 5000 + p.val) :
    (iblk2 V c 0 t : Vec Ideal S5000x128 .f32) (ix2 p q) = r2_a V c (ix2 n q) := by
  obtain ⟨e0, e1, -⟩ := reg2_idx_facts t
  unfold iblk2
  rw [View.read_apply]
  show V c main_v54 _ = V c main_v54 _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * q.val = q.val; rw [e1]; omega
theorem reg2_blk_d (c : Dev nD) (t : Fin cfg2.N) (p : Fin 5000) (n : Fin 100000) (hn : n.val = t.val * 5000 + p.val) :
    (iblk2 V c 1 t : Vec Ideal S5000x1 .f32) (ix2 p 0) = r2_d V c (ix2 n 0) := by
  obtain ⟨-, -, e0, e1, -⟩ := reg2_idx_facts t
  unfold iblk2
  rw [View.read_apply]
  show V c main_v55 _ = V c main_v55 _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 1 + 1 * 0 = 0; rw [e1]
theorem reg2_blk_bias (c : Dev nD) (t : Fin cfg2.N) (q : Fin 128) :
    (iblk2 V c 2 t : Vec Ideal S1x128 .f32) (ix2 0 q) = r2_bias V c (ix2 0 q) := by
  obtain ⟨-, -, -, -, e0, e1, -⟩ := reg2_idx_facts t
  unfold iblk2
  rw [View.read_apply]
  show V c main_v56 _ = V c main_v56 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega
theorem reg2_blk_g (c : Dev nD) (t : Fin cfg2.N) (q : Fin 128) :
    (iblk2 V c 3 t : Vec Ideal S1x128 .f32) (ix2 0 q) = r2_g V c (ix2 0 q) := by
  obtain ⟨-, -, -, -, -, -, e0, e1, -⟩ := reg2_idx_facts t
  unfold iblk2
  rw [View.read_apply]
  show V c main_v57 _ = V c main_v57 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega
theorem reg2_blk_be (c : Dev nD) (t : Fin cfg2.N) (q : Fin 128) :
    (iblk2 V c 4 t : Vec Ideal S1x128 .f32) (ix2 0 q) = r2_be V c (ix2 0 q) := by
  obtain ⟨-, -, -, -, -, -, -, -, e0, e1, -⟩ := reg2_idx_facts t
  unfold iblk2
  rw [View.read_apply]
  show V c main_v58 _ = V c main_v58 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega
theorem reg2_blk_mu (c : Dev nD) (t : Fin cfg2.N) (q : Fin 128) :
    (iblk2 V c 5 t : Vec Ideal S1x128 .f32) (ix2 0 q) = r2_mu V c (ix2 0 q) := by
  obtain ⟨-, -, -, -, -, -, -, -, -, -, e0, e1, -⟩ := reg2_idx_facts t
  unfold iblk2
  rw [View.read_apply]
  show V c main_v59 _ = V c main_v59 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega
theorem reg2_blk_va (c : Dev nD) (t : Fin cfg2.N) (q : Fin 128) :
    (iblk2 V c 6 t : Vec Ideal S1x128 .f32) (ix2 0 q) = r2_va V c (ix2 0 q) := by
  obtain ⟨-, -, -, -, -, -, -, -, -, -, -, -, e0, e1, -⟩ := reg2_idx_facts t
  unfold iblk2
  rw [View.read_apply]
  show V c main_v60 _ = V c main_v60 _
  congr 1
  funext a
  apply Fin.ext
  match a with
  | ⟨0, _⟩ => show win2_6.index t (0 : Fin 2) * 1 + 1 * 0 = 0; rw [e0]
  | ⟨1, _⟩ => show win2_6.index t (1 : Fin 2) * 128 + 1 * q.val = q.val; rw [e1]; omega
theorem reg2_blk_w (c : Dev nD) (t : Fin cfg2.N) (q k : Fin 128) :
    (iblk2 V c 7 t : Vec Ideal S128x128 .f32) (ix2 q k) = r2_w V c (ix2 q k) := by
  obtain ⟨-, -, -, -, -, -, -, -, -, -, -, -, -, -, e0, e1, -⟩ := reg2_idx_facts t
  unfold iblk2
  rw [View.read_apply]
  show V c main_arg7 _ = V c main_arg7 _
  congr 1
  funext a
  apply Fin.ext
  match a with
  | ⟨0, _⟩ => show win2_7.index t (0 : Fin 2) * 128 + 1 * q.val = q.val; rw [e0]; omega
  | ⟨1, _⟩ => show win2_7.index t (1 : Fin 2) * 128 + 1 * k.val = k.val; rw [e1]; omega

/-- The whole output array as one function of the region's arrays. -/
def reg2_spec (c : Dev nD) : A2 100000 128 := fun i =>
  (∑ q : Fin 128, r2_y V c (i 0) q * r2_w V c (ix2 q (i 1))) * r2_d V c (ix2 (i 0) 0)

/-- What point t writes back is block t of that function. -/
theorem reg2_flushed_eq (c : Dev nD) (t : Fin cfg2.N) :
    (dat2 (F := Ideal) V c).flushed 8 t = ((cfg2.win 8).blk t).view.read (Elt Ideal) (reg2_spec V c) := by
  show (cfg2.win 8).cut (grid2.coords t) ((dat2 (F := Ideal) V c).after 8 t) = _
  rw [after2_8]
  funext j
  have hj0 : (j 0).val < 5000 := (j 0).isLt
  have hj1 : (j 1).val < 128 := (j 1).isLt
  have ht : t.val < 20 := lt_of_lt_of_eq t.isLt N_2
  obtain ⟨-, -, -, -, -, -, -, -, -, -, -, -, -, -, -, -, e0, e1⟩ := reg2_idx_facts t
  obtain ⟨p, hp⟩ : ∃ p : Fin 5000, p.val = (j 0).val := ⟨⟨_, hj0⟩, rfl⟩
  obtain ⟨k, hk⟩ : ∃ k : Fin 128, k.val = (j 1).val := ⟨⟨_, hj1⟩, rfl⟩
  obtain ⟨n, hn⟩ : ∃ n : Fin 100000, n.val = t.val * 5000 + p.val := ⟨⟨t.val * 5000 + p.val, by omega⟩, rfl⟩
  have hx : (cfg2.win 8).xinj (grid2.coords t) j = (ix2 p k : S5000x128.Idx) :=
    funext fun a => Fin.ext (by match a with | ⟨0, _⟩ => exact hp.symm | ⟨1, _⟩ => exact hk.symm)
  have hemb : ((cfg2.win 8).blk t).view.emb j = (ix2 n k : (⟨2, ![100000, 128]⟩ : Shape).Idx) :=
    funext fun a => Fin.ext (by
      match a with
      | ⟨0, _⟩ => show win2_8.index t (0 : Fin 2) * 5000 + 1 * (j 0).val = n.val; rw [e0, hn, hp]; omega
      | ⟨1, _⟩ => show win2_8.index t (1 : Fin 2) * 128 + 1 * (j 1).val = k.val; rw [e1, hk]; omega)
  show out2_8 (iblk2 V c 0 t) (iblk2 V c 1 t) (iblk2 V c 2 t) (iblk2 V c 3 t) (iblk2 V c 4 t) (iblk2 V c 5 t) (iblk2 V c 6 t) (iblk2 V c 7 t)
      ((cfg2.win 8).xinj (grid2.coords t) j) = reg2_spec V c (((cfg2.win 8).blk t).view.emb j)
  rw [hx, hemb]
  refine (reg2_out_apply (iblk2 V c 0 t) (iblk2 V c 1 t) (iblk2 V c 2 t) (iblk2 V c 3 t) (iblk2 V c 4 t) (iblk2 V c 5 t) (iblk2 V c 6 t)
    (iblk2 V c 7 t) p k).trans ?_
  show _ = (∑ q : Fin 128, r2_y V c n q * r2_w V c (ix2 q k)) * r2_d V c (ix2 n 0)
  refine congrArg₂ (· * ·) (Finset.sum_congr rfl fun q _ => ?_) (reg2_blk_d V c t p n hn)
  unfold r2_y
  rw [reg2_blk_a V c t p q n hn, reg2_blk_d V c t p n hn, reg2_blk_bias, reg2_blk_g, reg2_blk_be, reg2_blk_mu, reg2_blk_va, reg2_blk_w]

/-- An index of the array is in point t's block iff each coordinate is in the block's range on its axis. -/
theorem reg2_mem_blk (t : Fin cfg2.N) (i : (⟨2, ![100000, 128]⟩ : Shape).Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v61).slice (win2_8.rect t)).set ↔ _
  rw [View.set_slice_whole, Rect.mem_set_unit]
  exact Iff.rfl

/-- Row r of the array is in the block of point r / 5000. -/
theorem reg2_cover (i : (⟨2, ![100000, 128]⟩ : Shape).Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : grid2.N = 20 := N_2
  let t : Fin cfg2.N := ⟨(i 0).val / 5000, by show (i 0).val / 5000 < grid2.N; omega⟩
  obtain ⟨-, -, -, -, -, -, -, -, -, -, -, -, -, -, -, -, e0, e1⟩ := reg2_idx_facts t
  have htv : t.val = (i 0).val / 5000 := rfl
  refine ⟨t, flush2_8 t, ?_⟩
  rw [reg2_mem_blk]
  intro a
  match a with
  | ⟨0, _⟩ => show win2_8.index t (0 : Fin 2) * 5000 ≤ (i 0).val ∧ (i 0).val < win2_8.index t (0 : Fin 2) * 5000 + 5000; rw [e0, htv]; omega
  | ⟨1, _⟩ => show win2_8.index t (1 : Fin 2) * 128 ≤ (i 1).val ∧ (i 1).val < win2_8.index t (1 : Fin 2) * 128 + 128; rw [e1]; omega

/-- So the output array ends holding that function. -/
theorem reg2_final (c : Dev nD) : (dat2 (F := Ideal) V c).arrAt 8 cfg2.N = reg2_spec V c :=
  (dat2 (F := Ideal) V c).arrAt_eq_of_cover 8 (reg2_spec V c) (fun t _ => reg2_flushed_eq V c t) reg2_cover

theorem reg2_value (c : Dev nD) (n : Fin 100000) (k : Fin 128) :
    r2_out V c (ix2 n k) = (∑ q : Fin 128, r2_y V c n q * r2_w V c (ix2 q k)) * r2_d V c (ix2 n 0) := by
  show (dat2 (F := Ideal) V c).arrAt 8 cfg2.N (ix2 n k) = _
  rw [reg2_final]
  rfl

end Cert.KernelIdeal.RegValue

end
-- ==== Proof.KReg3.lean ====
/-
  The pooling region's output array, entry by entry: over all nodes, the membership indicator times the node's activated row. The region runs over twenty blocks of 5000 nodes; the one output block is zeroed at the first point and each point adds its block's contraction to what the point before left.
-/
import proofs.«400615_j49314814493137_3_alg».proof.Proof.Gen.KernelIdeal.Frame
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

set_option maxRecDepth 16384

noncomputable section

namespace Cert.KernelIdeal.RegValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's arrays as it finds them, and its output array as it leaves it, at their literal types. -/
abbrev r3_a (c : Dev nD) : A2 100000 128 := V c main_v71
abbrev r3_d (c : Dev nD) : A2 100000 1 := V c main_v72
abbrev r3_bias (c : Dev nD) : A2 1 128 := V c main_v73
abbrev r3_g (c : Dev nD) : A2 1 128 := V c main_v74
abbrev r3_be (c : Dev nD) : A2 1 128 := V c main_v75
abbrev r3_mu (c : Dev nD) : A2 1 128 := V c main_v76
abbrev r3_va (c : Dev nD) : A2 1 128 := V c main_v77
abbrev r3_oh (c : Dev nD) : A2 100000 64 := V c main_v25
abbrev r3_out (c : Dev nD) : A2 64 128 := (dat3 (F := Ideal) V c).arrAt 8 cfg3.N

/-- Entry (n, k) of the activated input. -/
def r3_y (c : Dev nD) (n : Fin 100000) (k : Fin 128) : EReal :=
  actE (r3_a V c (ix2 n k) * r3_d V c (ix2 n 0)) (r3_bias V c (ix2 0 k)) (r3_g V c (ix2 0 k)) (r3_be V c (ix2 0 k))
    (r3_mu V c (ix2 0 k)) (r3_va V c (ix2 0 k))

section Pieces
variable {F : FTy → Type} [FloatOps F]
open Idealize.ShloMosaic.Tactic

private theorem hz3 : (![0, 0] : Fin 2 → Nat) = fun _ => 0 := funext fun a => by fin_cases a <;> rfl

/-- A later point leaves, in the output block holding `xo`, `xo` plus the contraction of its input blocks. -/
private theorem out_B (c : Dev nD) (i : grid3.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S5000x64 .f32) (h8 : a8.IsWhole) (a9 : Memref sig .tc .vmem S64x128 .f32) (h9 : a9.IsWhole) (hc : ¬cond3_0 i)
    (x0 : Vec F S5000x128 .f32) (x1 : Vec F S5000x1 .f32) (x2 x3 x4 x5 x6 : Vec F S1x128 .f32) (x7 : Vec F S5000x64 .f32) (xo : Vec F S64x128 .f32) :
    out3_B_8 c i a1 h1 a2 h2 a3 h3 a4 h4 a5 h5 a6 h6 a7 h7 a8 h8 a9 h9 hc x0 x1 x2 x3 x4 x5 x6 x7 xo
      = k3_pay1 (k3_pay3 x0 x1 x2 x5 x6 x3 x4 x7) xo := by
  unfold out3_B_8
  rw [View.read_writes_eq_canon _ _ _ (cover3_B_8 c i a1 h1 a2 h2 a3 h3 a4 h4 a5 h5 a6 h6 a7 h7 a8 h8 a9 h9 hc x0 x1 x2 x3 x4 x5 x6 x7 xo)]
  unfold kernelRun3_B
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread,
    View.ld_unit_zero (S := S5000x128) hz3, View.ld_unit_zero (S := S5000x1) hz3, View.ld_unit_zero (S := S1x128) hz3, View.ld_unit_zero (S := S5000x64) hz3, View.ld_unit_zero (S := S64x128) hz3]

/-- The first point zeroes the output block and leaves the zero block plus the contraction of its input blocks. -/
private theorem out_A (c : Dev nD) (i : grid3.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S5000x64 .f32) (h8 : a8.IsWhole) (a9 : Memref sig .tc .vmem S64x128 .f32) (h9 : a9.IsWhole) (hc : cond3_0 i)
    (x0 : Vec F S5000x128 .f32) (x1 : Vec F S5000x1 .f32) (x2 x3 x4 x5 x6 : Vec F S1x128 .f32) (x7 : Vec F S5000x64 .f32) :
    out3_A_8 c i a1 h1 a2 h2 a3 h3 a4 h4 a5 h5 a6 h6 a7 h7 a8 h8 a9 h9 hc x0 x1 x2 x3 x4 x5 x6 x7
      = k3_pay1 (k3_pay3 x0 x1 x2 x5 x6 x3 x4 x7) (k3_pay2 (F := F)) := by
  unfold out3_A_8
  rw [View.read_writes_eq_canon _ _ _ (cover3_A_8 c i a1 h1 a2 h2 a3 h3 a4 h4 a5 h5 a6 h6 a7 h7 a8 h8 a9 h9 hc x0 x1 x2 x3 x4 x5 x6 x7)]
  unfold kernelRun3_A
  dsimp only
  sl_unfold_words
  rw [View.canon_cons_unit_zero (S := S64x128) hz3, View.readCov_unit_zero (S := S64x128) _ hz3]
  simp only [View.readAt_eq_ld, h1.read_unread, h2.read_unread, h3.read_unread, h4.read_unread, h5.read_unread, h6.read_unread, h7.read_unread, h8.read_unread,
    View.ld_unit_zero (S := S5000x128) hz3, View.ld_unit_zero (S := S5000x1) hz3, View.ld_unit_zero (S := S1x128) hz3, View.ld_unit_zero (S := S5000x64) hz3, View.ld_unit_zero (S := S64x128) hz3]

end Pieces

section Payload

/-- A column broadcast along the second axis reads, at (p, q), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The contraction's operand indices: both operands are contracted over their rows. -/
private theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
private theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
private theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
private theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- One block's contraction at (g, k): over the block's rows, the membership entry times the activated entry. -/
private theorem pay3_apply (x0 : Vec Ideal S5000x128 .f32) (x1 : Vec Ideal S5000x1 .f32) (x2 x3 x4 x5 x6 : Vec Ideal S1x128 .f32)
    (x7 : Vec Ideal S5000x64 .f32) (g : Fin 64) (k : Fin 128) :
    k3_pay3 x0 x1 x2 x5 x6 x3 x4 x7 (ix2 g k)
      = ∑ r : Fin 5000, x7 (ix2 r g) * actE (x0 (ix2 r k) * x1 (ix2 r 0)) (x2 (ix2 0 k)) (x3 (ix2 0 k)) (x4 (ix2 0 k))
          (x5 (ix2 0 k)) (x6 (ix2 0 k)) := by
  unfold k3_pay3
  refine (Ideal.matmul_constant_zero_apply _ _ _ _ _).trans ?_
  rw [← Equiv.sum_comp (contrEquiv1 dot_S5000x64_S5000x128_S64x128_0_0_1_1_n_n 5000 rfl rfl).symm]
  refine Finset.sum_congr rfl fun r _ => ?_
  have hk := contrEquiv1_symm_val dot_S5000x64_S5000x128_S64x128_0_0_1_1_n_n 5000 rfl rfl r
  have el : dot_S5000x64_S5000x128_S64x128_0_0_1_1_n_n.lhsIdx (ix2 g k) ((contrEquiv1 dot_S5000x64_S5000x128_S64x128_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g k) ((contrEquiv1 dot_S5000x64_S5000x128_S64x128_0_0_1_1_n_n 5000 rfl rfl).symm r) = ix2 r k := funext fun a => Fin.ext (by
    match a with
    | ⟨0, _⟩ => exact (rhs_pool_0 _ _).trans hk
    | ⟨1, _⟩ => exact rhs_pool_1 _ _)
  rw [el, er]
  simp only [shapeCast_self, maximumf_apply, addf_apply, mulf_apply, subf_apply, broadcastTo_1b_ab_apply,
    broadcastTo_a1_ab_apply, broadcast_apply]
  rfl

end Payload

section Blocks

/-- Twenty blocks of 5000 rows are the 100000 rows. -/
private theorem sum_blocks {M : Type*} [AddCommMonoid M] (f : Fin 100000 → M) :
    ∑ t : Fin 20, ∑ r : Fin 5000, f ⟨5000 * t.val + r.val, by have := t.isLt; have := r.isLt; omega⟩
      = ∑ n : Fin 100000, f n := by
  let e : Fin 20 × Fin 5000 ≃ Fin 100000 := finProdFinEquiv.trans (finCongr (by norm_num))
  rw [← e.sum_comp, Fintype.sum_prod_type]
  refine Finset.sum_congr rfl fun t _ => Finset.sum_congr rfl fun r _ => ?_
  congr 1
  apply Fin.ext
  show 5000 * t.val + r.val = r.val + 5000 * t.val
  omega

/-- The update's arithmetic at an entry: what the block held plus the contraction; the zero block holds zero. -/
private theorem pay1_apply (v36 : FVec Ideal S64x128 .f32) (v37 : Vec Ideal S64x128 .f32) (j : S64x128.Idx) :
    k3_pay1 v36 v37 j = v37 j + v36 j := by
  unfold k3_pay1
  simp only [shapeCast_self, addf_apply]
private theorem pay2_apply (j : S64x128.Idx) : k3_pay2 (F := Ideal) j = 0 := by
  unfold k3_pay2
  exact Ideal.ofBits_zero_f32

/-- Row r of block s. -/
private def row (s : ℕ) (hs : s < 20) (r : Fin 5000) : Fin 100000 := ⟨5000 * s + r.val, by have := r.isLt; omega⟩

/-- The index maps over the grid: the row-blocked windows sit at block (t, 0), the others at (0, 0). -/
private theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_7.index t (0 : Fin 2) = t.val ∧ win3_7.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The row-blocked windows' blocks are rows 5000 t … 5000 t + 4999 of their arrays. -/
private theorem blk_a (c : Dev nD) (t : Fin cfg3.N) (ht : t.val < 20) (r : Fin 5000) (k : Fin 128) :
    (iblk3 V c 0 t : Vec Ideal S5000x128 .f32) (ix2 r k) = r3_a V c (ix2 (row t.val ht r) k) := by
  obtain ⟨e0, e1, -⟩ := idx3 t
  unfold iblk3
  rw [View.read_apply]
  show V c main_v71 _ = V c main_v71 _
  congr 1
  funext a
  apply Fin.ext
  match a with
  | ⟨0, _⟩ => show win3_0.index t 0 * 5000 + 1 * r.val = 5000 * t.val + r.val; rw [e0]; omega
  | ⟨1, _⟩ => show win3_0.index t 1 * 128 + 1 * k.val = k.val; rw [e1]; omega

private theorem blk_d (c : Dev nD) (t : Fin cfg3.N) (ht : t.val < 20) (r : Fin 5000) :
    (iblk3 V c 1 t : Vec Ideal S5000x1 .f32) (ix2 r 0) = r3_d V c (ix2 (row t.val ht r) 0) := by
  obtain ⟨-, -, e0, e1, -⟩ := idx3 t
  unfold iblk3
  rw [View.read_apply]
  show V c main_v72 _ = V c main_v72 _
  congr 1
  funext a
  apply Fin.ext
  match a with
  | ⟨0, _⟩ => show win3_1.index t 0 * 5000 + 1 * r.val = 5000 * t.val + r.val; rw [e0]; omega
  | ⟨1, _⟩ => show win3_1.index t 1 * 1 + 1 * 0 = 0; rw [e1]
private theorem blk_oh (c : Dev nD) (t : Fin cfg3.N) (ht : t.val < 20) (r : Fin 5000) (g : Fin 64) :
    (iblk3 V c 7 t : Vec Ideal S5000x64 .f32) (ix2 r g) = r3_oh V c (ix2 (row t.val ht r) g) := by
  obtain ⟨-, -, -, -, e0, e1, -⟩ := idx3 t
  unfold iblk3
  rw [View.read_apply]
  show V c main_v25 _ = V c main_v25 _
  congr 1
  funext a
  apply Fin.ext
  match a with
  | ⟨0, _⟩ => show win3_7.index t 0 * 5000 + 1 * r.val = 5000 * t.val + r.val; rw [e0]; omega
  | ⟨1, _⟩ => show win3_7.index t 1 * 64 + 1 * g.val = g.val; rw [e1]; omega

/-- The five parameter rows are read whole at every point. -/
private theorem blk_bias (c : Dev nD) (t : Fin cfg3.N) (k : Fin 128) :
    (iblk3 V c 2 t : Vec Ideal S1x128 .f32) (ix2 0 k) = r3_bias V c (ix2 0 k) := by
  obtain ⟨-, -, -, -, -, -, e0, e1, -⟩ := idx3 t
  unfold iblk3
  rw [View.read_apply]
  show V c main_v73 _ = V c main_v73 _
  congr 1
  funext a
  apply Fin.ext
  match a with
  | ⟨0, _⟩ => show win3_2.index t 0 * 1 + 1 * 0 = 0; rw [e0]
  | ⟨1, _⟩ => show win3_2.index t 1 * 128 + 1 * k.val = k.val; rw [e1]; omega

private theorem blk_g (c : Dev nD) (t : Fin cfg3.N) (k : Fin 128) :
    (iblk3 V c 3 t : Vec Ideal S1x128 .f32) (ix2 0 k) = r3_g V c (ix2 0 k) := by
  obtain ⟨-, -, -, -, -, -, -, -, e0, e1, -⟩ := idx3 t
  unfold iblk3
  rw [View.read_apply]
  show V c main_v74 _ = V c main_v74 _
  congr 1
  funext a
  apply Fin.ext
  match a with
  | ⟨0, _⟩ => show win3_3.index t 0 * 1 + 1 * 0 = 0; rw [e0]
  | ⟨1, _⟩ => show win3_3.index t 1 * 128 + 1 * k.val = k.val; rw [e1]; omega

private theorem blk_be (c : Dev nD) (t : Fin cfg3.N) (k : Fin 128) :
    (iblk3 V c 4 t : Vec Ideal S1x128 .f32) (ix2 0 k) = r3_be V c (ix2 0 k) := by
  obtain ⟨-, -, -, -, -, -, -, -, -, -, e0, e1, -⟩ := idx3 t
  unfold iblk3
  rw [View.read_apply]
  show V c main_v75 _ = V c main_v75 _
  congr 1
  funext a
  apply Fin.ext
  match a with
  | ⟨0, _⟩ => show win3_4.index t 0 * 1 + 1 * 0 = 0; rw [e0]
  | ⟨1, _⟩ => show win3_4.index t 1 * 128 + 1 * k.val = k.val; rw [e1]; omega

private theorem blk_mu (c : Dev nD) (t : Fin cfg3.N) (k : Fin 128) :
    (iblk3 V c 5 t : Vec Ideal S1x128 .f32) (ix2 0 k) = r3_mu V c (ix2 0 k) := by
  obtain ⟨-, -, -, -, -, -, -, -, -, -, -, -, e0, e1, -⟩ := idx3 t
  unfold iblk3
  rw [View.read_apply]
  show V c main_v76 _ = V c main_v76 _
  congr 1
  funext a
  apply Fin.ext
  match a with
  | ⟨0, _⟩ => show win3_5.index t 0 * 1 + 1 * 0 = 0; rw [e0]
  | ⟨1, _⟩ => show win3_5.index t 1 * 128 + 1 * k.val = k.val; rw [e1]; omega

private theorem blk_va (c : Dev nD) (t : Fin cfg3.N) (k : Fin 128) :
    (iblk3 V c 6 t : Vec Ideal S1x128 .f32) (ix2 0 k) = r3_va V c (ix2 0 k) := by
  obtain ⟨-, -, -, -, -, -, -, -, -, -, -, -, -, -, e0, e1⟩ := idx3 t
  unfold iblk3
  rw [View.read_apply]
  show V c main_v77 _ = V c main_v77 _
  congr 1
  funext a
  apply Fin.ext
  match a with
  | ⟨0, _⟩ => show win3_6.index t 0 * 1 + 1 * 0 = 0; rw [e0]
  | ⟨1, _⟩ => show win3_6.index t 1 * 128 + 1 * k.val = k.val; rw [e1]; omega

/-- Block s's share of entry (g, k): over its rows, the membership entry times the activated entry. -/
private def blockTerm (c : Dev nD) (g : Fin 64) (k : Fin 128) (s : ℕ) (hs : s < 20) : EReal :=
  ∑ r : Fin 5000, r3_oh V c (ix2 (row s hs r) g) * r3_y V c (row s hs r) k

/-- The contraction of point t's blocks at (g, k) is block t's share. -/
private theorem point_term (c : Dev nD) (t : Fin cfg3.N) (ht : t.val < 20) (g : Fin 64) (k : Fin 128) :
    k3_pay3 (F := Ideal) (iblk3 V c 0 t) (iblk3 V c 1 t) (iblk3 V c 2 t) (iblk3 V c 5 t) (iblk3 V c 6 t) (iblk3 V c 3 t)
      (iblk3 V c 4 t) (iblk3 V c 7 t) (ix2 g k) = blockTerm V c g k t.val ht := by
  refine (pay3_apply (iblk3 V c 0 t) (iblk3 V c 1 t) (iblk3 V c 2 t) (iblk3 V c 3 t) (iblk3 V c 4 t) (iblk3 V c 5 t)
    (iblk3 V c 6 t) (iblk3 V c 7 t) g k).trans ?_
  unfold blockTerm r3_y
  refine Finset.sum_congr rfl fun r _ => ?_
  rw [blk_a V c t ht r k, blk_d V c t ht r, blk_oh V c t ht r g, blk_bias V c t k, blk_g V c t k, blk_be V c t k,
    blk_mu V c t k, blk_va V c t k]

/-- The first point leaves block 0's share; -/
private theorem step_A (c : Dev nD) (t : Fin cfg3.N) (h0 : t.val % 20 = 0) (ht : t.val < 20) (g : Fin 64) (k : Fin 128) :
    (outsAt3 V c t.val t.isLt : Vec Ideal S64x128 .f32) (ix2 g k) = blockTerm V c g k t.val ht := by
  rw [outsAt3_A V c t h0]
  refine (congrFun (out_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t) (iblk3 V c 6 t) (iblk3 V c 7 t)) (ix2 g k)).trans ?_
  refine (pay1_apply _ _ (ix2 g k)).trans ?_
  rw [pay2_apply, zero_add]
  exact point_term V c t ht g k

/-- a later point adds its block's share to what the point before left. -/
private theorem step_B (c : Dev nD) (t : Fin cfg3.N) (h0 : ¬t.val % 20 = 0) (ht : t.val < 20) (g : Fin 64) (k : Fin 128) :
    (outsAt3 V c t.val t.isLt : Vec Ideal S64x128 .f32) (ix2 g k)
      = (outsAt3 V c (t.val - 1) (Nat.lt_of_le_of_lt (Nat.sub_le _ _) t.isLt) : Vec Ideal S64x128 .f32) (ix2 g k)
        + blockTerm V c g k t.val ht := by
  rw [outsAt3_B V c t h0]
  refine (congrFun (out_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt))) (ix2 g k)).trans ?_
  refine (pay1_apply _ _ (ix2 g k)).trans ?_
  rw [point_term V c t ht g k]

/-- After point n the output block holds the shares of blocks 0 … n. -/
private theorem outs_eq (c : Dev nD) (g : Fin 64) (k : Fin 128) : ∀ (n : ℕ) (h : n < cfg3.N) (h20 : n < 20),
    (outsAt3 V c n h : Vec Ideal S64x128 .f32) (ix2 g k)
      = ∑ s : Fin (n + 1), blockTerm V c g k s.val (lt_of_le_of_lt (Nat.le_of_lt_succ s.isLt) h20)
  | 0, h, h20 => by
    rw [Fin.sum_univ_one]
    exact step_A V c ⟨0, h⟩ rfl h20 g k
  | n + 1, h, h20 => by
    rw [Fin.sum_univ_castSucc]
    refine (step_B V c ⟨n + 1, h⟩ (by dsimp only; omega) h20 g k).trans ?_
    exact congrArg (· + blockTerm V c g k (n + 1) h20) (outs_eq c g k n (Nat.lt_of_succ_lt h) (Nat.lt_of_succ_lt h20))

end Blocks

section Final

/-- The last point. -/
private abbrev t19 : Fin cfg3.N := ⟨19, by rw [show cfg3.N = 20 from N_3]; decide⟩

/-- The pooled array: entry (g, k) sums, over all nodes, the membership entry times the activated entry. -/
private def pooled (c : Dev nD) : A2 64 128 := fun i => ∑ n : Fin 100000, r3_oh V c (ix2 n (i 0)) * r3_y V c n (i 1)

/-- After the last point the output block holds the pooled array. -/
private theorem last_eq (c : Dev nD) : (outsAt3 V c t19.val t19.isLt : Vec Ideal S64x128 .f32) = pooled V c := by
  funext i
  obtain ⟨g, k, rfl⟩ : ∃ (g : Fin 64) (k : Fin 128), i = ix2 g k := ⟨i 0, i 1, eq_ix2 i⟩
  refine (outs_eq V c g k 19 t19.isLt (by decide)).trans ?_
  exact sum_blocks (fun n => r3_oh V c (ix2 n g) * r3_y V c n k)

/-- The one write-back, after the last point, writes the pooled array: the output's one block is the whole array. -/
private theorem flushed_eq (c : Dev nD) (t : Fin cfg3.N) (hf : (cfg3.win 8).flush t = true) :
    (dat3 V c).flushed 8 t = ((cfg3.win 8).blk t).view.read (Elt Ideal) (pooled V c) := by
  have hN : cfg3.N = 20 := N_3
  have h19 : t.val = 19 := by have := (flush3_8 t).mp hf; have := t.isLt; omega
  obtain rfl : t = t19 := Fin.ext h19
  show (cfg3.win 8).cut (grid3.coords t19) ((dat3 V c).after 8 t19) = _
  rw [after3_8, last_eq]
  have hz' : (fun a => win3_8.index t19 a * main_v78.ty.shape.size a) = fun _ => 0 := funext fun a => by fin_cases a <;> decide +kernel
  exact (Memref.read_access_unit_zero (Elt Ideal) main_v78 hz' (fun a => by rw [congrFun hz' a]; simp) (pooled V c)).symm

theorem reg3_value (c : Dev nD) (g : Fin 64) (k : Fin 128) :
    r3_out V c (ix2 g k) = ∑ n : Fin 100000, r3_oh V c (ix2 n g) * r3_y V c n k := by
  have hfin : (dat3 V c).arrAt 8 cfg3.N = pooled V c :=
    (dat3 V c).arrAt_eq_of_cover 8 (pooled V c) (flushed_eq V c) fun i =>
      ⟨t19, (flush3_8 t19).mpr rfl, by
        show i ∈ ((View.whole main_v78).slice (win3_8.rect t19)).set
        rw [View.set_slice_whole, Rect.mem_set_unit]
        intro a
        have h0 : (i 0 : Nat) < 64 := (i 0).isLt
        have h1 : (i 1 : Nat) < 128 := (i 1).isLt
        match a with
        | ⟨0, _⟩ => show win3_8.index t19 0 * win3_8.size 0 ≤ (i 0 : Nat) ∧ (i 0 : Nat) < win3_8.index t19 0 * win3_8.size 0 + win3_8.xsize (grid3.coords t19) 0
                    rw [show win3_8.index t19 0 * win3_8.size 0 = 0 from by decide +kernel, show win3_8.xsize (grid3.coords t19) 0 = 64 from by decide +kernel]; omega
        | ⟨1, _⟩ => show win3_8.index t19 1 * win3_8.size 1 ≤ (i 1 : Nat) ∧ (i 1 : Nat) < win3_8.index t19 1 * win3_8.size 1 + win3_8.xsize (grid3.coords t19) 1
                    rw [show win3_8.index t19 1 * win3_8.size 1 = 0 from by decide +kernel, show win3_8.xsize (grid3.coords t19) 1 = 128 from by decide +kernel]; omega⟩
  show (dat3 (F := Ideal) V c).arrAt 8 cfg3.N (ix2 g k) = _
  rw [hfin]
  rfl

end Final

end Cert.KernelIdeal.RegValue

end
-- ==== Proof.KHostA.lean ====
/-
  The first three stretches of host operations, read at an index: the in-degree by a scatter-add of ones along the destination words, its inverse square root where positive, the graph sizes by a scatter-add of ones along the batch words, and the membership indicator by comparing each node's batch word with each graph's number.
-/
import proofs.«400615_j49314814493137_3_alg».proof.Proof.Gen.KernelIdeal.Frame
import proofs.«400615_j49314814493137_3_alg».proof.Proof.Net
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- the TensorCore's buffer contents before the stretch: any valuation
variable (W : Valuation τ sig (Elt Ideal))

/-- The contents after the three stretches. -/
abbrev stA : Valuation τ sig (Elt Ideal) :=
  StableHlo.after hostOps0_2 (StableHlo.after hostOps0_1 (StableHlo.after hostOps0 W))

/-! ## Layout operations of the stretches, read at an index -/
/-- A scalar float constant broadcast to any shape reads the constant's value everywhere. -/
private theorem bcast_const_apply {t : Shape} (h : S_.BroadcastsInDim t (![] : Fin 0 → Fin t.rank)) (b : BitVec 32) (i : t.Idx) :
    broadcastInDim t ![] h (constant (F := Ideal) S_ .f32 b) i = Ideal.ofBits .f32 b :=
  broadcastInDim_apply _ h _ i (fun a => a.elim0) (fun a => a.elim0)

/-- A vector broadcast to a column reads, at row e, the vector's entry e. -/
private theorem bcast_col_apply {α : Type} {E : Nat} (hE : E ≠ 1)
    (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] h x (ix2 e 0) = x (ix1 e) :=
  broadcastInDim_apply _ h x (ix2 e 0) (ix1 e) (fun a => match a with
    | ⟨0, _⟩ => by show e.val = if E = 1 then 0 else e.val; rw [if_neg hE])

/-- Ones scatter-added into zeros along a column of words: at element i, zero plus a one per word that reads i. -/
private theorem ones_scatter_apply {N E : Nat} (hE : E ≠ 1)
    (wf : ScatterDims.WF ⟨1, ![N]⟩ ⟨2, ![E, 1]⟩ ⟨1, ![E]⟩ [] [0] [0] 1)
    (h0 : S_.BroadcastsInDim ⟨1, ![N]⟩ (![] : Fin 0 → Fin 1)) (h1 : S_.BroadcastsInDim ⟨1, ![E]⟩ (![] : Fin 0 → Fin 1))
    (hc : (⟨1, ![E]⟩ : Shape).BroadcastsInDim ⟨2, ![E, 1]⟩ (![0] : Fin 1 → Fin 2))
    (w : (⟨1, ![E]⟩ : Shape).Idx → BitVec 32) (i : Fin N) :
    Ideal.hostScatterAdd (vecScatterDims N E wf)
        (broadcastInDim ⟨1, ![N]⟩ ![] h0 (constant (F := Ideal) S_ .f32 0x00000000#32))
        (broadcastInDim ⟨2, ![E, 1]⟩ ![0] hc w)
        (broadcastInDim ⟨1, ![E]⟩ ![] h1 (constant (F := Ideal) S_ .f32 0x3F800000#32)) (ix1 i)
      = zeroE + ∑ e ∈ Finset.univ.filter (fun e : Fin E => (w (ix1 e)).toInt = (i.val : Int)), oneE := by
  rw [scatterAddVec_apply, bcast_const_apply]
  simp only [bcast_const_apply, bcast_col_apply hE hc]
  rfl

/-- The same through the host's operation, for dimension numbers that are an element scatter's. -/
private theorem scatter_ones_read {N E : Nat} (hE : E ≠ 1)
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (h0 : S_.BroadcastsInDim ⟨1, ![N]⟩ (![] : Fin 0 → Fin 1)) (h1 : S_.BroadcastsInDim ⟨1, ![E]⟩ (![] : Fin 0 → Fin 1))
    (hc : (⟨1, ![E]⟩ : Shape).BroadcastsInDim ⟨2, ![E, 1]⟩ (![0] : Fin 1 → Fin 2))
    (w : (⟨1, ![E]⟩ : Shape).Idx → BitVec 32) (i : Fin N) :
    Host.scatterAdd (F := Ideal) (φ := .f32) d
        (broadcastInDim ⟨1, ![N]⟩ ![] h0 (constant (F := Ideal) S_ .f32 0x00000000#32))
        (broadcastInDim ⟨2, ![E, 1]⟩ ![0] hc w)
        (broadcastInDim ⟨1, ![E]⟩ ![] h1 (constant (F := Ideal) S_ .f32 0x3F800000#32)) (ix1 i)
      = zeroE + ∑ e ∈ Finset.univ.filter (fun e : Fin E => (w (ix1 e)).toInt = (i.val : Int)), oneE := by
  subst hd
  unfold Host.scatterAdd
  rw [Ideal.hostScatterAdd_def]
  exact ones_scatter_apply hE wf h0 h1 hc w i

/-- The in-degree from an array of destination words, as the sum it is. -/
private theorem deg_wvec (x : IW1 1700000) (i : Fin 100000) :
    deg (wvec x) i = zeroE + ∑ e ∈ Finset.univ.filter (fun e : Fin 1700000 => (x (ix1 e)).toInt = (i.val : Int)), oneE := by
  unfold deg inE wvec
  with_reducible rfl

/-- A graph's size from an array of batch words, as the sum it is. -/
private theorem cnt_wvec (x : IW1 100000) (g : Fin 64) :
    cnt (wvec x) g = zeroE + ∑ e ∈ Finset.univ.filter (fun e : Fin 100000 => (x (ix1 e)).toInt = (g.val : Int)), oneE := by
  unfold cnt member wvec
  with_reducible rfl

/-- The scatters' dimension numbers are an element scatter's. -/
private theorem deg_dims : scatter_S100000_S1700000x1_S1700000_n_0_0_1
    = vecScatterDims 100000 1700000 scatter_S100000_S1700000x1_S1700000_n_0_0_1.wf := rfl
private theorem cnt_dims : scatter_S64_S100000x1_S100000_n_0_0_1
    = vecScatterDims 64 100000 scatter_S64_S100000x1_S100000_n_0_0_1.wf := rfl

/-- A zero constant broadcast reads zero everywhere. -/
private theorem bcast_zero_apply {t : Shape} (h : S_.BroadcastsInDim t (![] : Fin 0 → Fin t.rank)) (i : t.Idx) :
    broadcastInDim t ![] h (constant (F := Ideal) S_ .f32 0x00000000#32) i = zeroE :=
  bcast_const_apply h _ i

/-- The choice between the inverse square root and a fallback, by a comparison, at an index. -/
private theorem choice_apply {s : Shape} (d z z' : FVec Ideal s .f32) (i : s.Idx) :
    select (cmpf (F := Ideal) .ogt d z) (Host.rsqrt (F := Ideal) d) z' i
      = Scalar.select (Ideal.cmp .ogt (d i) (z i)) (Ideal.rsqrt (d i)) (z' i) := rfl

/-! ## Each stretch from any contents V -/

section Stretch

/-- The inlined choice, at any float type. -/
private theorem s1_v14_F {F : FTy → Type} [FloatOps F] (X : Valuation τ sig (Elt F)) :
    StableHlo.after hostOps0_1 X (Proc.devRef .tc main_v14)
      = (select (X (Proc.devRef .tc main_v12) : (⟨S100000, .i1⟩ : BufTy).Contents (Elt F))
          (X (Proc.devRef .tc main_v13) : (⟨S100000, .f32⟩ : BufTy).Contents (Elt F))
          (broadcastInDim S100000 ![] bcast_S_S100000 (X (Proc.devRef .tc main_cst_2) : (⟨S_, .f32⟩ : BufTy).Contents (Elt F)))
            : (⟨S100000, .f32⟩ : BufTy).Contents (Elt F)) := by
  after_results
  rfl

variable (V : Valuation τ sig (Elt Ideal))

/-- The arguments' buffers. -/
private abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- An argument's buffer is not the buffer of a reference that is no argument. -/
private theorem arg_ne {b : Ref sig .tc} (hb : b ∈ argRefs) (y : Ref sig .tc) (hy : y ∉ argRefs) :
    (Proc.devRef (τ := τ) .tc b) ≠ Proc.devRef .tc y :=
  StableHlo.devRef_ne_of_ne (fun e => hy (e ▸ hb))

/-- No operation of the first stretch writes an argument. -/
private theorem keep0 (b : Ref sig .tc) (hb : b ∈ argRefs) :
    StableHlo.after hostOps0 V (Proc.devRef .tc b) = V (Proc.devRef .tc b) := by
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact arg_ne hb _ (by decide)

/-- Nor of the second. -/
private theorem keep1 (b : Ref sig .tc) (hb : b ∈ argRefs) :
    StableHlo.after hostOps0_1 V (Proc.devRef .tc b) = V (Proc.devRef .tc b) := by
  refine StableHlo.after_of_forall_not_mem _ _ (List.forall_iff_forall_mem.mp ?_)
  simp only [hostOps0_1, List.Forall, StableHlo.nullary_writes, StableHlo.unary_writes, StableHlo.binary_writes,
    StableHlo.ternary_writes, StableHlo.reshape_writes, Finset.mem_singleton]
  repeat' apply And.intro
  all_goals exact arg_ne hb _ (by decide)

/-- Nor of the third. -/
private theorem keep2 (b : Ref sig .tc) (hb : b ∈ argRefs) :
    StableHlo.after hostOps0_2 V (Proc.devRef .tc b) = V (Proc.devRef .tc b) := by
  refine StableHlo.after_of_forall_not_mem _ _ (List.forall_iff_forall_mem.mp ?_)
  simp only [hostOps0_2, List.Forall, StableHlo.nullary_writes, StableHlo.unary_writes, StableHlo.binary_writes,
    StableHlo.ternary_writes, StableHlo.reshape_writes, Finset.mem_singleton]
  repeat' apply And.intro
  all_goals exact arg_ne hb _ (by decide)

/-- The first stretch, split after the destination words are in place. -/
private theorem hostOps0_split :
    StableHlo.after hostOps0 V = StableHlo.after (hostOps0.drop 7) (StableHlo.after (hostOps0.take 7) V) := rfl

/-- After the destination words are in place nothing writes them. -/
private theorem s012_v6 :
    StableHlo.after hostOps0_2 (StableHlo.after hostOps0_1 (StableHlo.after (hostOps0.drop 7) V)) (Proc.devRef .tc main_v6)
      = V (Proc.devRef .tc main_v6) := by
  simp only [hostOps0, List.drop_succ_cons, List.drop_zero]
  after_results

/-- The third stretch does not write the inverse square roots. -/
private theorem s2_keep_v14 :
    StableHlo.after hostOps0_2 V (Proc.devRef .tc main_v14) = V (Proc.devRef .tc main_v14) := by
  after_results

/-- The in-degree: ones scatter-added into zeros along the destination words as a column. -/
private theorem b_v10_apply (n : Fin 100000) :
    (StableHlo.after (hostOps0.drop 7) V (Proc.devRef .tc main_v10) : A1 100000) (ix1 n)
      = deg (wvec (V (Proc.devRef .tc main_v6))) n := by
  simp only [hostOps0, List.drop_succ_cons, List.drop_zero]
  after_results
  generalize V (Proc.devRef .tc main_v6) = v6
  rw [scatter_ones_read (by decide) _ _ deg_dims, deg_wvec]

/-- The comparison of the in-degrees with zero. -/
private theorem b_v12 :
    StableHlo.after (hostOps0.drop 7) V (Proc.devRef .tc main_v12)
      = (cmpf (F := Ideal) .ogt
          (StableHlo.after (hostOps0.drop 7) V (Proc.devRef .tc main_v10) : (⟨S100000, .f32⟩ : BufTy).Contents (Elt Ideal))
          (broadcastInDim S100000 ![] bcast_S_S100000 (constant (F := Ideal) S_ .f32 0x00000000#32))
            : (⟨S100000, .i1⟩ : BufTy).Contents (Elt Ideal)) := by
  simp only [hostOps0, List.drop_succ_cons, List.drop_zero]
  after_results

/-- Their inverse square roots. -/
private theorem b_v13 :
    StableHlo.after (hostOps0.drop 7) V (Proc.devRef .tc main_v13)
      = (Host.rsqrt (F := Ideal) (φ := .f32)
          (StableHlo.after (hostOps0.drop 7) V (Proc.devRef .tc main_v10) : (⟨S100000, .f32⟩ : BufTy).Contents (Elt Ideal))
            : (⟨S100000, .f32⟩ : BufTy).Contents (Elt Ideal)) := by
  simp only [hostOps0, List.drop_succ_cons, List.drop_zero]
  after_results

/-- The zero the choice falls back to. -/
private theorem b_cst2 :
    StableHlo.after (hostOps0.drop 7) V (Proc.devRef .tc main_cst_2)
      = (constant (F := Ideal) S_ .f32 0x00000000#32 : (⟨S_, .f32⟩ : BufTy).Contents (Elt Ideal)) := by
  simp only [hostOps0, List.drop_succ_cons, List.drop_zero]
  after_results

/-- The rest of the first stretch and the second: the in-degree compared with zero, its inverse square root, and the
    choice between that and zero. -/
private theorem s01_v14 (n : Fin 100000) :
    (StableHlo.after hostOps0_1 (StableHlo.after (hostOps0.drop 7) V) (Proc.devRef .tc main_v14) : A1 100000) (ix1 n)
      = dinv (wvec (V (Proc.devRef .tc main_v6))) n := by
  rw [s1_v14_F, b_v12, b_v13, b_cst2, choice_apply, b_v10_apply, bcast_zero_apply]
  unfold dinv
  with_reducible rfl

/-- The reshape to a column reads the vector's entry. -/
private theorem s2_v26 (n : Fin 100000) :
    (StableHlo.after hostOps0_2 V (Proc.devRef .tc main_v26) : A2 100000 1) (ix2 n 0)
      = (V (Proc.devRef .tc main_v14) : A1 100000) (ix1 n) := by
  after_results
  show shapeCast S100000x1 (V (Proc.devRef .tc main_v14)) shapeCasts_S100000_S100000x1 (ix2 n 0) = _
  exact shapeCast_apply _ shapeCasts_S100000_S100000x1 (ix2 n 0) (ix1 n)
    (by rewrite [Shape.rowMajor_val_two, Shape.rowMajor_val_one]; show n.val = n.val * 1 + 0; omega)

/-- The graph sizes: a scatter-add of ones along the batch words. -/
private theorem s2_v18 (g : Fin 64) :
    (StableHlo.after hostOps0_2 V (Proc.devRef .tc main_v18) : A1 64) (ix1 g) = cnt (wvec (V (Proc.devRef .tc main_arg2))) g := by
  after_results
  generalize V (Proc.devRef .tc main_arg2) = bw
  rw [scatter_ones_read (by decide) _ _ cnt_dims, cnt_wvec]

/-- The membership indicator: node n's batch word compared with graph g's number, the outcome as a float. -/
private theorem s2_v25 (n : Fin 100000) (g : Fin 64) :
    (StableHlo.after hostOps0_2 V (Proc.devRef .tc main_v25) : A2 100000 64) (ix2 n g)
      = ohv ((V (Proc.devRef .tc main_arg2) : IW1 100000) (ix1 n)) g := by
  after_results
  generalize V (Proc.devRef .tc main_arg2) = bw
  -- the batch word of node n, spread along the graphs
  have h1 : broadcastInDim S100000x64 ![0, 1] bcast_S100000x1_S100000x64_0_1
      (broadcastInDim S100000x1 ![0] bcast_S100000_S100000x1_0 bw) (ix2 n g) = (bw : IW1 100000) (ix1 n) := by
    refine (broadcastInDim_apply _ bcast_S100000x1_S100000x64_0_1 _ (ix2 n g) (ix2 n 0) (fun a => match a with
      | ⟨0, _⟩ => by show n.val = if (100000 : Nat) = 1 then 0 else n.val; rw [if_neg (by decide)]
      | ⟨1, _⟩ => by show 0 = if (1 : Nat) = 1 then 0 else g.val; rw [if_pos rfl])).trans ?_
    exact bcast_col_apply (by decide) bcast_S100000_S100000x1_0 _ n
  -- the graph's number, spread along the nodes
  have h2 : broadcastInDim S100000x64 ![0, 1] bcast_S1x64_S100000x64_0_1
      (broadcastInDim S1x64 ![1] bcast_S64_S1x64_1 (iotaInDim S64 32 0)) (ix2 n g) = BitVec.ofNat 32 g.val := by
    refine (broadcastInDim_apply _ bcast_S1x64_S100000x64_0_1 _ (ix2 n g) (ix2 0 g) (fun a => match a with
      | ⟨0, _⟩ => by show 0 = if (1 : Nat) = 1 then 0 else n.val; rw [if_pos rfl]
      | ⟨1, _⟩ => by show g.val = if (64 : Nat) = 1 then 0 else g.val; rw [if_neg (by decide)])).trans ?_
    refine (broadcastInDim_apply _ bcast_S64_S1x64_1 _ (ix2 0 g) (ix1 g) (fun a => match a with
      | ⟨0, _⟩ => by show g.val = if (64 : Nat) = 1 then 0 else g.val; rw [if_neg (by decide)])).trans ?_
    rfl
  show (((IntOp.cmpi .eq
      (broadcastInDim S100000x64 ![0, 1] bcast_S100000x1_S100000x64_0_1
        (broadcastInDim S100000x1 ![0] bcast_S100000_S100000x1_0 bw) (ix2 n g))
      (broadcastInDim S100000x64 ![0, 1] bcast_S1x64_S100000x64_0_1
        (broadcastInDim S1x64 ![1] bcast_S64_S1x64_1 (iotaInDim S64 32 0)) (ix2 n g))).toNat : ℝ) : EReal) = _
  rw [h1, h2]
  rfl

end Stretch

/-! ## The three stretches from W -/

/-- dinv of node n, from the destination words the first stretch leaves in main_v6. -/
theorem stA_v14 (n : Fin 100000) :
    (stA W (Proc.devRef .tc main_v14) : A1 100000) (ix1 n) = dinv (wvec (stA W (Proc.devRef .tc main_v6))) n := by
  unfold stA
  rw [hostOps0_split W, s012_v6, s2_keep_v14, s01_v14]

/-- The same as a column. -/
theorem stA_v26 (n : Fin 100000) :
    (stA W (Proc.devRef .tc main_v26) : A2 100000 1) (ix2 n 0) = (stA W (Proc.devRef .tc main_v14) : A1 100000) (ix1 n) := by
  unfold stA
  rw [s2_v26, s2_keep_v14]

/-- The graph sizes. -/
theorem stA_v18 (g : Fin 64) :
    (stA W (Proc.devRef .tc main_v18) : A1 64) (ix1 g) = cnt (wvec (W (Proc.devRef .tc main_arg2))) g := by
  unfold stA
  rw [s2_v18, keep1 _ main_arg2 (by decide), keep0 _ main_arg2 (by decide)]

/-- The membership indicator. -/
theorem stA_v25 (n : Fin 100000) (g : Fin 64) :
    (stA W (Proc.devRef .tc main_v25) : A2 100000 64) (ix2 n g) = ohv ((W (Proc.devRef .tc main_arg2) : IW1 100000) (ix1 n)) g := by
  unfold stA
  rw [s2_v25, keep1 _ main_arg2 (by decide), keep0 _ main_arg2 (by decide)]

/-- No argument is written. -/
theorem stA_keep_arg (b : Ref sig .tc) (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    stA W (Proc.devRef .tc b) = W (Proc.devRef .tc b) := by
  unfold stA
  rw [keep2 _ b hb, keep1 _ b hb, keep0 _ b hb]

end Cert.KernelIdeal.HostValue

end
-- ==== Proof.KHostBAux.lean ====
/-
  The operations of a stretch of host operations between kernel regions, read at an index over any arrays: a vector of words laid
  as a column, the source words with the negative ones counted from the end, the row gather by such a column, the accumulating
  row scatter by such a column into zeros, and a vector re-laid as a column or as a row.
-/
import proofs.«400615_j49314814493137_3_alg».proof.Proof.Gen.KernelIdeal
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostValue.Stretch

open Cert.KernelIdeal Cert.KernelIdeal.Gen Cert.Gcn
open Idealize.ShloMosaic Idealize.ShloMosaic.ValueIdx

/-- A vector of words laid as a column reads, at row e, the vector's word e. -/
theorem col_apply (v : IW1 1700000) (e : Fin 1700000) :
    (broadcastInDim S1700000x1 ![0] bcast_S1700000_S1700000x1_0 v : IVec S1700000x1 32) (ix2 e (0 : Fin 1)) = v (ix1 e) :=
  broadcastInDim_apply _ bcast_S1700000_S1700000x1_0 v (ix2 e (0 : Fin 1)) (ix1 e) (fun a => match a with
    | ⟨0, _⟩ => by show e.val = if (1700000 : Nat) = 1 then 0 else e.val; rw [if_neg (by decide)])

/-- The source words with the negative ones counted from the end. -/
def wrapped (s : IW1 1700000) : IVec S1700000 32 :=
  select (cmpi .slt s (broadcastInDim S1700000 ![] bcast_S_S1700000 (constantI S_ 32 0#32)))
    (addi s (broadcastInDim S1700000 ![] bcast_S_S1700000 (constantI S_ 32 100000#32))) s

/-- At edge e it is the edge's source word wrapped. -/
theorem wrapped_apply (s : IW1 1700000) (e : Fin 1700000) : wrapped s (ix1 e) = wrapN (s (ix1 e)) := rfl

/-- The array of zeros reads zero. -/
theorem zeros_apply (i : Fin 100000) (k : Fin 128) :
    (broadcastInDim S100000x128 ![] bcast_S_S100000x128 (constant (F := Ideal) S_ .f32 0x00000000#32) : A2 100000 128) (ix2 i k)
      = zeroE := rfl

/-- The program's row scatter is the row scatter of operand [100000, 128], indices [1700000, 1], updates [1700000, 128]. -/
theorem scat_dims : scatter_S100000x128_S1700000x1_S1700000x128_1_0_0_1
    = rowScatterDims 100000 1700000 128 scatter_S100000x128_S1700000x1_S1700000x128_1_0_0_1.wf := rfl

/-- Its accumulating form at (i, q): the operand there plus column q of the update rows whose index word, read signed, is i. -/
theorem scat_read (x : A2 100000 128) (idx : (⟨2, ![1700000, 1]⟩ : Shape).Idx → BitVec 32) (u : A2 1700000 128)
    (i : Fin 100000) (q : Fin 128) :
    (Host.scatterAdd (F := Ideal) (φ := .f32) scatter_S100000x128_S1700000x1_S1700000x128_1_0_0_1 x idx u : A2 100000 128) (ix2 i q)
      = x (ix2 i q) + ∑ e ∈ Finset.univ.filter (fun e : Fin 1700000 => (idx (ix2 e (0 : Fin 1))).toInt = (i.val : Int)), u (ix2 e q) := by
  unfold Host.scatterAdd
  rw [Ideal.hostScatterAdd_def, scat_dims]
  exact scatterAddRows_apply _ x idx u i q

/-- The program's row gather is the row gather of operand [100000, 128], indices [1700000, 1], result [1700000, 128]. -/
theorem gath_dims : gather_S100000x128_S1700000x1_S1700000x128_1_0_n_n_0_1_1128
    = rowGatherDims 100000 1700000 128 gather_S100000x128_S1700000x1_S1700000x128_1_0_n_n_0_1_1128.wf := rfl

/-- It reads, at (e, k), row (index word e clamped) of the operand at column k. -/
theorem gath_read (H : A2 100000 128) (idx : (⟨2, ![1700000, 1]⟩ : Shape).Idx → BitVec 32) (e : Fin 1700000) (k : Fin 128) :
    (Host.gather gather_S100000x128_S1700000x1_S1700000x128_1_0_n_n_0_1_1128 H idx : A2 1700000 128) (ix2 e k)
      = H (ix2 (crow 100000 (by decide) (idx (ix2 e (0 : Fin 1)))) k) := by
  rw [gath_dims]
  exact gatherRows_apply (by decide) _ H idx (ix2 e k)

/-- The term a stretch leaves in its aggregate buffer: rows of H gathered by wrapped source word, scatter-added by
    destination word into zeros. -/
def aggTerm (H : A2 100000 128) (s d : IW1 1700000) : A2 100000 128 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (Host.gather gather_S100000x128_S1700000x1_S1700000x128_1_0_n_n_0_1_1128 H
      (broadcastInDim S1700000x1 ![0] bcast_S1700000_S1700000x1_0 (wrapped s)))

/-- Read at (i, k) it is the aggregate: zero plus, over the edges whose destination word is i, row (wrapped source) of H at k. -/
theorem aggTerm_apply (H : A2 100000 128) (s d : IW1 1700000) (i : Fin 100000) (k : Fin 128) :
    aggTerm H s d (ix2 i k) = agg (wvec s) (wvec d) (mat H) i k := by
  unfold aggTerm agg inE
  refine (scat_read _ _ _ i k).trans ?_
  rw [zeros_apply]
  refine congrArg (fun t => zeroE + t) (Finset.sum_congr (Finset.filter_congr fun e _ => ?_) fun e _ => ?_)
  · rw [col_apply]; exact Iff.rfl
  · rw [gath_read, col_apply, wrapped_apply]; rfl

/-- A vector re-laid as a column reads, at (n, 0), the vector at n. -/
theorem colCast_apply (x : A1 100000) (n : Fin 100000) :
    (shapeCast S100000x1 x shapeCasts_S100000_S100000x1 : A2 100000 1) (ix2 n (0 : Fin 1)) = x (ix1 n) :=
  shapeCast_apply x shapeCasts_S100000_S100000x1 (ix2 n (0 : Fin 1)) (ix1 n) (by
    rw [Shape.rowMajor_val_two, Shape.rowMajor_val_one]
    show n.val = n.val * 1 + 0
    omega)

/-- A vector re-laid as a row reads, at (0, k), the vector at k. -/
theorem rowCast_apply (x : A1 128) (k : Fin 128) :
    (shapeCast S1x128 x shapeCasts_S128_S1x128 : A2 1 128) (ix2 (0 : Fin 1) k) = x (ix1 k) :=
  shapeCast_a_1a_apply x shapeCasts_S128_S1x128 0 k

end Cert.KernelIdeal.HostValue.Stretch

end
-- ==== Proof.KHostB.lean ====
/-
  The three stretches of host operations between the kernel regions, read at an index: each gathers the rows the region before left by source word (negative words counted from the end) and scatter-adds them by destination word, and re-lays dinv as a column and the next layer's five parameter vectors as rows.
-/
import proofs.«400615_j49314814493137_3_alg».proof.Proof.Gen.KernelIdeal.Frame
import proofs.«400615_j49314814493137_3_alg».proof.Proof.Net
import proofs.«400615_j49314814493137_3_alg».proof.Proof.KHostBAux
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)
open Cert.KernelIdeal.HostValue.Stretch

-- the TensorCore's buffer contents before the stretch: any valuation
variable (W : Valuation τ sig (Elt Ideal))

/-- The buffers later stretches and regions still read: the edge words, dinv, the graph sizes, the membership indicator, and
    every argument. No host operation after the first three stretches writes any of them. -/
def liveRefs : List (Ref sig .tc) :=
  [main_v3, main_v6, main_v14, main_v18, main_v25, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- A line of operations whose written buffers all lie in a list disjoint from the buffers still to be read keeps those. -/
private theorem keep_of (ops : List (HloOp τ sig (Elt Ideal))) (ws : List (Ref sig .tc))
    (hW : ops.Forall fun op => op.writes ⊆ (ws.map (Proc.devRef (τ := τ) .tc)).toFinset)
    (hd : ∀ b ∈ liveRefs, b ∉ ws) (b : Ref sig .tc) (hb : b ∈ liveRefs) :
    StableHlo.after ops W (Proc.devRef .tc b) = W (Proc.devRef .tc b) :=
  StableHlo.after_of_writes_sub ops W hW (hd b hb)

/-! ## The stretch before region 1 -/

abbrev stB : Valuation τ sig (Elt Ideal) := StableHlo.after hostOps1 W

set_option maxHeartbeats 1000000 in
/-- Rows of main_v27 gathered by source word and scatter-added by destination word. -/
theorem stB_agg (i : Fin 100000) (k : Fin 128) :
    (stB W (Proc.devRef .tc main_v37) : A2 100000 128) (ix2 i k)
      = agg (wvec (W (Proc.devRef .tc main_v3))) (wvec (W (Proc.devRef .tc main_v6))) (mat (W (Proc.devRef .tc main_v27))) i k := by
  have h : (stB W (Proc.devRef .tc main_v37) : A2 100000 128)
      = aggTerm (W (Proc.devRef .tc main_v27)) (W (Proc.devRef .tc main_v3)) (W (Proc.devRef .tc main_v6)) := by
    show StableHlo.after hostOps1 W (Proc.devRef .tc main_v37) = _
    after_results_simp
    unfold aggTerm wrapped
    with_reducible rfl
  exact (congrFun h (ix2 i k)).trans (aggTerm_apply _ _ _ i k)

/-- dinv as a column. -/
theorem stB_dinv (n : Fin 100000) :
    (stB W (Proc.devRef .tc main_v38) : A2 100000 1) (ix2 n 0) = (W (Proc.devRef .tc main_v14) : A1 100000) (ix1 n) := by
  have h : (stB W (Proc.devRef .tc main_v38) : A2 100000 1)
      = shapeCast S100000x1 (W (Proc.devRef .tc main_v14) : A1 100000) shapeCasts_S100000_S100000x1 := by
    show StableHlo.after hostOps1 W (Proc.devRef .tc main_v38) = _
    after_results
    all_goals rfl
  exact (congrFun h (ix2 n 0)).trans (colCast_apply _ n)

/-- The layer's bias as a row. -/
theorem stB_bias (k : Fin 128) :
    (stB W (Proc.devRef .tc main_v39) : A2 1 128) (ix2 0 k) = (W (Proc.devRef .tc main_arg4) : A1 128) (ix1 k) := by
  have h : (stB W (Proc.devRef .tc main_v39) : A2 1 128)
      = shapeCast S1x128 (W (Proc.devRef .tc main_arg4) : A1 128) shapeCasts_S128_S1x128 := by
    show StableHlo.after hostOps1 W (Proc.devRef .tc main_v39) = _
    after_results
    all_goals rfl
  exact (congrFun h (ix2 0 k)).trans (rowCast_apply _ k)

/-- The layer's g as a row. -/
theorem stB_g (k : Fin 128) :
    (stB W (Proc.devRef .tc main_v40) : A2 1 128) (ix2 0 k) = (W (Proc.devRef .tc main_arg9) : A1 128) (ix1 k) := by
  have h : (stB W (Proc.devRef .tc main_v40) : A2 1 128)
      = shapeCast S1x128 (W (Proc.devRef .tc main_arg9) : A1 128) shapeCasts_S128_S1x128 := by
    show StableHlo.after hostOps1 W (Proc.devRef .tc main_v40) = _
    after_results
    all_goals rfl
  exact (congrFun h (ix2 0 k)).trans (rowCast_apply _ k)

/-- The layer's be as a row. -/
theorem stB_be (k : Fin 128) :
    (stB W (Proc.devRef .tc main_v41) : A2 1 128) (ix2 0 k) = (W (Proc.devRef .tc main_arg10) : A1 128) (ix1 k) := by
  have h : (stB W (Proc.devRef .tc main_v41) : A2 1 128)
      = shapeCast S1x128 (W (Proc.devRef .tc main_arg10) : A1 128) shapeCasts_S128_S1x128 := by
    show StableHlo.after hostOps1 W (Proc.devRef .tc main_v41) = _
    after_results
    all_goals rfl
  exact (congrFun h (ix2 0 k)).trans (rowCast_apply _ k)

/-- The layer's mu as a row. -/
theorem stB_mu (k : Fin 128) :
    (stB W (Proc.devRef .tc main_v42) : A2 1 128) (ix2 0 k) = (W (Proc.devRef .tc main_arg11) : A1 128) (ix1 k) := by
  have h : (stB W (Proc.devRef .tc main_v42) : A2 1 128)
      = shapeCast S1x128 (W (Proc.devRef .tc main_arg11) : A1 128) shapeCasts_S128_S1x128 := by
    show StableHlo.after hostOps1 W (Proc.devRef .tc main_v42) = _
    after_results
    all_goals rfl
  exact (congrFun h (ix2 0 k)).trans (rowCast_apply _ k)

/-- The layer's va as a row. -/
theorem stB_va (k : Fin 128) :
    (stB W (Proc.devRef .tc main_v43) : A2 1 128) (ix2 0 k) = (W (Proc.devRef .tc main_arg12) : A1 128) (ix1 k) := by
  have h : (stB W (Proc.devRef .tc main_v43) : A2 1 128)
      = shapeCast S1x128 (W (Proc.devRef .tc main_arg12) : A1 128) shapeCasts_S128_S1x128 := by
    show StableHlo.after hostOps1 W (Proc.devRef .tc main_v43) = _
    after_results
    all_goals rfl
  exact (congrFun h (ix2 0 k)).trans (rowCast_apply _ k)

/-- The stretch writes none of the buffers still to be read. -/
theorem stB_keep (b : Ref sig .tc) (hb : b ∈ liveRefs) :
    stB W (Proc.devRef .tc b) = W (Proc.devRef .tc b) := by
  refine keep_of W hostOps1 [main_c, main_v28, main_v29, main_c_5, main_v30, main_v31, main_v32, main_v33, main_v34, main_cst_6, main_v35, main_v36, main_v37, main_v38, main_v39, main_v40, main_v41, main_v42, main_v43] ?_ (by decide) b hb
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-! ## The stretch before region 2 -/

abbrev stC : Valuation τ sig (Elt Ideal) := StableHlo.after hostOps2 W

set_option maxHeartbeats 1000000 in
/-- Rows of main_v44 gathered by source word and scatter-added by destination word. -/
theorem stC_agg (i : Fin 100000) (k : Fin 128) :
    (stC W (Proc.devRef .tc main_v54) : A2 100000 128) (ix2 i k)
      = agg (wvec (W (Proc.devRef .tc main_v3))) (wvec (W (Proc.devRef .tc main_v6))) (mat (W (Proc.devRef .tc main_v44))) i k := by
  have h : (stC W (Proc.devRef .tc main_v54) : A2 100000 128)
      = aggTerm (W (Proc.devRef .tc main_v44)) (W (Proc.devRef .tc main_v3)) (W (Proc.devRef .tc main_v6)) := by
    show StableHlo.after hostOps2 W (Proc.devRef .tc main_v54) = _
    after_results_simp
    unfold aggTerm wrapped
    with_reducible rfl
  exact (congrFun h (ix2 i k)).trans (aggTerm_apply _ _ _ i k)

/-- dinv as a column. -/
theorem stC_dinv (n : Fin 100000) :
    (stC W (Proc.devRef .tc main_v55) : A2 100000 1) (ix2 n 0) = (W (Proc.devRef .tc main_v14) : A1 100000) (ix1 n) := by
  have h : (stC W (Proc.devRef .tc main_v55) : A2 100000 1)
      = shapeCast S100000x1 (W (Proc.devRef .tc main_v14) : A1 100000) shapeCasts_S100000_S100000x1 := by
    show StableHlo.after hostOps2 W (Proc.devRef .tc main_v55) = _
    after_results
    all_goals rfl
  exact (congrFun h (ix2 n 0)).trans (colCast_apply _ n)

/-- The layer's bias as a row. -/
theorem stC_bias (k : Fin 128) :
    (stC W (Proc.devRef .tc main_v56) : A2 1 128) (ix2 0 k) = (W (Proc.devRef .tc main_arg6) : A1 128) (ix1 k) := by
  have h : (stC W (Proc.devRef .tc main_v56) : A2 1 128)
      = shapeCast S1x128 (W (Proc.devRef .tc main_arg6) : A1 128) shapeCasts_S128_S1x128 := by
    show StableHlo.after hostOps2 W (Proc.devRef .tc main_v56) = _
    after_results
    all_goals rfl
  exact (congrFun h (ix2 0 k)).trans (rowCast_apply _ k)

/-- The layer's g as a row. -/
theorem stC_g (k : Fin 128) :
    (stC W (Proc.devRef .tc main_v57) : A2 1 128) (ix2 0 k) = (W (Proc.devRef .tc main_arg13) : A1 128) (ix1 k) := by
  have h : (stC W (Proc.devRef .tc main_v57) : A2 1 128)
      = shapeCast S1x128 (W (Proc.devRef .tc main_arg13) : A1 128) shapeCasts_S128_S1x128 := by
    show StableHlo.after hostOps2 W (Proc.devRef .tc main_v57) = _
    after_results
    all_goals rfl
  exact (congrFun h (ix2 0 k)).trans (rowCast_apply _ k)

/-- The layer's be as a row. -/
theorem stC_be (k : Fin 128) :
    (stC W (Proc.devRef .tc main_v58) : A2 1 128) (ix2 0 k) = (W (Proc.devRef .tc main_arg14) : A1 128) (ix1 k) := by
  have h : (stC W (Proc.devRef .tc main_v58) : A2 1 128)
      = shapeCast S1x128 (W (Proc.devRef .tc main_arg14) : A1 128) shapeCasts_S128_S1x128 := by
    show StableHlo.after hostOps2 W (Proc.devRef .tc main_v58) = _
    after_results
    all_goals rfl
  exact (congrFun h (ix2 0 k)).trans (rowCast_apply _ k)

/-- The layer's mu as a row. -/
theorem stC_mu (k : Fin 128) :
    (stC W (Proc.devRef .tc main_v59) : A2 1 128) (ix2 0 k) = (W (Proc.devRef .tc main_arg15) : A1 128) (ix1 k) := by
  have h : (stC W (Proc.devRef .tc main_v59) : A2 1 128)
      = shapeCast S1x128 (W (Proc.devRef .tc main_arg15) : A1 128) shapeCasts_S128_S1x128 := by
    show StableHlo.after hostOps2 W (Proc.devRef .tc main_v59) = _
    after_results
    all_goals rfl
  exact (congrFun h (ix2 0 k)).trans (rowCast_apply _ k)

/-- The layer's va as a row. -/
theorem stC_va (k : Fin 128) :
    (stC W (Proc.devRef .tc main_v60) : A2 1 128) (ix2 0 k) = (W (Proc.devRef .tc main_arg16) : A1 128) (ix1 k) := by
  have h : (stC W (Proc.devRef .tc main_v60) : A2 1 128)
      = shapeCast S1x128 (W (Proc.devRef .tc main_arg16) : A1 128) shapeCasts_S128_S1x128 := by
    show StableHlo.after hostOps2 W (Proc.devRef .tc main_v60) = _
    after_results
    all_goals rfl
  exact (congrFun h (ix2 0 k)).trans (rowCast_apply _ k)

/-- The stretch writes none of the buffers still to be read. -/
theorem stC_keep (b : Ref sig .tc) (hb : b ∈ liveRefs) :
    stC W (Proc.devRef .tc b) = W (Proc.devRef .tc b) := by
  refine keep_of W hostOps2 [main_c_7, main_v45, main_v46, main_c_8, main_v47, main_v48, main_v49, main_v50, main_v51, main_cst_9, main_v52, main_v53, main_v54, main_v55, main_v56, main_v57, main_v58, main_v59, main_v60] ?_ (by decide) b hb
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-! ## The stretch before region 3 -/

abbrev stD : Valuation τ sig (Elt Ideal) := StableHlo.after hostOps3 W

set_option maxHeartbeats 1000000 in
/-- Rows of main_v61 gathered by source word and scatter-added by destination word. -/
theorem stD_agg (i : Fin 100000) (k : Fin 128) :
    (stD W (Proc.devRef .tc main_v71) : A2 100000 128) (ix2 i k)
      = agg (wvec (W (Proc.devRef .tc main_v3))) (wvec (W (Proc.devRef .tc main_v6))) (mat (W (Proc.devRef .tc main_v61))) i k := by
  have h : (stD W (Proc.devRef .tc main_v71) : A2 100000 128)
      = aggTerm (W (Proc.devRef .tc main_v61)) (W (Proc.devRef .tc main_v3)) (W (Proc.devRef .tc main_v6)) := by
    show StableHlo.after hostOps3 W (Proc.devRef .tc main_v71) = _
    after_results_simp
    unfold aggTerm wrapped
    with_reducible rfl
  exact (congrFun h (ix2 i k)).trans (aggTerm_apply _ _ _ i k)

/-- dinv as a column. -/
theorem stD_dinv (n : Fin 100000) :
    (stD W (Proc.devRef .tc main_v72) : A2 100000 1) (ix2 n 0) = (W (Proc.devRef .tc main_v14) : A1 100000) (ix1 n) := by
  have h : (stD W (Proc.devRef .tc main_v72) : A2 100000 1)
      = shapeCast S100000x1 (W (Proc.devRef .tc main_v14) : A1 100000) shapeCasts_S100000_S100000x1 := by
    show StableHlo.after hostOps3 W (Proc.devRef .tc main_v72) = _
    after_results
    all_goals rfl
  exact (congrFun h (ix2 n 0)).trans (colCast_apply _ n)

/-- The layer's bias as a row. -/
theorem stD_bias (k : Fin 128) :
    (stD W (Proc.devRef .tc main_v73) : A2 1 128) (ix2 0 k) = (W (Proc.devRef .tc main_arg8) : A1 128) (ix1 k) := by
  have h : (stD W (Proc.devRef .tc main_v73) : A2 1 128)
      = shapeCast S1x128 (W (Proc.devRef .tc main_arg8) : A1 128) shapeCasts_S128_S1x128 := by
    show StableHlo.after hostOps3 W (Proc.devRef .tc main_v73) = _
    after_results
    all_goals rfl
  exact (congrFun h (ix2 0 k)).trans (rowCast_apply _ k)

/-- The layer's g as a row. -/
theorem stD_g (k : Fin 128) :
    (stD W (Proc.devRef .tc main_v74) : A2 1 128) (ix2 0 k) = (W (Proc.devRef .tc main_arg17) : A1 128) (ix1 k) := by
  have h : (stD W (Proc.devRef .tc main_v74) : A2 1 128)
      = shapeCast S1x128 (W (Proc.devRef .tc main_arg17) : A1 128) shapeCasts_S128_S1x128 := by
    show StableHlo.after hostOps3 W (Proc.devRef .tc main_v74) = _
    after_results
    all_goals rfl
  exact (congrFun h (ix2 0 k)).trans (rowCast_apply _ k)

/-- The layer's be as a row. -/
theorem stD_be (k : Fin 128) :
    (stD W (Proc.devRef .tc main_v75) : A2 1 128) (ix2 0 k) = (W (Proc.devRef .tc main_arg18) : A1 128) (ix1 k) := by
  have h : (stD W (Proc.devRef .tc main_v75) : A2 1 128)
      = shapeCast S1x128 (W (Proc.devRef .tc main_arg18) : A1 128) shapeCasts_S128_S1x128 := by
    show StableHlo.after hostOps3 W (Proc.devRef .tc main_v75) = _
    after_results
    all_goals rfl
  exact (congrFun h (ix2 0 k)).trans (rowCast_apply _ k)

/-- The layer's mu as a row. -/
theorem stD_mu (k : Fin 128) :
    (stD W (Proc.devRef .tc main_v76) : A2 1 128) (ix2 0 k) = (W (Proc.devRef .tc main_arg19) : A1 128) (ix1 k) := by
  have h : (stD W (Proc.devRef .tc main_v76) : A2 1 128)
      = shapeCast S1x128 (W (Proc.devRef .tc main_arg19) : A1 128) shapeCasts_S128_S1x128 := by
    show StableHlo.after hostOps3 W (Proc.devRef .tc main_v76) = _
    after_results
    all_goals rfl
  exact (congrFun h (ix2 0 k)).trans (rowCast_apply _ k)

/-- The layer's va as a row. -/
theorem stD_va (k : Fin 128) :
    (stD W (Proc.devRef .tc main_v77) : A2 1 128) (ix2 0 k) = (W (Proc.devRef .tc main_arg20) : A1 128) (ix1 k) := by
  have h : (stD W (Proc.devRef .tc main_v77) : A2 1 128)
      = shapeCast S1x128 (W (Proc.devRef .tc main_arg20) : A1 128) shapeCasts_S128_S1x128 := by
    show StableHlo.after hostOps3 W (Proc.devRef .tc main_v77) = _
    after_results
    all_goals rfl
  exact (congrFun h (ix2 0 k)).trans (rowCast_apply _ k)

/-- The stretch writes none of the buffers still to be read. -/
theorem stD_keep (b : Ref sig .tc) (hb : b ∈ liveRefs) :
    stD W (Proc.devRef .tc b) = W (Proc.devRef .tc b) := by
  refine keep_of W hostOps3 [main_c_10, main_v62, main_v63, main_c_11, main_v64, main_v65, main_v66, main_v67, main_v68, main_cst_12, main_v69, main_v70, main_v71, main_v72, main_v73, main_v74, main_v75, main_v76, main_v77] ?_ (by decide) b hb
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

end Cert.KernelIdeal.HostValue

end
-- ==== Proof.KHostE.lean ====
/-
  The last stretch of host operations, read at an index: each graph's pooled row divided by the graph's size (at least one), times the classifier's matrix, plus its bias.
-/
import proofs.«400615_j49314814493137_3_alg».proof.Proof.Gen.KernelIdeal.Frame
import proofs.«400615_j49314814493137_3_alg».proof.Proof.Net
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- The classifier's contraction, abbreviated. -/
private abbrev dotE : DotDims S64x128 S128x2 S64x2 := dot_S64x128_S128x2_S64x2_1_0_0_1_n_n

/-- A vector of 64 entries broadcast along a new unit column and then across 128 columns reads its entry of the row. -/
private theorem bcast_rows_apply {α : Type} (x : S64.Idx → α) (g : Fin 64) (k : Fin 128) :
    broadcastInDim S64x128 ![0, 1] bcast_S64x1_S64x128_0_1 (broadcastInDim S64x1 ![0] bcast_S64_S64x1_0 x) (ix2 g k)
      = x (ix1 g) := by
  rw [broadcastInDim_apply _ bcast_S64x1_S64x128_0_1 _ (ix2 g k) (ix2 g (0 : Fin 1)) (fun a => match a with
      | ⟨0, _⟩ => by show g.val = if (64 : Nat) = 1 then 0 else g.val; rw [if_neg (by decide)]
      | ⟨1, _⟩ => by show (0 : Nat) = if (1 : Nat) = 1 then 0 else k.val; rw [if_pos rfl]),
    broadcastInDim_apply _ bcast_S64_S64x1_0 x (ix2 g (0 : Fin 1)) (ix1 g) (fun a => match a with
      | ⟨0, _⟩ => by show g.val = if (64 : Nat) = 1 then 0 else g.val; rw [if_neg (by decide)])]

/-- A vector of 2 entries broadcast along a new unit row and then down 64 rows reads its entry of the column. -/
private theorem bcast_cols_apply {α : Type} (x : S2.Idx → α) (g : Fin 64) (j : Fin 2) :
    broadcastInDim S64x2 ![0, 1] bcast_S1x2_S64x2_0_1 (broadcastInDim S1x2 ![1] bcast_S2_S1x2_1 x) (ix2 g j)
      = x (ix1 j) := by
  rw [broadcastInDim_apply _ bcast_S1x2_S64x2_0_1 _ (ix2 g j) (ix2 (0 : Fin 1) j) (fun a => match a with
      | ⟨0, _⟩ => by show (0 : Nat) = if (1 : Nat) = 1 then 0 else g.val; rw [if_pos rfl]
      | ⟨1, _⟩ => by show j.val = if (2 : Nat) = 1 then 0 else j.val; rw [if_neg (by decide)]),
    broadcastInDim_apply _ bcast_S2_S1x2_1 x (ix2 (0 : Fin 1) j) (ix1 j) (fun a => match a with
      | ⟨0, _⟩ => by show j.val = if (2 : Nat) = 1 then 0 else j.val; rw [if_neg (by decide)])]

/-- The contraction's operand indices: at result (g, j) and contraction position k the left operand is read at (g, k) and
    the right at (k, j). -/
private theorem dotE_lhsIdx (g : Fin 64) (j : Fin 2) (k : Fin 128) :
    dotE.lhsIdx (ix2 g j) ((ValueIdx.contrEquiv1 dotE 128 rfl rfl).symm k) = ix2 g k := by
  have hk := ValueIdx.contrEquiv1_symm_val dotE 128 rfl rfl k
  funext a
  refine Fin.ext ?_
  match a with
  | ⟨0, _⟩ =>
    show (dotE.lhsIdx (ix2 g j) _ 0).val = g.val
    unfold DotDims.lhsIdx
    rw [dif_neg (show ¬(0 : Fin S64x128.rank) ∈ dotE.lhsBatch by decide),
      dif_pos (show (0 : Fin S64x128.rank) ∈ dotE.lhsNonContracting by decide)]
    rfl
  | ⟨1, _⟩ =>
    show (dotE.lhsIdx (ix2 g j) _ 1).val = k.val
    exact (dotE.lhsIdx_val_of_single rfl (ix2 g j) _).trans hk

private theorem dotE_rhsIdx (g : Fin 64) (j : Fin 2) (k : Fin 128) :
    dotE.rhsIdx (ix2 g j) ((ValueIdx.contrEquiv1 dotE 128 rfl rfl).symm k) = ix2 k j := by
  have hk := ValueIdx.contrEquiv1_symm_val dotE 128 rfl rfl k
  funext a
  refine Fin.ext ?_
  match a with
  | ⟨0, _⟩ =>
    show (dotE.rhsIdx (ix2 g j) _ 0).val = k.val
    exact (dotE.rhsIdx_val_of_single rfl (ix2 g j) _).trans hk
  | ⟨1, _⟩ =>
    show (dotE.rhsIdx (ix2 g j) _ 1).val = j.val
    unfold DotDims.rhsIdx
    rw [dif_neg (show ¬(1 : Fin S128x2.rank) ∈ dotE.rhsBatch by decide),
      dif_pos (show (1 : Fin S128x2.rank) ∈ dotE.rhsNonContracting by decide)]
    rfl

/-- The host's contraction at an entry: the sum over the 128 channels of left (g, k) times right (k, j). -/
private theorem dotE_apply (l : FVec Ideal S64x128 .f32) (r : FVec Ideal S128x2 .f32) (g : Fin 64) (j : Fin 2) :
    Host.dotGeneral dotE none l r (ix2 g j) = ∑ k : Fin 128, l (ix2 g k) * r (ix2 k j) := by
  simp only [Host.dotGeneral]
  rw [Ideal.dotGeneral_apply, ← Equiv.sum_comp (ValueIdx.contrEquiv1 dotE 128 rfl rfl).symm]
  refine Finset.sum_congr rfl fun k _ => ?_
  rw [dotE_lhsIdx, dotE_rhsIdx]

-- the TensorCore's buffer contents before the stretch: any valuation
variable (W : Valuation τ sig (Elt Ideal))

abbrev stE : Valuation τ sig (Elt Ideal) := StableHlo.after hostOps4 W

theorem stE_out (g : Fin 64) (j : Fin 2) :
    (stE W (Proc.devRef .tc main_v87) : A2 64 2) (ix2 g j)
      = head (mat (W (Proc.devRef .tc main_arg21))) (vec (W (Proc.devRef .tc main_arg22))) (vec (W (Proc.devRef .tc main_v18)))
          (mat (W (Proc.devRef .tc main_v78))) g j := by
  show (StableHlo.after hostOps4 W (Proc.devRef .tc main_v87) : A2 64 2) (ix2 g j) = _
  after_results
  rw [addf_apply, bcast_cols_apply]
  unfold head
  refine congrArg₂ (· + ·) ?_ rfl
  rw [show dot_S64x128_S128x2_S64x2_1_0_0_1_n_n = dotE from rfl, dotE_apply]
  refine Finset.sum_congr rfl fun k _ => ?_
  rw [hostDivf_apply, bcast_rows_apply, maximumf_apply, broadcastInDim_scalar_apply, constant_apply]
  rfl

end Cert.KernelIdeal.HostValue

end
-- ==== Proof.KValue.lean ====
/-
  The kernel program's result, entry by entry, as the network of Net.lean in its first arrangement: the launch memory is
  carried through the host stretches and the four kernel regions, boundary by boundary.

  Each region's output array is given by its entry formula over the arrays it finds; each host stretch lays out, from what the
  region before left, the arrays the next region finds. The edge words, dinv, the graph sizes, the membership indicator and the
  arguments are written by nothing after the first three stretches, so at every later boundary they read as at region 0's
  entry. With those two facts the formulas compose to the network's layers one after another.
-/
import proofs.«400615_j49314814493137_3_alg».proof.Proof.KReg0
import proofs.«400615_j49314814493137_3_alg».proof.Proof.KReg1
import proofs.«400615_j49314814493137_3_alg».proof.Proof.KReg2
import proofs.«400615_j49314814493137_3_alg».proof.Proof.KReg3
import proofs.«400615_j49314814493137_3_alg».proof.Proof.KHostA
import proofs.«400615_j49314814493137_3_alg».proof.Proof.KHostB
import proofs.«400615_j49314814493137_3_alg».proof.Proof.KHostE

set_option maxRecDepth 16384

noncomputable section

namespace Cert.KernelIdeal.KValue

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)
open Cert.KernelIdeal.RegValue Cert.KernelIdeal.HostValue

/-! ## The three formulas of the regions, over any arrays -/

/-- Region 0's entry formula is the first layer's scaled rows. -/
private theorem pre_alg (dw : Fin EE → BitVec 32) (X : Fin NN → Fin 3 → EReal) (Wt : Fin 3 → Fin HH → EReal)
    (x : A2 100000 3) (w : A2 3 128) (d : A2 100000 1)
    (hx : ∀ (n : Fin 100000) (q : Fin 3), x (ix2 n q) = X n q) (hw : ∀ (q : Fin 3) (k : Fin 128), w (ix2 q k) = Wt q k)
    (hd : ∀ n : Fin 100000, d (ix2 n 0) = dinv dw n) (n : Fin 100000) (k : Fin 128) :
    (∑ q : Fin 3, x (ix2 n q) * w (ix2 q k)) * d (ix2 n 0) = kPre dw X Wt n k := by
  simp only [hx, hw, hd]
  rfl

/-- A middle region's entry formula is the next layer's scaled rows of the activated aggregate. -/
private theorem layer_alg (sw dw : Fin EE → BitVec 32) (p : BN) (P : Fin NN → Fin HH → EReal) (Wt : Fin HH → Fin HH → EReal)
    (a : A2 100000 128) (d : A2 100000 1) (bias g be mu va : A2 1 128) (w : A2 128 128)
    (ha : ∀ (i : Fin 100000) (k : Fin 128), a (ix2 i k) = agg sw dw P i k) (hd : ∀ n : Fin 100000, d (ix2 n 0) = dinv dw n)
    (hbias : ∀ k : Fin 128, bias (ix2 0 k) = p.bias k) (hg : ∀ k : Fin 128, g (ix2 0 k) = p.g k)
    (hbe : ∀ k : Fin 128, be (ix2 0 k) = p.be k) (hmu : ∀ k : Fin 128, mu (ix2 0 k) = p.mu k)
    (hva : ∀ k : Fin 128, va (ix2 0 k) = p.va k) (hw : ∀ q k : Fin 128, w (ix2 q k) = Wt q k)
    (n : Fin 100000) (k : Fin 128) :
    (∑ q : Fin 128, actE (a (ix2 n q) * d (ix2 n 0)) (bias (ix2 0 q)) (g (ix2 0 q)) (be (ix2 0 q)) (mu (ix2 0 q)) (va (ix2 0 q))
        * w (ix2 q k)) * d (ix2 n 0)
      = kPre dw (kAct sw dw p P) Wt n k := by
  simp only [ha, hd, hbias, hg, hbe, hmu, hva, hw]
  rfl

/-- The pooling region's entry formula is the indicator-weighted sum of the activated aggregate. -/
private theorem pool_alg (sw dw : Fin EE → BitVec 32) (p : BN) (P : Fin NN → Fin HH → EReal) (bw : Fin NN → BitVec 32)
    (a : A2 100000 128) (d : A2 100000 1) (bias g be mu va : A2 1 128) (oh : A2 100000 64)
    (ha : ∀ (i : Fin 100000) (k : Fin 128), a (ix2 i k) = agg sw dw P i k) (hd : ∀ n : Fin 100000, d (ix2 n 0) = dinv dw n)
    (hbias : ∀ k : Fin 128, bias (ix2 0 k) = p.bias k) (hg : ∀ k : Fin 128, g (ix2 0 k) = p.g k)
    (hbe : ∀ k : Fin 128, be (ix2 0 k) = p.be k) (hmu : ∀ k : Fin 128, mu (ix2 0 k) = p.mu k)
    (hva : ∀ k : Fin 128, va (ix2 0 k) = p.va k) (hoh : ∀ (n : Fin 100000) (γ : Fin 64), oh (ix2 n γ) = ohv (bw n) γ)
    (γ : Fin 64) (k : Fin 128) :
    (∑ n : Fin 100000, oh (ix2 n γ) * actE (a (ix2 n k) * d (ix2 n 0)) (bias (ix2 0 k)) (g (ix2 0 k)) (be (ix2 0 k)) (mu (ix2 0 k)) (va (ix2 0 k)))
      = kPool bw (kAct sw dw p P) γ k := by
  simp only [ha, hd, hbias, hg, hbe, hmu, hva, hoh]
  rfl

/-- Equal words and equal rows aggregate equally. -/
private theorem agg_congr {sw sw' dw dw' : Fin EE → BitVec 32} {P P' : Fin NN → Fin HH → EReal} (h1 : sw = sw') (h2 : dw = dw')
    (h3 : P = P') (i : Fin NN) (k : Fin HH) : agg sw dw P i k = agg sw' dw' P' i k := by
  subst h1 h2 h3; rfl

/-- Equal parts give equal heads. -/
private theorem head_congr {lw lw' : Fin HH → Fin 2 → EReal} {lb lb' : Fin 2 → EReal} {cn cn' : Fin GG → EReal}
    {S S' : Fin GG → Fin HH → EReal} (h1 : lw = lw') (h2 : lb = lb') (h3 : cn = cn') (h4 : S = S') (γ : Fin GG) (j : Fin 2) :
    head lw lb cn S γ j = head lw' lb' cn' S' γ j := by
  subst h1 h2 h3 h4; rfl

variable (m : (ℓ : Loc nD τ sig) → Buf (Elt Ideal) ℓ) (ρ : Dev nD → PrngReg)

/-- The network's arguments as the kernel program reads them: the argument arrays at launch, the edge words as the first
    host stretch lays them out (self-loops appended). -/
def argsK (c : Dev nD) : Args :=
  Args.ofArrays (m ((c.tc : Thread nD τ).loc main_arg0))
    (W3 m ρ c (Proc.devRef .tc main_v3))
    (W3 m ρ c (Proc.devRef .tc main_v6))
    (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (m ((c.tc : Thread nD τ).loc main_arg22))

/-! ## At region 0's entry -/

/-- An argument at region 0's entry is the argument as launched. -/
private theorem arg3 (c : Dev nD) (b : Ref sig .tc) (hb : b ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    W3 m ρ c (Proc.devRef .tc b) = m ((c.tc : Thread nD τ).loc b) :=
  stA_keep_arg (W0 m ρ c) b hb

private theorem dinv3 (c : Dev nD) (n : Fin 100000) :
    (W3 m ρ c (Proc.devRef .tc main_v14) : A1 100000) (ix1 n) = dinv (argsK m ρ c).dw n :=
  stA_v14 (W0 m ρ c) n

private theorem dcol3 (c : Dev nD) (n : Fin 100000) :
    (W3 m ρ c (Proc.devRef .tc main_v26) : A2 100000 1) (ix2 n 0) = dinv (argsK m ρ c).dw n :=
  (stA_v26 (W0 m ρ c) n).trans (dinv3 m ρ c n)

private theorem cnt3 (c : Dev nD) (γ : Fin 64) :
    (W3 m ρ c (Proc.devRef .tc main_v18) : A1 64) (ix1 γ) = cnt (argsK m ρ c).bw γ :=
  stA_v18 (W0 m ρ c) γ

private theorem oh3 (c : Dev nD) (n : Fin 100000) (γ : Fin 64) :
    (W3 m ρ c (Proc.devRef .tc main_v25) : A2 100000 64) (ix2 n γ) = ohv ((argsK m ρ c).bw n) γ :=
  stA_v25 (W0 m ρ c) n γ

private theorem x3 (c : Dev nD) (n : Fin 100000) (q : Fin 3) :
    (W3 m ρ c (Proc.devRef .tc main_arg0) : A2 100000 3) (ix2 n q) = (argsK m ρ c).x n q :=
  congrFun (arg3 m ρ c main_arg0 (by decide)) (ix2 n q)

private theorem w13 (c : Dev nD) (q : Fin 3) (k : Fin 128) :
    (W3 m ρ c (Proc.devRef .tc main_arg3) : A2 3 128) (ix2 q k) = (argsK m ρ c).w1 q k :=
  congrFun (arg3 m ρ c main_arg3 (by decide)) (ix2 q k)

/-! ## Region 0 -/

/-- What region 0 leaves in its output array: the first layer's scaled rows. -/
private theorem val4 (c : Dev nD) (n : Fin 100000) (k : Fin 128) :
    (W4 m ρ c (Proc.devRef .tc main_v27) : A2 100000 128) (ix2 n k) = kPre (argsK m ρ c).dw (argsK m ρ c).x (argsK m ρ c).w1 n k :=
  (congrFun (W4_arr m ρ c 3) (ix2 n k)).trans ((reg0_value (V3 m ρ) c n k).trans
    (pre_alg (argsK m ρ c).dw (argsK m ρ c).x (argsK m ρ c).w1 _ _ _ (x3 m ρ c) (w13 m ρ c) (dcol3 m ρ c) n k))
/-- Region 0 writes none of the buffers still to be read: the two it reads through input windows it leaves as entered, the others are not among its arrays. -/
private theorem keep4 (c : Dev nD) : ∀ b ∈ liveRefs, W4 m ρ c (Proc.devRef .tc b) = W3 m ρ c (Proc.devRef .tc b) :=
  List.forall_iff_forall_mem.mp (by
    simp only [liveRefs, List.Forall]
    refine ⟨?_, ?_, ?_, ?_, ?_, ?_, ?_, ?_, ?_, ?_, ?_, ?_, ?_, ?_, ?_, ?_, ?_, ?_, ?_, ?_, ?_, ?_, ?_, ?_, ?_, ?_, ?_, ?_⟩
    · exact W4_of_ne m ρ c main_v3 (by decide)
    · exact W4_of_ne m ρ c main_v6 (by decide)
    · exact W4_of_ne m ρ c main_v14 (by decide)
    · exact W4_of_ne m ρ c main_v18 (by decide)
    · exact W4_of_ne m ρ c main_v25 (by decide)
    · exact (W4_arr m ρ c 0).trans (((dat0 (V3 m ρ) c).arrAt_in 0 rfl _).trans (A_eq0 (V3 m ρ) c 0))
    · exact W4_of_ne m ρ c main_arg1 (by decide)
    · exact W4_of_ne m ρ c main_arg2 (by decide)
    · exact (W4_arr m ρ c 1).trans (((dat0 (V3 m ρ) c).arrAt_in 1 rfl _).trans (A_eq0 (V3 m ρ) c 1))
    · exact W4_of_ne m ρ c main_arg4 (by decide)
    · exact W4_of_ne m ρ c main_arg5 (by decide)
    · exact W4_of_ne m ρ c main_arg6 (by decide)
    · exact W4_of_ne m ρ c main_arg7 (by decide)
    · exact W4_of_ne m ρ c main_arg8 (by decide)
    · exact W4_of_ne m ρ c main_arg9 (by decide)
    · exact W4_of_ne m ρ c main_arg10 (by decide)
    · exact W4_of_ne m ρ c main_arg11 (by decide)
    · exact W4_of_ne m ρ c main_arg12 (by decide)
    · exact W4_of_ne m ρ c main_arg13 (by decide)
    · exact W4_of_ne m ρ c main_arg14 (by decide)
    · exact W4_of_ne m ρ c main_arg15 (by decide)
    · exact W4_of_ne m ρ c main_arg16 (by decide)
    · exact W4_of_ne m ρ c main_arg17 (by decide)
    · exact W4_of_ne m ρ c main_arg18 (by decide)
    · exact W4_of_ne m ρ c main_arg19 (by decide)
    · exact W4_of_ne m ρ c main_arg20 (by decide)
    · exact W4_of_ne m ρ c main_arg21 (by decide)
    · exact W4_of_ne m ρ c main_arg22 (by decide))

private theorem keep4' (c : Dev nD) (b : Ref sig .tc) (hb : b ∈ liveRefs) :
    W4 m ρ c (Proc.devRef .tc b) = W3 m ρ c (Proc.devRef .tc b) := keep4 m ρ c b hb
/-- The stretch before region 1 writes none of them either. -/
private theorem keep5 (c : Dev nD) (b : Ref sig .tc) (hb : b ∈ liveRefs) :
    W5 m ρ c (Proc.devRef .tc b) = W3 m ρ c (Proc.devRef .tc b) :=
  (stB_keep (W4 m ρ c) b hb).trans (keep4' m ρ c b hb)

/-! ## The stretch before region 1 -/

/-- The rows the region before left, as a matrix. -/
private theorem mat5 (c : Dev nD) : mat (W4 m ρ c (Proc.devRef .tc main_v27) : A2 100000 128) = kPre (argsK m ρ c).dw (argsK m ρ c).x (argsK m ρ c).w1 :=
  funext fun n => funext fun k => val4 m ρ c n k

private theorem agg5 (c : Dev nD) (i : Fin 100000) (k : Fin 128) :
    (W5 m ρ c (Proc.devRef .tc main_v37) : A2 100000 128) (ix2 i k) = agg (argsK m ρ c).sw (argsK m ρ c).dw (kPre (argsK m ρ c).dw (argsK m ρ c).x (argsK m ρ c).w1) i k :=
  (stB_agg (W4 m ρ c) i k).trans
    (agg_congr (congrArg wvec (keep4' m ρ c main_v3 (by decide))) (congrArg wvec (keep4' m ρ c main_v6 (by decide))) (mat5 m ρ c) i k)

private theorem dcol5 (c : Dev nD) (n : Fin 100000) :
    (W5 m ρ c (Proc.devRef .tc main_v38) : A2 100000 1) (ix2 n 0) = dinv (argsK m ρ c).dw n :=
  (stB_dinv (W4 m ρ c) n).trans ((congrFun (keep4' m ρ c main_v14 (by decide)) (ix1 n)).trans (dinv3 m ρ c n))

private theorem bias5 (c : Dev nD) (k : Fin 128) :
    (W5 m ρ c (Proc.devRef .tc main_v39) : A2 1 128) (ix2 0 k) = (argsK m ρ c).p1.bias k :=
  (stB_bias (W4 m ρ c) k).trans (congrFun ((keep4' m ρ c main_arg4 (by decide)).trans (arg3 m ρ c main_arg4 (by decide))) (ix1 k))

private theorem g5 (c : Dev nD) (k : Fin 128) :
    (W5 m ρ c (Proc.devRef .tc main_v40) : A2 1 128) (ix2 0 k) = (argsK m ρ c).p1.g k :=
  (stB_g (W4 m ρ c) k).trans (congrFun ((keep4' m ρ c main_arg9 (by decide)).trans (arg3 m ρ c main_arg9 (by decide))) (ix1 k))

private theorem be5 (c : Dev nD) (k : Fin 128) :
    (W5 m ρ c (Proc.devRef .tc main_v41) : A2 1 128) (ix2 0 k) = (argsK m ρ c).p1.be k :=
  (stB_be (W4 m ρ c) k).trans (congrFun ((keep4' m ρ c main_arg10 (by decide)).trans (arg3 m ρ c main_arg10 (by decide))) (ix1 k))

private theorem mu5 (c : Dev nD) (k : Fin 128) :
    (W5 m ρ c (Proc.devRef .tc main_v42) : A2 1 128) (ix2 0 k) = (argsK m ρ c).p1.mu k :=
  (stB_mu (W4 m ρ c) k).trans (congrFun ((keep4' m ρ c main_arg11 (by decide)).trans (arg3 m ρ c main_arg11 (by decide))) (ix1 k))

private theorem va5 (c : Dev nD) (k : Fin 128) :
    (W5 m ρ c (Proc.devRef .tc main_v43) : A2 1 128) (ix2 0 k) = (argsK m ρ c).p1.va k :=
  (stB_va (W4 m ρ c) k).trans (congrFun ((keep4' m ρ c main_arg12 (by decide)).trans (arg3 m ρ c main_arg12 (by decide))) (ix1 k))

/-- The weight matrix at the region's entry. -/
private theorem wt5 (c : Dev nD) (q k : Fin 128) :
    (W5 m ρ c (Proc.devRef .tc main_arg5) : A2 128 128) (ix2 q k) = (argsK m ρ c).w2 q k :=
  congrFun ((keep5 m ρ c main_arg5 (by decide)).trans (arg3 m ρ c main_arg5 (by decide))) (ix2 q k)

/-- What region 1 leaves in its output array: the second layer's scaled rows. -/
private theorem val6 (c : Dev nD) (n : Fin 100000) (k : Fin 128) :
    (W6 m ρ c (Proc.devRef .tc main_v44) : A2 100000 128) (ix2 n k) = kPre (argsK m ρ c).dw (kY1 (argsK m ρ c)) (argsK m ρ c).w2 n k :=
  (congrFun (W6_arr m ρ c 8) (ix2 n k)).trans ((reg1_value (V5 m ρ) c n k).trans
    (layer_alg (argsK m ρ c).sw (argsK m ρ c).dw (argsK m ρ c).p1 (kPre (argsK m ρ c).dw (argsK m ρ c).x (argsK m ρ c).w1) (argsK m ρ c).w2 _ _ _ _ _ _ _ _
      (agg5 m ρ c) (dcol5 m ρ c) (bias5 m ρ c) (g5 m ρ c) (be5 m ρ c) (mu5 m ρ c) (va5 m ρ c) (wt5 m ρ c) n k))
/-- Region 1 writes none of the buffers still to be read. -/
private theorem rel6 (c : Dev nD) : ∀ b ∈ liveRefs, W6 m ρ c (Proc.devRef .tc b) = W5 m ρ c (Proc.devRef .tc b) :=
  List.forall_iff_forall_mem.mp (by
    simp only [liveRefs, List.Forall]
    refine ⟨?_, ?_, ?_, ?_, ?_, ?_, ?_, ?_, ?_, ?_, ?_, ?_, ?_, ?_, ?_, ?_, ?_, ?_, ?_, ?_, ?_, ?_, ?_, ?_, ?_, ?_, ?_, ?_⟩
    · exact W6_of_ne m ρ c main_v3 (by decide)
    · exact W6_of_ne m ρ c main_v6 (by decide)
    · exact W6_of_ne m ρ c main_v14 (by decide)
    · exact W6_of_ne m ρ c main_v18 (by decide)
    · exact W6_of_ne m ρ c main_v25 (by decide)
    · exact W6_of_ne m ρ c main_arg0 (by decide)
    · exact W6_of_ne m ρ c main_arg1 (by decide)
    · exact W6_of_ne m ρ c main_arg2 (by decide)
    · exact W6_of_ne m ρ c main_arg3 (by decide)
    · exact W6_of_ne m ρ c main_arg4 (by decide)
    · exact (W6_arr m ρ c 7).trans (((dat1 (V5 m ρ) c).arrAt_in 7 rfl _).trans (A_eq1 (V5 m ρ) c 7))
    · exact W6_of_ne m ρ c main_arg6 (by decide)
    · exact W6_of_ne m ρ c main_arg7 (by decide)
    · exact W6_of_ne m ρ c main_arg8 (by decide)
    · exact W6_of_ne m ρ c main_arg9 (by decide)
    · exact W6_of_ne m ρ c main_arg10 (by decide)
    · exact W6_of_ne m ρ c main_arg11 (by decide)
    · exact W6_of_ne m ρ c main_arg12 (by decide)
    · exact W6_of_ne m ρ c main_arg13 (by decide)
    · exact W6_of_ne m ρ c main_arg14 (by decide)
    · exact W6_of_ne m ρ c main_arg15 (by decide)
    · exact W6_of_ne m ρ c main_arg16 (by decide)
    · exact W6_of_ne m ρ c main_arg17 (by decide)
    · exact W6_of_ne m ρ c main_arg18 (by decide)
    · exact W6_of_ne m ρ c main_arg19 (by decide)
    · exact W6_of_ne m ρ c main_arg20 (by decide)
    · exact W6_of_ne m ρ c main_arg21 (by decide)
    · exact W6_of_ne m ρ c main_arg22 (by decide))
/-- So at region 1's exit they are as at region 0's entry. -/
private theorem keep6 (c : Dev nD) (b : Ref sig .tc) (hb : b ∈ liveRefs) :
    W6 m ρ c (Proc.devRef .tc b) = W3 m ρ c (Proc.devRef .tc b) :=
  (rel6 m ρ c b hb).trans (keep5 m ρ c b hb)
/-- The stretch before region 2 writes none of them. -/
private theorem keep7 (c : Dev nD) (b : Ref sig .tc) (hb : b ∈ liveRefs) :
    W7 m ρ c (Proc.devRef .tc b) = W3 m ρ c (Proc.devRef .tc b) :=
  (stC_keep (W6 m ρ c) b hb).trans (keep6 m ρ c b hb)

/-! ## The stretch before region 2 -/

/-- The rows the region before left, as a matrix. -/
private theorem mat7 (c : Dev nD) : mat (W6 m ρ c (Proc.devRef .tc main_v44) : A2 100000 128) = kPre (argsK m ρ c).dw (kY1 (argsK m ρ c)) (argsK m ρ c).w2 :=
  funext fun n => funext fun k => val6 m ρ c n k

private theorem agg7 (c : Dev nD) (i : Fin 100000) (k : Fin 128) :
    (W7 m ρ c (Proc.devRef .tc main_v54) : A2 100000 128) (ix2 i k) = agg (argsK m ρ c).sw (argsK m ρ c).dw (kPre (argsK m ρ c).dw (kY1 (argsK m ρ c)) (argsK m ρ c).w2) i k :=
  (stC_agg (W6 m ρ c) i k).trans
    (agg_congr (congrArg wvec (keep6 m ρ c main_v3 (by decide))) (congrArg wvec (keep6 m ρ c main_v6 (by decide))) (mat7 m ρ c) i k)

private theorem dcol7 (c : Dev nD) (n : Fin 100000) :
    (W7 m ρ c (Proc.devRef .tc main_v55) : A2 100000 1) (ix2 n 0) = dinv (argsK m ρ c).dw n :=
  (stC_dinv (W6 m ρ c) n).trans ((congrFun (keep6 m ρ c main_v14 (by decide)) (ix1 n)).trans (dinv3 m ρ c n))

private theorem bias7 (c : Dev nD) (k : Fin 128) :
    (W7 m ρ c (Proc.devRef .tc main_v56) : A2 1 128) (ix2 0 k) = (argsK m ρ c).p2.bias k :=
  (stC_bias (W6 m ρ c) k).trans (congrFun ((keep6 m ρ c main_arg6 (by decide)).trans (arg3 m ρ c main_arg6 (by decide))) (ix1 k))

private theorem g7 (c : Dev nD) (k : Fin 128) :
    (W7 m ρ c (Proc.devRef .tc main_v57) : A2 1 128) (ix2 0 k) = (argsK m ρ c).p2.g k :=
  (stC_g (W6 m ρ c) k).trans (congrFun ((keep6 m ρ c main_arg13 (by decide)).trans (arg3 m ρ c main_arg13 (by decide))) (ix1 k))

private theorem be7 (c : Dev nD) (k : Fin 128) :
    (W7 m ρ c (Proc.devRef .tc main_v58) : A2 1 128) (ix2 0 k) = (argsK m ρ c).p2.be k :=
  (stC_be (W6 m ρ c) k).trans (congrFun ((keep6 m ρ c main_arg14 (by decide)).trans (arg3 m ρ c main_arg14 (by decide))) (ix1 k))

private theorem mu7 (c : Dev nD) (k : Fin 128) :
    (W7 m ρ c (Proc.devRef .tc main_v59) : A2 1 128) (ix2 0 k) = (argsK m ρ c).p2.mu k :=
  (stC_mu (W6 m ρ c) k).trans (congrFun ((keep6 m ρ c main_arg15 (by decide)).trans (arg3 m ρ c main_arg15 (by decide))) (ix1 k))

private theorem va7 (c : Dev nD) (k : Fin 128) :
    (W7 m ρ c (Proc.devRef .tc main_v60) : A2 1 128) (ix2 0 k) = (argsK m ρ c).p2.va k :=
  (stC_va (W6 m ρ c) k).trans (congrFun ((keep6 m ρ c main_arg16 (by decide)).trans (arg3 m ρ c main_arg16 (by decide))) (ix1 k))

/-- The weight matrix at the region's entry. -/
private theorem wt7 (c : Dev nD) (q k : Fin 128) :
    (W7 m ρ c (Proc.devRef .tc main_arg7) : A2 128 128) (ix2 q k) = (argsK m ρ c).w3 q k :=
  congrFun ((keep7 m ρ c main_arg7 (by decide)).trans (arg3 m ρ c main_arg7 (by decide))) (ix2 q k)

/-- What region 2 leaves in its output array: the third layer's scaled rows. -/
private theorem val8 (c : Dev nD) (n : Fin 100000) (k : Fin 128) :
    (W8 m ρ c (Proc.devRef .tc main_v61) : A2 100000 128) (ix2 n k) = kPre (argsK m ρ c).dw (kY2 (argsK m ρ c)) (argsK m ρ c).w3 n k :=
  (congrFun (W8_arr m ρ c 8) (ix2 n k)).trans ((reg2_value (V7 m ρ) c n k).trans
    (layer_alg (argsK m ρ c).sw (argsK m ρ c).dw (argsK m ρ c).p2 (kPre (argsK m ρ c).dw (kY1 (argsK m ρ c)) (argsK m ρ c).w2) (argsK m ρ c).w3 _ _ _ _ _ _ _ _
      (agg7 m ρ c) (dcol7 m ρ c) (bias7 m ρ c) (g7 m ρ c) (be7 m ρ c) (mu7 m ρ c) (va7 m ρ c) (wt7 m ρ c) n k))
/-- Region 2 writes none of the buffers still to be read. -/
private theorem rel8 (c : Dev nD) : ∀ b ∈ liveRefs, W8 m ρ c (Proc.devRef .tc b) = W7 m ρ c (Proc.devRef .tc b) :=
  List.forall_iff_forall_mem.mp (by
    simp only [liveRefs, List.Forall]
    refine ⟨?_, ?_, ?_, ?_, ?_, ?_, ?_, ?_, ?_, ?_, ?_, ?_, ?_, ?_, ?_, ?_, ?_, ?_, ?_, ?_, ?_, ?_, ?_, ?_, ?_, ?_, ?_, ?_⟩
    · exact W8_of_ne m ρ c main_v3 (by decide)
    · exact W8_of_ne m ρ c main_v6 (by decide)
    · exact W8_of_ne m ρ c main_v14 (by decide)
    · exact W8_of_ne m ρ c main_v18 (by decide)
    · exact W8_of_ne m ρ c main_v25 (by decide)
    · exact W8_of_ne m ρ c main_arg0 (by decide)
    · exact W8_of_ne m ρ c main_arg1 (by decide)
    · exact W8_of_ne m ρ c main_arg2 (by decide)
    · exact W8_of_ne m ρ c main_arg3 (by decide)
    · exact W8_of_ne m ρ c main_arg4 (by decide)
    · exact W8_of_ne m ρ c main_arg5 (by decide)
    · exact W8_of_ne m ρ c main_arg6 (by decide)
    · exact (W8_arr m ρ c 7).trans (((dat2 (V7 m ρ) c).arrAt_in 7 rfl _).trans (A_eq2 (V7 m ρ) c 7))
    · exact W8_of_ne m ρ c main_arg8 (by decide)
    · exact W8_of_ne m ρ c main_arg9 (by decide)
    · exact W8_of_ne m ρ c main_arg10 (by decide)
    · exact W8_of_ne m ρ c main_arg11 (by decide)
    · exact W8_of_ne m ρ c main_arg12 (by decide)
    · exact W8_of_ne m ρ c main_arg13 (by decide)
    · exact W8_of_ne m ρ c main_arg14 (by decide)
    · exact W8_of_ne m ρ c main_arg15 (by decide)
    · exact W8_of_ne m ρ c main_arg16 (by decide)
    · exact W8_of_ne m ρ c main_arg17 (by decide)
    · exact W8_of_ne m ρ c main_arg18 (by decide)
    · exact W8_of_ne m ρ c main_arg19 (by decide)
    · exact W8_of_ne m ρ c main_arg20 (by decide)
    · exact W8_of_ne m ρ c main_arg21 (by decide)
    · exact W8_of_ne m ρ c main_arg22 (by decide))
/-- So at region 2's exit they are as at region 0's entry. -/
private theorem keep8 (c : Dev nD) (b : Ref sig .tc) (hb : b ∈ liveRefs) :
    W8 m ρ c (Proc.devRef .tc b) = W3 m ρ c (Proc.devRef .tc b) :=
  (rel8 m ρ c b hb).trans (keep7 m ρ c b hb)
/-- The stretch before region 3 writes none of them. -/
private theorem keep9 (c : Dev nD) (b : Ref sig .tc) (hb : b ∈ liveRefs) :
    W9 m ρ c (Proc.devRef .tc b) = W3 m ρ c (Proc.devRef .tc b) :=
  (stD_keep (W8 m ρ c) b hb).trans (keep8 m ρ c b hb)

/-! ## The stretch before region 3 -/

/-- The rows the region before left, as a matrix. -/
private theorem mat9 (c : Dev nD) : mat (W8 m ρ c (Proc.devRef .tc main_v61) : A2 100000 128) = kPre (argsK m ρ c).dw (kY2 (argsK m ρ c)) (argsK m ρ c).w3 :=
  funext fun n => funext fun k => val8 m ρ c n k

private theorem agg9 (c : Dev nD) (i : Fin 100000) (k : Fin 128) :
    (W9 m ρ c (Proc.devRef .tc main_v71) : A2 100000 128) (ix2 i k) = agg (argsK m ρ c).sw (argsK m ρ c).dw (kPre (argsK m ρ c).dw (kY2 (argsK m ρ c)) (argsK m ρ c).w3) i k :=
  (stD_agg (W8 m ρ c) i k).trans
    (agg_congr (congrArg wvec (keep8 m ρ c main_v3 (by decide))) (congrArg wvec (keep8 m ρ c main_v6 (by decide))) (mat9 m ρ c) i k)

private theorem dcol9 (c : Dev nD) (n : Fin 100000) :
    (W9 m ρ c (Proc.devRef .tc main_v72) : A2 100000 1) (ix2 n 0) = dinv (argsK m ρ c).dw n :=
  (stD_dinv (W8 m ρ c) n).trans ((congrFun (keep8 m ρ c main_v14 (by decide)) (ix1 n)).trans (dinv3 m ρ c n))

private theorem bias9 (c : Dev nD) (k : Fin 128) :
    (W9 m ρ c (Proc.devRef .tc main_v73) : A2 1 128) (ix2 0 k) = (argsK m ρ c).p3.bias k :=
  (stD_bias (W8 m ρ c) k).trans (congrFun ((keep8 m ρ c main_arg8 (by decide)).trans (arg3 m ρ c main_arg8 (by decide))) (ix1 k))

private theorem g9 (c : Dev nD) (k : Fin 128) :
    (W9 m ρ c (Proc.devRef .tc main_v74) : A2 1 128) (ix2 0 k) = (argsK m ρ c).p3.g k :=
  (stD_g (W8 m ρ c) k).trans (congrFun ((keep8 m ρ c main_arg17 (by decide)).trans (arg3 m ρ c main_arg17 (by decide))) (ix1 k))

private theorem be9 (c : Dev nD) (k : Fin 128) :
    (W9 m ρ c (Proc.devRef .tc main_v75) : A2 1 128) (ix2 0 k) = (argsK m ρ c).p3.be k :=
  (stD_be (W8 m ρ c) k).trans (congrFun ((keep8 m ρ c main_arg18 (by decide)).trans (arg3 m ρ c main_arg18 (by decide))) (ix1 k))

private theorem mu9 (c : Dev nD) (k : Fin 128) :
    (W9 m ρ c (Proc.devRef .tc main_v76) : A2 1 128) (ix2 0 k) = (argsK m ρ c).p3.mu k :=
  (stD_mu (W8 m ρ c) k).trans (congrFun ((keep8 m ρ c main_arg19 (by decide)).trans (arg3 m ρ c main_arg19 (by decide))) (ix1 k))

private theorem va9 (c : Dev nD) (k : Fin 128) :
    (W9 m ρ c (Proc.devRef .tc main_v77) : A2 1 128) (ix2 0 k) = (argsK m ρ c).p3.va k :=
  (stD_va (W8 m ρ c) k).trans (congrFun ((keep8 m ρ c main_arg20 (by decide)).trans (arg3 m ρ c main_arg20 (by decide))) (ix1 k))

/-- The membership indicator at region 3's entry. -/
private theorem oh9 (c : Dev nD) (n : Fin 100000) (γ : Fin 64) :
    (W9 m ρ c (Proc.devRef .tc main_v25) : A2 100000 64) (ix2 n γ) = ohv ((argsK m ρ c).bw n) γ :=
  (congrFun (keep9 m ρ c main_v25 (by decide)) (ix2 n γ)).trans (oh3 m ρ c n γ)

/-- What region 3 leaves in its output array: the pooled activated rows of the third layer. -/
private theorem val10 (c : Dev nD) (γ : Fin 64) (k : Fin 128) :
    (W10 m ρ c (Proc.devRef .tc main_v78) : A2 64 128) (ix2 γ k) = kPool (argsK m ρ c).bw (kY3 (argsK m ρ c)) γ k :=
  (congrFun (W10_arr m ρ c 8) (ix2 γ k)).trans ((reg3_value (V9 m ρ) c γ k).trans
    (pool_alg (argsK m ρ c).sw (argsK m ρ c).dw (argsK m ρ c).p3 (kPre (argsK m ρ c).dw (kY2 (argsK m ρ c)) (argsK m ρ c).w3) (argsK m ρ c).bw _ _ _ _ _ _ _ _
      (agg9 m ρ c) (dcol9 m ρ c) (bias9 m ρ c) (g9 m ρ c) (be9 m ρ c) (mu9 m ρ c) (va9 m ρ c) (oh9 m ρ c) γ k))
/-- Region 3 writes none of the buffers still to be read. -/
private theorem rel10 (c : Dev nD) : ∀ b ∈ liveRefs, W10 m ρ c (Proc.devRef .tc b) = W9 m ρ c (Proc.devRef .tc b) :=
  List.forall_iff_forall_mem.mp (by
    simp only [liveRefs, List.Forall]
    refine ⟨?_, ?_, ?_, ?_, ?_, ?_, ?_, ?_, ?_, ?_, ?_, ?_, ?_, ?_, ?_, ?_, ?_, ?_, ?_, ?_, ?_, ?_, ?_, ?_, ?_, ?_, ?_, ?_⟩
    · exact W10_of_ne m ρ c main_v3 (by decide)
    · exact W10_of_ne m ρ c main_v6 (by decide)
    · exact W10_of_ne m ρ c main_v14 (by decide)
    · exact W10_of_ne m ρ c main_v18 (by decide)
    · exact (W10_arr m ρ c 7).trans (((dat3 (V9 m ρ) c).arrAt_in 7 rfl _).trans (A_eq3 (V9 m ρ) c 7))
    · exact W10_of_ne m ρ c main_arg0 (by decide)
    · exact W10_of_ne m ρ c main_arg1 (by decide)
    · exact W10_of_ne m ρ c main_arg2 (by decide)
    · exact W10_of_ne m ρ c main_arg3 (by decide)
    · exact W10_of_ne m ρ c main_arg4 (by decide)
    · exact W10_of_ne m ρ c main_arg5 (by decide)
    · exact W10_of_ne m ρ c main_arg6 (by decide)
    · exact W10_of_ne m ρ c main_arg7 (by decide)
    · exact W10_of_ne m ρ c main_arg8 (by decide)
    · exact W10_of_ne m ρ c main_arg9 (by decide)
    · exact W10_of_ne m ρ c main_arg10 (by decide)
    · exact W10_of_ne m ρ c main_arg11 (by decide)
    · exact W10_of_ne m ρ c main_arg12 (by decide)
    · exact W10_of_ne m ρ c main_arg13 (by decide)
    · exact W10_of_ne m ρ c main_arg14 (by decide)
    · exact W10_of_ne m ρ c main_arg15 (by decide)
    · exact W10_of_ne m ρ c main_arg16 (by decide)
    · exact W10_of_ne m ρ c main_arg17 (by decide)
    · exact W10_of_ne m ρ c main_arg18 (by decide)
    · exact W10_of_ne m ρ c main_arg19 (by decide)
    · exact W10_of_ne m ρ c main_arg20 (by decide)
    · exact W10_of_ne m ρ c main_arg21 (by decide)
    · exact W10_of_ne m ρ c main_arg22 (by decide))
/-- So at region 3's exit they are as at region 0's entry. -/
private theorem keep10 (c : Dev nD) (b : Ref sig .tc) (hb : b ∈ liveRefs) :
    W10 m ρ c (Proc.devRef .tc b) = W3 m ρ c (Proc.devRef .tc b) :=
  (rel10 m ρ c b hb).trans (keep9 m ρ c b hb)

/-! ## The last stretch -/

/-- The result buffer at the last boundary is the network's output in its first arrangement. -/
theorem kernel_value (c : Dev nD) (g : Fin 64) (j : Fin 2) :
    (W11 m ρ c (Proc.devRef .tc main_v87) : A2 64 2) (ix2 g j) = kernelOut (argsK m ρ c) g j :=
  (stE_out (W10 m ρ c) g j).trans
    (head_congr
      (congrArg mat ((keep10 m ρ c main_arg21 (by decide)).trans (arg3 m ρ c main_arg21 (by decide))))
      (congrArg vec ((keep10 m ρ c main_arg22 (by decide)).trans (arg3 m ρ c main_arg22 (by decide))))
      (funext fun γ => (congrFun (keep10 m ρ c main_v18 (by decide)) (ix1 γ)).trans (cnt3 m ρ c γ))
      (funext fun γ => funext fun k => val10 m ρ c γ k) g j)

end Cert.KernelIdeal.KValue

end
-- ==== Proof.RefA.lean ====
/-
  The reference's graph quantities read at an index: the source and destination words of each edge (kept as the arrays the first operations lay out), the in-degree by a scatter-add of ones, its inverse square root where positive, and each edge's norm, the product of dinv at the edge's gathered source and destination rows.
-/
import proofs.«400615_j49314814493137_3_alg».proof.Proof.RefRun
import proofs.«400615_j49314814493137_3_alg».proof.Proof.RefRead
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

variable (x0 : (⟨S100000x3, .f32⟩ : BufTy).Contents (Elt Ideal)) (x1 : (⟨S2x1600000, .i32⟩ : BufTy).Contents (Elt Ideal)) (x2 : (⟨S100000, .i32⟩ : BufTy).Contents (Elt Ideal))
  (x3 : (⟨S3x128, .f32⟩ : BufTy).Contents (Elt Ideal)) (x5 x7 : (⟨S128x128, .f32⟩ : BufTy).Contents (Elt Ideal))
  (x4 x6 x8 x9 x10 x11 x12 x13 x14 x15 x16 x17 x18 x19 x20 : (⟨S128, .f32⟩ : BufTy).Contents (Elt Ideal))
  (x21 : (⟨S128x2, .f32⟩ : BufTy).Contents (Elt Ideal)) (x22 : (⟨S2, .f32⟩ : BufTy).Contents (Elt Ideal))

/-- The edge words, as functions of the edge's number. -/
abbrev swR : Fin EE → BitVec 32 := wvec (val_main_v3 (F := Ideal) x1)
abbrev dwR : Fin EE → BitVec 32 := wvec (val_main_v6 (F := Ideal) x1)

/-- The element scatter's dimension numbers, and the element gather's, as the general records of an element scatter and gather. -/
private theorem scatV_dims : scatter_S100000_S1700000x1_S1700000_n_0_0_1
    = vecScatterDims 100000 1700000 scatter_S100000_S1700000x1_S1700000_n_0_0_1.wf := rfl
private theorem gathV_dims : gather_S100000_S1700000x1_S1700000_n_0_n_n_0_1_1
    = vecGatherDims 100000 1700000 gather_S100000_S1700000x1_S1700000_n_0_n_n_0_1_1.wf := rfl

/-- The element scatter-add read at element i. -/
private theorem scatV_read (x : A1 100000) (idx : (⟨2, ![1700000, 1]⟩ : Shape).Idx → BitVec 32) (u : A1 1700000) (i : Fin 100000) :
    (Host.scatterAdd (F := Ideal) (φ := .f32) scatter_S100000_S1700000x1_S1700000_n_0_0_1 x idx u : A1 100000) (ix1 i)
      = x (ix1 i) + ∑ e ∈ Finset.univ.filter (fun e : Fin 1700000 => (idx (ix2 e (0 : Fin 1))).toInt = (i.val : Int)), u (ix1 e) := by
  unfold Host.scatterAdd
  rw [Ideal.hostScatterAdd_def, scatV_dims]
  exact scatterAddVec_apply _ x idx u i

/-- The element gather read at element e. -/
private theorem gathV_read (x : A1 100000) (idx : (⟨2, ![1700000, 1]⟩ : Shape).Idx → BitVec 32) (e : Fin 1700000) :
    (Host.gather gather_S100000_S1700000x1_S1700000_n_0_n_n_0_1_1 x idx : A1 1700000) (ix1 e)
      = x (ix1 (crow 100000 (by decide) (idx (ix2 e (0 : Fin 1))))) := by
  rw [gathV_dims]
  exact gatherVec_apply (by decide) _ x idx (ix1 e)

/- The two edge arrays stay closed: every statement below mentions them only through swR and dwR. -/
attribute [local irreducible] val_main_v3 val_main_v6

/-- The broadcast of an edge array to a column reads, at row e, the array at e. -/
private theorem idx_v9_ix2 (e : Fin 1700000) : idx_main_v9 (ix2 e (0 : Fin 1)) = ix1 e := by
  funext a
  match a with
  | ⟨0, _⟩ => rfl

/-- The scatter's index column at row e is the destination word of edge e. -/
private theorem v9_read (e : Fin 1700000) : val_main_v9 (F := Ideal) x1 (ix2 e (0 : Fin 1)) = dwR x1 e := by
  rw [val_main_v9_apply, idx_v9_ix2]
  unfold dwR wvec
  with_reducible rfl

/-- Every update is one. -/
private theorem v7_read (e : Fin 1700000) : val_main_v7 (F := Ideal) (ix1 e) = oneE := by
  rw [val_main_v7_apply, val_main_cst_apply, Ideal.ofBits_def]
  unfold oneE
  with_reducible rfl

/-- The scatter's operand is zero everywhere. -/
private theorem v8_read (n : Fin 100000) : val_main_v8 (F := Ideal) (ix1 n) = zeroE := by
  rw [val_main_v8_apply, val_main_cst_0_apply, Ideal.ofBits_def]
  unfold zeroE
  with_reducible rfl

/-- The in-degree of node n: zero plus one for each edge whose destination word, read signed, is n. -/
private theorem ref_deg (n : Fin 100000) : (val_main_v10 (F := Ideal) x1 : A1 100000) (ix1 n) = deg (dwR x1) n := by
  refine (scatV_read _ _ _ n).trans ?_
  rw [v8_read]
  unfold deg inE
  refine congrArg (fun s => zeroE + s) ?_
  exact Finset.sum_congr (Finset.filter_congr fun e _ => by rw [v9_read]) (fun e _ => v7_read e)

/-- dinv of node n. -/
theorem ref_dinv (n : Fin 100000) : (val_main_v14 (F := Ideal) x1 : A1 100000) (ix1 n) = dinv (dwR x1) n := by
  rw [val_main_v14_apply, val_main_v12_apply, val_main_v13_apply, ref_deg, val_main_v11_apply, val_main_cst_1_apply,
    val_main_call0_v1_apply, val_main_call0_v0_apply, val_main_cst_2_apply, Ideal.cmpf_def, Ideal.hostUnary_rsqrt_def,
    Ideal.ofBits_def]
  unfold dinv zeroE
  with_reducible rfl

/-- The broadcasts of the two wrapped edge arrays to columns read, at row e, the array at e. -/
private theorem idx_v20_ix2 (e : Fin 1700000) : idx_main_v20 (ix2 e (0 : Fin 1)) = ix1 e := by
  funext a
  match a with
  | ⟨0, _⟩ => rfl

private theorem idx_v27_ix2 (e : Fin 1700000) : idx_main_v27 (ix2 e (0 : Fin 1)) = ix1 e := by
  funext a
  match a with
  | ⟨0, _⟩ => rfl

/-- The first gather's index column at row e is the wrapped source word of edge e. -/
private theorem v20_read (e : Fin 1700000) : val_main_v20 (F := Ideal) x1 (ix2 e (0 : Fin 1)) = wrapN (swR x1 e) := by
  rw [val_main_v20_apply, idx_v20_ix2, val_main_v19_apply, val_main_v16_apply, val_main_v18_apply, val_main_v15_apply,
    val_main_c_apply, val_main_v17_apply, val_main_c_3_apply]
  unfold swR wvec wrapN
  with_reducible rfl

/-- The second gather's index column at row e is the wrapped destination word of edge e. -/
private theorem v27_read (e : Fin 1700000) : val_main_v27 (F := Ideal) x1 (ix2 e (0 : Fin 1)) = wrapN (dwR x1 e) := by
  rw [val_main_v27_apply, idx_v27_ix2, val_main_v26_apply, val_main_v23_apply, val_main_v25_apply, val_main_v22_apply,
    val_main_c_4_apply, val_main_v24_apply, val_main_c_5_apply]
  unfold dwR wvec wrapN
  with_reducible rfl

/-- The clamped wrapped word is the row a gather reads. -/
private theorem crow_wrapN (w : BitVec 32) : crow 100000 (by decide) (wrapN w) = grow w := rfl

/-- The norm of edge e. -/
theorem ref_norm (e : Fin 1700000) :
    (val_main_v29 (F := Ideal) x1 : A1 1700000) (ix1 e)
      = dinv (dwR x1) (grow (swR x1 e)) * dinv (dwR x1) (grow (dwR x1 e)) := by
  have h21 : (val_main_v21 (F := Ideal) x1 : A1 1700000) (ix1 e) = dinv (dwR x1) (grow (swR x1 e)) := by
    refine (gathV_read _ _ e).trans ?_
    rw [v20_read, crow_wrapN]
    exact ref_dinv x1 _
  have h28 : (val_main_v28 (F := Ideal) x1 : A1 1700000) (ix1 e) = dinv (dwR x1) (grow (dwR x1 e)) := by
    refine (gathV_read _ _ e).trans ?_
    rw [v27_read, crow_wrapN]
    exact ref_dinv x1 _
  rw [val_main_v29_apply, Ideal.mulf_def, h21, h28]

end Cert.ReferenceIdeal.RefValue

end
-- ==== Proof.RefL1.lean ====
/-
  The reference's first layer read at an index.
-/
import proofs.«400615_j49314814493137_3_alg».proof.Proof.RefA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

variable (x0 : (⟨S100000x3, .f32⟩ : BufTy).Contents (Elt Ideal)) (x1 : (⟨S2x1600000, .i32⟩ : BufTy).Contents (Elt Ideal)) (x2 : (⟨S100000, .i32⟩ : BufTy).Contents (Elt Ideal))
  (x3 : (⟨S3x128, .f32⟩ : BufTy).Contents (Elt Ideal)) (x5 x7 : (⟨S128x128, .f32⟩ : BufTy).Contents (Elt Ideal))
  (x4 x6 x8 x9 x10 x11 x12 x13 x14 x15 x16 x17 x18 x19 x20 : (⟨S128, .f32⟩ : BufTy).Contents (Elt Ideal))
  (x21 : (⟨S128x2, .f32⟩ : BufTy).Contents (Elt Ideal)) (x22 : (⟨S2, .f32⟩ : BufTy).Contents (Elt Ideal))

/-- The contraction's operand indices at (n, k) and term q are (n, q) and (q, k). -/
private theorem lidx_v30_ix2 (n : Fin 100000) (k : Fin 128) (q : Fin 3) : lidx_main_v30 (ix2 n k) q = ix2 n q := by
  funext a
  match a with
  | ⟨0, _⟩ => rfl
  | ⟨1, _⟩ => rfl
private theorem ridx_v30_ix2 (n : Fin 100000) (k : Fin 128) (q : Fin 3) : ridx_main_v30 (ix2 n k) q = ix2 q k := by
  funext a
  match a with
  | ⟨0, _⟩ => rfl
  | ⟨1, _⟩ => rfl

/-- The layer's linear map: input rows times the weight matrix. -/
private theorem ref_lin1 (n : Fin 100000) (k : Fin 128) :
    (val_main_v30 (F := Ideal) x0 x3 : A2 100000 128) (ix2 n k) = lin (mat x0) (mat x3) n k := by
  rw [val_main_v30_apply]
  unfold lin mat
  refine Finset.sum_congr rfl fun q _ => ?_
  rw [lidx_v30_ix2, ridx_v30_ix2]

/-- A column's row e reads the edge array at e. -/
private theorem idx_v36_ix2 (e : Fin 1700000) : idx_main_v36 (ix2 e (0 : Fin 1)) = ix1 e := by
  funext a
  match a with
  | ⟨0, _⟩ => rfl
private theorem idx_v38_ix2 (e : Fin 1700000) : idx_main_v38 (ix2 e (0 : Fin 1)) = ix1 e := by
  funext a
  match a with
  | ⟨0, _⟩ => rfl
private theorem idx_v42_ix2 (e : Fin 1700000) : idx_main_v42 (ix2 e (0 : Fin 1)) = ix1 e := by
  funext a
  match a with
  | ⟨0, _⟩ => rfl
/-- A column broadcast along the channels reads, at (e, k), the column at (e, 0). -/
private theorem idx_v39_ix2 (e : Fin 1700000) (k : Fin 128) : idx_main_v39 (ix2 e k) = ix2 e (0 : Fin 1) := by
  funext a
  match a with
  | ⟨0, _⟩ => rfl
  | ⟨1, _⟩ => rfl

/-- The gather's index column at (e, 0): the source word, wrapped when negative. -/
private theorem ref_col1 (e : Fin 1700000) :
    val_main_v36 (F := Ideal) x1 (ix2 e (0 : Fin 1)) = wrapN (swR x1 e) := by
  rw [val_main_v36_apply, idx_v36_ix2, val_main_v35_apply, val_main_v32_apply, val_main_v34_apply, val_main_v31_apply,
    val_main_v33_apply, val_main_c_6_apply, val_main_c_7_apply]
  rfl

/-- The gathered row of edge e is the linear map's row grow (source word). -/
private theorem ref_gath1 (e : Fin 1700000) (k : Fin 128) :
    (val_main_v37 (F := Ideal) x0 x1 x3 : A2 1700000 128) (ix2 e k) = lin (mat x0) (mat x3) (grow (swR x1 e)) k := by
  unfold val_main_v37
  show Host.gather (rowGatherDims 100000 1700000 128 Facts₀.gather_S100000x128_S1700000x1_S1700000x128_1_0_n_n_0_1_1128_wf)
    (val_main_v30 (F := Ideal) x0 x3) (val_main_v36 (F := Ideal) x1) (ix2 e k) = _
  rw [gatherRows_apply (by decide : 0 < 100000)]
  show val_main_v30 (F := Ideal) x0 x3 (ix2 (crow 100000 (by decide) (val_main_v36 (F := Ideal) x1 (ix2 e (0 : Fin 1)))) k) = _
  rw [ref_col1, ref_lin1]
  rfl

/-- The message of edge e: its gathered row times its norm. -/
private theorem ref_msg1 (e : Fin 1700000) (k : Fin 128) :
    (val_main_v40 (F := Ideal) x0 x1 x3 : A2 1700000 128) (ix2 e k)
      = rMsg (swR x1) (dwR x1) (lin (mat x0) (mat x3)) e k := by
  rw [val_main_v40_apply, ref_gath1, val_main_v39_apply, idx_v39_ix2, val_main_v38_apply, idx_v38_ix2, ref_norm]
  rfl

/-- The program's row scatter is the row scatter of the general reading. -/
private theorem scat_dims1 : scatter_S100000x128_S1700000x1_S1700000x128_1_0_0_1
    = rowScatterDims 100000 1700000 128 scatter_S100000x128_S1700000x1_S1700000x128_1_0_0_1.wf := rfl

/-- The row scatter-add of any arrays at (i, q): the operand there plus column q of the update rows whose index word,
    read signed, is i. -/
private theorem scat_read1 (x : A2 100000 128) (idx : (⟨2, ![1700000, 1]⟩ : Shape).Idx → BitVec 32) (u : A2 1700000 128)
    (i : Fin 100000) (q : Fin 128) :
    (Host.scatterAdd (F := Ideal) (φ := .f32) scatter_S100000x128_S1700000x1_S1700000x128_1_0_0_1 x idx u : A2 100000 128) (ix2 i q)
      = x (ix2 i q) + ∑ e ∈ Finset.univ.filter (fun e : Fin 1700000 => (idx (ix2 e (0 : Fin 1))).toInt = (i.val : Int)), u (ix2 e q) := by
  unfold Host.scatterAdd
  rw [Ideal.hostScatterAdd_def, scat_dims1]
  exact scatterAddRows_apply _ x idx u i q

/-- The sum at (n, k): zero plus the messages of the edges whose destination word, read signed, is n. -/
private theorem ref_agg1 (n : Fin 100000) (k : Fin 128) :
    (val_main_v43 (F := Ideal) x0 x1 x3 : A2 100000 128) (ix2 n k)
      = rAgg (swR x1) (dwR x1) (lin (mat x0) (mat x3)) n k := by
  have h0 : val_main_v41 (F := Ideal) (ix2 n k) = zeroE := by
    rw [val_main_v41_apply, val_main_cst_8_apply]
    rfl
  have hset : Finset.univ.filter (fun e : Fin 1700000 =>
        (val_main_v42 (F := Ideal) x1 (ix2 e (0 : Fin 1))).toInt = (n.val : Int))
      = Finset.univ.filter (fun e : Fin 1700000 => (dwR x1 e).toInt = (n.val : Int)) := by
    refine Finset.filter_congr fun e _ => ?_
    rw [val_main_v42_apply, idx_v42_ix2]
    exact Iff.rfl
  unfold val_main_v43
  refine (scat_read1 _ _ _ n k).trans ?_
  rw [h0, hset]
  unfold rAgg inE
  rw [Finset.sum_congr rfl fun e _ => ref_msg1 x0 x1 x3 e k]

/-- A channel vector broadcast to all rows reads, at (n, k), the vector at k. -/
private theorem ref_bias1 (n : Fin 100000) (k : Fin 128) : val_main_v45 (F := Ideal) x4 (ix2 n k) = vec x4 k := by
  rw [val_main_v45_apply, val_main_v44_apply]
  unfold vec
  congr 1
  funext a
  match a with
  | ⟨0, _⟩ => rfl
private theorem ref_mu1 (n : Fin 100000) (k : Fin 128) : val_main_v48 (F := Ideal) x11 (ix2 n k) = vec x11 k := by
  rw [val_main_v48_apply, val_main_v47_apply]
  unfold vec
  congr 1
  funext a
  match a with
  | ⟨0, _⟩ => rfl
private theorem ref_g1 (n : Fin 100000) (k : Fin 128) : val_main_v57 (F := Ideal) x9 (ix2 n k) = vec x9 k := by
  rw [val_main_v57_apply, val_main_v56_apply]
  unfold vec
  congr 1
  funext a
  match a with
  | ⟨0, _⟩ => rfl
private theorem ref_be1 (n : Fin 100000) (k : Fin 128) : val_main_v60 (F := Ideal) x10 (ix2 n k) = vec x10 k := by
  rw [val_main_v60_apply, val_main_v59_apply]
  unfold vec
  congr 1
  funext a
  match a with
  | ⟨0, _⟩ => rfl
/-- The inverse square root of the variance plus epsilon, broadcast to all rows. -/
private theorem ref_rs1 (n : Fin 100000) (k : Fin 128) :
    val_main_v54 (F := Ideal) x12 (ix2 n k) = Ideal.rsqrt (vec x12 k + epsE) := by
  have hi : idx_main_v53 (idx_main_v54 (ix2 n k)) = ix1 k := by
    funext a
    match a with
    | ⟨0, _⟩ => rfl
  rw [val_main_v54_apply, val_main_v53_apply, hi, val_main_v52_apply, val_main_v51_apply, val_main_v50_apply,
    val_main_cst_9_apply]
  rfl

/-- The layer's output at (n, k): bias, batch norm and rectifier of the sum, over the edges landing on n, of the gathered row
    of (input rows times the weight matrix) times the edge's norm. -/
theorem ref_layer1 (n : Fin 100000) (k : Fin 128) :
    (val_main_v62 (F := Ideal) x0 x1 x3 x4 x9 x10 x11 x12 : A2 100000 128) (ix2 n k)
      = rAct (swR x1) (dwR x1) (BN.ofArrays x4 x9 x10 x11 x12) (lin (mat x0) (mat x3)) n k := by
  rw [val_main_v62_apply, val_main_v61_apply, val_main_v58_apply, val_main_v55_apply, val_main_v49_apply, val_main_v46_apply,
    ref_agg1, ref_bias1, ref_mu1, ref_rs1, ref_g1, ref_be1, val_main_call1_v0_apply, val_main_call1_cst_apply]
  rfl

end Cert.ReferenceIdeal.RefValue

end
-- ==== Proof.RefL2.lean ====
/-
  The reference's second layer read at an index, over the first layer's output array.
-/
import proofs.«400615_j49314814493137_3_alg».proof.Proof.RefA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

variable (x0 : (⟨S100000x3, .f32⟩ : BufTy).Contents (Elt Ideal)) (x1 : (⟨S2x1600000, .i32⟩ : BufTy).Contents (Elt Ideal)) (x2 : (⟨S100000, .i32⟩ : BufTy).Contents (Elt Ideal))
  (x3 : (⟨S3x128, .f32⟩ : BufTy).Contents (Elt Ideal)) (x5 x7 : (⟨S128x128, .f32⟩ : BufTy).Contents (Elt Ideal))
  (x4 x6 x8 x9 x10 x11 x12 x13 x14 x15 x16 x17 x18 x19 x20 : (⟨S128, .f32⟩ : BufTy).Contents (Elt Ideal))
  (x21 : (⟨S128x2, .f32⟩ : BufTy).Contents (Elt Ideal)) (x22 : (⟨S2, .f32⟩ : BufTy).Contents (Elt Ideal))

/-- The bias, laid along the rows, reads the vector at the column. -/
private theorem bias_at (n : Fin 100000) (k : Fin 128) : val_main_v78 (F := Ideal) x6 (ix2 n k) = x6 (ix1 k) := by
  rw [val_main_v78_apply, val_main_v77_apply]
  exact congrArg x6 (funext fun a => Fin.ext (by match a with | ⟨0, _⟩ => rfl))

/-- The running mean, laid along the rows, reads the vector at the column. -/
private theorem mean_at (n : Fin 100000) (k : Fin 128) : val_main_v81 (F := Ideal) x15 (ix2 n k) = x15 (ix1 k) := by
  rw [val_main_v81_apply, val_main_v80_apply]
  exact congrArg x15 (funext fun a => Fin.ext (by match a with | ⟨0, _⟩ => rfl))

/-- The scale, laid along the rows, reads the vector at the column. -/
private theorem scale_at (n : Fin 100000) (k : Fin 128) : val_main_v90 (F := Ideal) x13 (ix2 n k) = x13 (ix1 k) := by
  rw [val_main_v90_apply, val_main_v89_apply]
  exact congrArg x13 (funext fun a => Fin.ext (by match a with | ⟨0, _⟩ => rfl))

/-- The shift, laid along the rows, reads the vector at the column. -/
private theorem shift_at (n : Fin 100000) (k : Fin 128) : val_main_v93 (F := Ideal) x14 (ix2 n k) = x14 (ix1 k) := by
  rw [val_main_v93_apply, val_main_v92_apply]
  exact congrArg x14 (funext fun a => Fin.ext (by match a with | ⟨0, _⟩ => rfl))

/-- The inverse square root of the variance plus epsilon, laid along the rows, at the column. -/
private theorem var_at (n : Fin 100000) (k : Fin 128) :
    val_main_v87 (F := Ideal) x16 (ix2 n k) = Ideal.rsqrt (x16 (ix1 k) + epsE) := by
  rw [val_main_v87_apply, val_main_v86_apply, val_main_v85_apply, val_main_v84_apply, val_main_v83_apply,
    val_main_cst_13_apply]
  have h : idx_main_v86 (idx_main_v87 (ix2 n k)) = ix1 k :=
    funext fun a => Fin.ext (by match a with | ⟨0, _⟩ => rfl)
  rw [h]
  rfl

/-- The scatter's operand and the rectifier's second operand are zero everywhere. -/
private theorem zero_at (n : Fin 100000) (k : Fin 128) : val_main_v74 (F := Ideal) (ix2 n k) = zeroE := by
  rw [val_main_v74_apply, val_main_cst_12_apply]
  rfl
private theorem relu_zero_at (n : Fin 100000) (k : Fin 128) : val_main_call2_v0 (F := Ideal) (ix2 n k) = zeroE := by
  rw [val_main_call2_v0_apply, val_main_call2_cst_apply]
  rfl

/-- The scatter's index column at (e, 0) is the destination word of edge e. -/
private theorem dst_at (e : Fin 1700000) : val_main_v75 (F := Ideal) x1 (ix2 e (0 : Fin 1)) = dwR x1 e := by
  rw [val_main_v75_apply]
  exact congrArg (val_main_v6 (F := Ideal) x1) (funext fun a => Fin.ext (by match a with | ⟨0, _⟩ => rfl))

/-- The gather's index column at (e, 0) is the source word of edge e, plus 100000 if negative. -/
private theorem src_at (e : Fin 1700000) : val_main_v69 (F := Ideal) x1 (ix2 e (0 : Fin 1)) = wrapN (swR x1 e) := by
  rw [val_main_v69_apply, val_main_v68_apply, val_main_v65_apply, val_main_v67_apply, val_main_v64_apply,
    val_main_v66_apply, val_main_c_10_apply, val_main_c_11_apply]
  have h : idx_main_v69 (ix2 e (0 : Fin 1)) = ix1 e :=
    funext fun a => Fin.ext (by match a with | ⟨0, _⟩ => rfl)
  rw [h]
  rfl

/-- The edge's norm, laid along the channels. -/
private theorem norm_at (e : Fin 1700000) (k : Fin 128) :
    val_main_v72 (F := Ideal) x1 (ix2 e k)
      = dinv (dwR x1) (grow (swR x1 e)) * dinv (dwR x1) (grow (dwR x1 e)) := by
  rw [val_main_v72_apply, val_main_v71_apply]
  have h : idx_main_v71 (idx_main_v72 (ix2 e k)) = ix1 e :=
    funext fun a => Fin.ext (by match a with | ⟨0, _⟩ => rfl)
  rw [h]
  exact ref_norm x1 e

/-- Rows times a matrix, of any two arrays: the sum over the middle coordinate. -/
private theorem lin_read (y : (⟨S100000x128, .f32⟩ : BufTy).Contents (Elt Ideal)) (w : (⟨S128x128, .f32⟩ : BufTy).Contents (Elt Ideal))
    (r : Fin 100000) (k : Fin 128) :
    (∑ q : Fin 128, y (lidx_main_v63 (ix2 r k) q) * w (ridx_main_v63 (ix2 r k) q)) = lin (mat y) (mat w) r k := by
  unfold lin mat
  refine Finset.sum_congr rfl fun q _ => ?_
  have hl : lidx_main_v63 (ix2 r k) q = ix2 r q :=
    funext fun a => Fin.ext (by match a with | ⟨0, _⟩ => rfl | ⟨1, _⟩ => rfl)
  have hr : ridx_main_v63 (ix2 r k) q = ix2 q k :=
    funext fun a => Fin.ext (by match a with | ⟨0, _⟩ => rfl | ⟨1, _⟩ => rfl)
  rw [hl, hr]

/-- The input rows times the weight matrix. -/
private theorem dot_at (r : Fin 100000) (k : Fin 128) :
    val_main_v63 (F := Ideal) x0 x1 x3 x4 x5 x9 x10 x11 x12 (ix2 r k)
      = lin (mat (val_main_v62 (F := Ideal) x0 x1 x3 x4 x9 x10 x11 x12)) (mat x5) r k := by
  rw [val_main_v63_apply]
  exact lin_read (val_main_v62 (F := Ideal) x0 x1 x3 x4 x9 x10 x11 x12) x5 r k

/-- The program's gather and scatter are a row gather and a row scatter. -/
private theorem gather_rows : gather_S100000x128_S1700000x1_S1700000x128_1_0_n_n_0_1_1128
    = rowGatherDims 100000 1700000 128 gather_S100000x128_S1700000x1_S1700000x128_1_0_n_n_0_1_1128.wf := rfl
private theorem scatter_rows : scatter_S100000x128_S1700000x1_S1700000x128_1_0_0_1
    = rowScatterDims 100000 1700000 128 scatter_S100000x128_S1700000x1_S1700000x128_1_0_0_1.wf := rfl

/-- The gather of any array's rows along any index column: row (e, k) is the array's row at the clamped index word. -/
private theorem gat_read (y : (⟨S100000x128, .f32⟩ : BufTy).Contents (Elt Ideal)) (idx : (⟨S1700000x1, .i32⟩ : BufTy).Contents (Elt Ideal))
    (e : Fin 1700000) (k : Fin 128) :
    Host.gather gather_S100000x128_S1700000x1_S1700000x128_1_0_n_n_0_1_1128 y idx (ix2 e k)
      = y (ix2 (crow 100000 (by decide) (idx (ix2 e (0 : Fin 1)))) k) := by
  rw [gather_rows]
  exact gatherRows_apply (by decide) _ y idx (ix2 e k)

/-- The scatter-add of any update rows along any index column into any array. -/
private theorem scat_read (x : (⟨S100000x128, .f32⟩ : BufTy).Contents (Elt Ideal)) (idx : (⟨S1700000x1, .i32⟩ : BufTy).Contents (Elt Ideal))
    (u : (⟨S1700000x128, .f32⟩ : BufTy).Contents (Elt Ideal)) (i : Fin 100000) (q : Fin 128) :
    Host.scatterAdd (F := Ideal) (φ := .f32) scatter_S100000x128_S1700000x1_S1700000x128_1_0_0_1 x idx u (ix2 i q)
      = x (ix2 i q) + ∑ e ∈ Finset.univ.filter (fun e : Fin 1700000 => (idx (ix2 e (0 : Fin 1))).toInt = (i.val : Int)), u (ix2 e q) := by
  unfold Host.scatterAdd
  rw [Ideal.hostScatterAdd_def, scatter_rows]
  exact scatterAddRows_apply _ x idx u i q

/-- The clamped wrapped word is the row a gather reads. -/
private theorem crow_wrap (w : BitVec 32) : crow 100000 (by decide) (wrapN w) = grow w := rfl

/-- The gathered row of edge e is the product's row grow (source word). -/
private theorem gat_at (e : Fin 1700000) (k : Fin 128) :
    val_main_v70 (F := Ideal) x0 x1 x3 x4 x5 x9 x10 x11 x12 (ix2 e k)
      = lin (mat (val_main_v62 (F := Ideal) x0 x1 x3 x4 x9 x10 x11 x12)) (mat x5) (grow (swR x1 e)) k := by
  unfold val_main_v70
  rw [gat_read, src_at, crow_wrap, dot_at]

/-- The scatter-add at (n, k): zero plus the sum, over the edges landing on n, of the edge's message. -/
private theorem agg_at (n : Fin 100000) (k : Fin 128) :
    val_main_v76 (F := Ideal) x0 x1 x3 x4 x5 x9 x10 x11 x12 (ix2 n k)
      = rAgg (swR x1) (dwR x1) (lin (mat (val_main_v62 (F := Ideal) x0 x1 x3 x4 x9 x10 x11 x12)) (mat x5)) n k := by
  unfold val_main_v76
  rw [scat_read, zero_at]
  unfold rAgg inE
  refine congrArg (zeroE + ·) ?_
  have hf : (Finset.univ.filter fun e : Fin 1700000 =>
        (val_main_v75 (F := Ideal) x1 (ix2 e (0 : Fin 1))).toInt = (n.val : Int))
      = Finset.univ.filter fun e : Fin 1700000 => (dwR x1 e).toInt = (n.val : Int) :=
    Finset.filter_congr fun e _ => by rw [dst_at]
  rw [hf]
  refine Finset.sum_congr rfl fun e _ => ?_
  rw [val_main_v73_apply, gat_at, norm_at, Ideal.mulf_def]
  unfold rMsg
  rfl

/-- The layer's output at (n, k): bias, batch norm and rectifier of the sum, over the edges landing on n, of the gathered row
    of (input rows times the weight matrix) times the edge's norm. -/
theorem ref_layer2 (n : Fin 100000) (k : Fin 128) :
    (val_main_v95 (F := Ideal) x0 x1 x3 x4 x5 x6 x9 x10 x11 x12 x13 x14 x15 x16 : A2 100000 128) (ix2 n k)
      = rAct (swR x1) (dwR x1) (BN.ofArrays x6 x13 x14 x15 x16) (lin (mat (val_main_v62 (F := Ideal) x0 x1 x3 x4 x9 x10 x11 x12)) (mat x5)) n k := by
  rw [val_main_v95_apply, val_main_v94_apply, val_main_v91_apply, val_main_v88_apply, val_main_v82_apply,
    val_main_v79_apply, agg_at, bias_at, mean_at, var_at, scale_at, shift_at, relu_zero_at]
  show _ = act (BN.ofArrays x6 x13 x14 x15 x16)
    (rAgg (swR x1) (dwR x1) (lin (mat (val_main_v62 (F := Ideal) x0 x1 x3 x4 x9 x10 x11 x12)) (mat x5)) n k) k
  generalize rAgg (swR x1) (dwR x1) (lin (mat (val_main_v62 (F := Ideal) x0 x1 x3 x4 x9 x10 x11 x12)) (mat x5)) n k = a
  rfl

end Cert.ReferenceIdeal.RefValue

end
-- ==== Proof.RefL3.lean ====
/-
  The reference's third layer read at an index, over the second layer's output array.
-/
import proofs.«400615_j49314814493137_3_alg».proof.Proof.RefA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

variable (x0 : (⟨S100000x3, .f32⟩ : BufTy).Contents (Elt Ideal)) (x1 : (⟨S2x1600000, .i32⟩ : BufTy).Contents (Elt Ideal)) (x2 : (⟨S100000, .i32⟩ : BufTy).Contents (Elt Ideal))
  (x3 : (⟨S3x128, .f32⟩ : BufTy).Contents (Elt Ideal)) (x5 x7 : (⟨S128x128, .f32⟩ : BufTy).Contents (Elt Ideal))
  (x4 x6 x8 x9 x10 x11 x12 x13 x14 x15 x16 x17 x18 x19 x20 : (⟨S128, .f32⟩ : BufTy).Contents (Elt Ideal))
  (x21 : (⟨S128x2, .f32⟩ : BufTy).Contents (Elt Ideal)) (x22 : (⟨S2, .f32⟩ : BufTy).Contents (Elt Ideal))

/-- The index column of a broadcast along the leading axis reads the vector at the row. -/
private theorem l3_idx102 (e : Fin 1700000) : idx_main_v102 (ix2 e (0 : Fin 1)) = ix1 e :=
  funext fun a => by match a with | ⟨0, _⟩ => rfl
private theorem l3_idx108 (e : Fin 1700000) : idx_main_v108 (ix2 e (0 : Fin 1)) = ix1 e :=
  funext fun a => by match a with | ⟨0, _⟩ => rfl

/-- The gather's index column at (e, 0) is the edge's source word, wrapped. -/
private theorem l3_gidx (e : Fin 1700000) :
    (val_main_v102 (F := Ideal) x1) (ix2 e 0) = wrapN (swR x1 e) := by
  rw [val_main_v102_apply, val_main_v101_apply, val_main_v98_apply, val_main_v100_apply, val_main_v97_apply,
    val_main_v99_apply, val_main_c_14_apply, val_main_c_15_apply, l3_idx102]
  show _ = wrapN (wvec (val_main_v3 (F := Ideal) x1) e)
  generalize val_main_v3 (F := Ideal) x1 = s
  rfl

/-- The scatter's index column at (e, 0) is the edge's destination word. -/
private theorem l3_sidx (e : Fin 1700000) :
    (val_main_v108 (F := Ideal) x1) (ix2 e 0) = dwR x1 e := by
  rw [val_main_v108_apply, l3_idx108]
  show _ = wvec (val_main_v6 (F := Ideal) x1) e
  generalize val_main_v6 (F := Ideal) x1 = s
  rfl

/-- The program's row gather is the general one. -/
private theorem l3_gather_dims :
    gather_S100000x128_S1700000x1_S1700000x128_1_0_n_n_0_1_1128
      = rowGatherDims 100000 1700000 128 gather_S100000x128_S1700000x1_S1700000x128_1_0_n_n_0_1_1128_wf := rfl

/-- The program's row scatter is the general one. -/
private theorem l3_scatter_dims :
    scatter_S100000x128_S1700000x1_S1700000x128_1_0_0_1
      = rowScatterDims 100000 1700000 128 scatter_S100000x128_S1700000x1_S1700000x128_1_0_0_1_wf := rfl

/-- The gathered row of edge e is row grow (source word) of the gather's operand. -/
private theorem l3_gather (e : Fin 1700000) (q : Fin 128) :
    (val_main_v103 (F := Ideal) x0 x1 x3 x4 x5 x6 x7 x9 x10 x11 x12 x13 x14 x15 x16) (ix2 e q)
      = (val_main_v96 (F := Ideal) x0 x1 x3 x4 x5 x6 x7 x9 x10 x11 x12 x13 x14 x15 x16) (ix2 (grow (swR x1 e)) q) := by
  unfold val_main_v103
  rw [l3_gather_dims]
  generalize val_main_v96 (F := Ideal) x0 x1 x3 x4 x5 x6 x7 x9 x10 x11 x12 x13 x14 x15 x16 = y
  refine (gatherRows_apply (N := 100000) (E := 1700000) (D := 128) (by decide) _ y (val_main_v102 (F := Ideal) x1) (ix2 e q)).trans ?_
  show y (ix2 (crow 100000 _ (val_main_v102 (F := Ideal) x1 (ix2 e 0))) q) = _
  rw [l3_gidx]
  rfl

/-- A row scatter-add with the program's dimension numbers, over any arrays, read at (i, q). -/
private theorem l3_scat_read (x : A2 100000 128) (idx : (⟨2, ![1700000, 1]⟩ : Shape).Idx → BitVec 32) (u : A2 1700000 128)
    (i : Fin 100000) (q : Fin 128) :
    (Host.scatterAdd (F := Ideal) (φ := .f32) scatter_S100000x128_S1700000x1_S1700000x128_1_0_0_1 x idx u : A2 100000 128) (ix2 i q)
      = x (ix2 i q) + ∑ e ∈ Finset.univ.filter (fun e : Fin 1700000 => (idx (ix2 e (0 : Fin 1))).toInt = (i.val : Int)), u (ix2 e q) := by
  unfold Host.scatterAdd
  rw [Ideal.hostScatterAdd_def, l3_scatter_dims]
  exact scatterAddRows_apply _ x idx u i q

/-- The scatter-add at (n, k): zero plus column k of the update rows of the edges landing on n. -/
private theorem l3_scatter (n : Fin 100000) (k : Fin 128) :
    (val_main_v109 (F := Ideal) x0 x1 x3 x4 x5 x6 x7 x9 x10 x11 x12 x13 x14 x15 x16 : A2 100000 128) (ix2 n k)
      = zeroE + ∑ e ∈ inE (dwR x1) n, (val_main_v106 (F := Ideal) x0 x1 x3 x4 x5 x6 x7 x9 x10 x11 x12 x13 x14 x15 x16 : A2 1700000 128) (ix2 e k) := by
  unfold val_main_v109
  have hz : (val_main_v107 (F := Ideal) : A2 100000 128) (ix2 n k) = zeroE := by
    rw [val_main_v107_apply, val_main_cst_16_apply]
    rfl
  have hs : ∀ e : Fin 1700000, (val_main_v108 (F := Ideal) x1) (ix2 e (0 : Fin 1)) = dwR x1 e := l3_sidx x1
  generalize val_main_v106 (F := Ideal) x0 x1 x3 x4 x5 x6 x7 x9 x10 x11 x12 x13 x14 x15 x16 = u
  generalize val_main_v107 (F := Ideal) = z at hz ⊢
  generalize val_main_v108 (F := Ideal) x1 = s at hs ⊢
  refine (l3_scat_read z s u n k).trans ?_
  rw [hz]
  unfold inE
  refine congrArg (zeroE + ·) (Finset.sum_congr (Finset.filter_congr fun e _ => ?_) fun _ _ => rfl)
  rw [hs]

/-- An edge's message over any arrays, written out. -/
private theorem l3_msg_gen (Y : A2 100000 128) (W : A2 128 128) (sw dw : Fin EE → BitVec 32) (e : Fin 1700000) (k : Fin 128) :
    rMsg sw dw (lin (mat Y) (mat W)) e k
      = (∑ q : Fin 128, Y (ix2 (grow (sw e)) q) * W (ix2 q k)) * (dinv dw (grow (sw e)) * dinv dw (grow (dw e))) := rfl

/-- The norm's broadcast over the columns reads the norm of the row's edge. -/
private theorem l3_idx105 (e : Fin 1700000) (k : Fin 128) : idx_main_v104 (idx_main_v105 (ix2 e k)) = ix1 e :=
  funext fun a => by match a with | ⟨0, _⟩ => rfl

/-- The contraction reads row g of the left operand and column k of the right. -/
private theorem l3_lidx (g : Fin 100000) (k q : Fin 128) : lidx_main_v96 (ix2 g k) q = ix2 g q :=
  funext fun a => Fin.ext (by match a with | ⟨0, _⟩ => rfl | ⟨1, _⟩ => rfl)
private theorem l3_ridx (g : Fin 100000) (k q : Fin 128) : ridx_main_v96 (ix2 g k) q = ix2 q k :=
  funext fun a => Fin.ext (by match a with | ⟨0, _⟩ => rfl | ⟨1, _⟩ => rfl)

/-- The update row of edge e at column k is the edge's message. -/
private theorem l3_msg (e : Fin 1700000) (k : Fin 128) :
    (val_main_v106 (F := Ideal) x0 x1 x3 x4 x5 x6 x7 x9 x10 x11 x12 x13 x14 x15 x16 : A2 1700000 128) (ix2 e k)
      = rMsg (swR x1) (dwR x1) (lin (mat (val_main_v95 (F := Ideal) x0 x1 x3 x4 x5 x6 x9 x10 x11 x12 x13 x14 x15 x16)) (mat x7)) e k := by
  rw [val_main_v106_apply, l3_gather, val_main_v96_apply, val_main_v105_apply, val_main_v104_apply, l3_idx105,
    ref_norm, Ideal.mulf_def, l3_msg_gen]
  generalize val_main_v95 (F := Ideal) x0 x1 x3 x4 x5 x6 x9 x10 x11 x12 x13 x14 x15 x16 = Y
  generalize swR x1 = sw
  generalize dwR x1 = dw
  refine congrArg (fun t => t * (dinv dw (grow (sw e)) * dinv dw (grow (dw e)))) (Finset.sum_congr rfl fun q _ => ?_)
  rw [l3_lidx, l3_ridx]

/-- A parameter vector broadcast over the rows reads the vector at the column. -/
private theorem l3_idx111 (n : Fin 100000) (k : Fin 128) : idx_main_v110 (idx_main_v111 (ix2 n k)) = ix1 k :=
  funext fun a => by match a with | ⟨0, _⟩ => rfl
private theorem l3_idx114 (n : Fin 100000) (k : Fin 128) : idx_main_v113 (idx_main_v114 (ix2 n k)) = ix1 k :=
  funext fun a => by match a with | ⟨0, _⟩ => rfl
private theorem l3_idx120 (n : Fin 100000) (k : Fin 128) : idx_main_v119 (idx_main_v120 (ix2 n k)) = ix1 k :=
  funext fun a => by match a with | ⟨0, _⟩ => rfl
private theorem l3_idx123 (n : Fin 100000) (k : Fin 128) : idx_main_v122 (idx_main_v123 (ix2 n k)) = ix1 k :=
  funext fun a => by match a with | ⟨0, _⟩ => rfl
private theorem l3_idx126 (n : Fin 100000) (k : Fin 128) : idx_main_v125 (idx_main_v126 (ix2 n k)) = ix1 k :=
  funext fun a => by match a with | ⟨0, _⟩ => rfl

/-- The activated aggregate over any words and arrays, one step opened. -/
private theorem l3_rAct_def (sw dw : Fin EE → BitVec 32) (p : BN) (H : Fin NN → Fin HH → EReal) (n : Fin NN) (k : Fin HH) :
    rAct sw dw p H n k = act p (zeroE + ∑ e ∈ inE dw n, rMsg sw dw H e k) k := rfl

/-- The program's batch-norm chain on one entry is act in channel k of the five arrays. -/
private theorem l3_close (a : EReal) (b g be mu va : A1 128) (k : Fin 128) :
    FloatOps.maximumf (F := Ideal) (φ := .f32)
        (FloatOps.addf (FloatOps.mulf (FloatOps.mulf (FloatOps.subf (FloatOps.addf a (b (ix1 k))) (mu (ix1 k)))
          (FloatOps.hostUnary .rsqrt (FloatOps.addf (va (ix1 k)) (FloatOps.ofBits .f32 0x3727C5AC#32)))) (g (ix1 k))) (be (ix1 k)))
        (FloatOps.ofBits .f32 0x00000000#32)
      = act (BN.ofArrays b g be mu va) a k := rfl

/-- The layer's output at (n, k): bias, batch norm and rectifier of the sum, over the edges landing on n, of the gathered row
    of (input rows times the weight matrix) times the edge's norm. -/
theorem ref_layer3 (n : Fin 100000) (k : Fin 128) :
    (val_main_v128 (F := Ideal) x0 x1 x3 x4 x5 x6 x7 x8 x9 x10 x11 x12 x13 x14 x15 x16 x17 x18 x19 x20 : A2 100000 128) (ix2 n k)
      = rAct (swR x1) (dwR x1) (BN.ofArrays x8 x17 x18 x19 x20) (lin (mat (val_main_v95 (F := Ideal) x0 x1 x3 x4 x5 x6 x9 x10 x11 x12 x13 x14 x15 x16)) (mat x7)) n k := by
  rw [val_main_v128_apply, val_main_v127_apply, val_main_v124_apply, val_main_v121_apply, val_main_v115_apply,
    val_main_v112_apply, l3_scatter, val_main_call3_v0_apply, val_main_call3_cst_apply,
    val_main_v126_apply, val_main_v125_apply, val_main_v123_apply, val_main_v122_apply,
    val_main_v120_apply, val_main_v119_apply, val_main_v118_apply, val_main_v117_apply, val_main_v116_apply, val_main_cst_17_apply,
    val_main_v114_apply, val_main_v113_apply, val_main_v111_apply, val_main_v110_apply,
    l3_idx111, l3_idx114, l3_idx120, l3_idx123, l3_idx126,
    Finset.sum_congr rfl (fun e _ => l3_msg x0 x1 x3 x5 x7 x4 x6 x9 x10 x11 x12 x13 x14 x15 x16 e k),
    l3_rAct_def]
  generalize val_main_v95 (F := Ideal) x0 x1 x3 x4 x5 x6 x9 x10 x11 x12 x13 x14 x15 x16 = Y
  generalize swR x1 = sw
  generalize dwR x1 = dw
  exact l3_close _ x8 x17 x18 x19 x20 k

end Cert.ReferenceIdeal.RefValue

end
-- ==== Proof.RefT.lean ====
/-
  The reference's pooling and classifier read at an index, over the third layer's output array: the rows of each graph's nodes summed by a scatter-add along the batch words, divided by the graph's size (at least one), times the classifier's matrix, plus its bias.
-/
import proofs.«400615_j49314814493137_3_alg».proof.Proof.RefRun
import proofs.«400615_j49314814493137_3_alg».proof.Proof.RefRead
import proofs.«400615_j49314814493137_3_alg».proof.Proof.Net
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic
import Mathlib.Data.Finset.Filter

set_option maxRecDepth 16384

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

variable (x0 : (⟨S100000x3, .f32⟩ : BufTy).Contents (Elt Ideal)) (x1 : (⟨S2x1600000, .i32⟩ : BufTy).Contents (Elt Ideal)) (x2 : (⟨S100000, .i32⟩ : BufTy).Contents (Elt Ideal))
  (x3 : (⟨S3x128, .f32⟩ : BufTy).Contents (Elt Ideal)) (x5 x7 : (⟨S128x128, .f32⟩ : BufTy).Contents (Elt Ideal))
  (x4 x6 x8 x9 x10 x11 x12 x13 x14 x15 x16 x17 x18 x19 x20 : (⟨S128, .f32⟩ : BufTy).Contents (Elt Ideal))
  (x21 : (⟨S128x2, .f32⟩ : BufTy).Contents (Elt Ideal)) (x22 : (⟨S2, .f32⟩ : BufTy).Contents (Elt Ideal))

/-- The two float literals, as the words they are read from. -/
private theorem zeroE_def : zeroE = Ideal.ofBits .f32 0x00000000#32 := rfl
private theorem oneE_def : oneE = Ideal.ofBits .f32 0x3F800000#32 := rfl

/-- An entry of an array of two axes, and of one, read by coordinates. -/
private theorem mat_apply {a b : Nat} (x : A2 a b) (i : Fin a) (j : Fin b) : mat x i j = x (ix2 i j) := rfl
private theorem vec_apply {a : Nat} (x : A1 a) (i : Fin a) : vec x i = x (ix1 i) := rfl
private theorem wvec_apply {a : Nat} (x : IW1 a) (i : Fin a) : wvec x i = x (ix1 i) := rfl

/-- The pooling scatter's dimension numbers are those of a scatter of rows along the leading axis. -/
private theorem poolDims_eq :
    scatter_S64x128_S100000x1_S100000x128_1_0_0_1
      = rowScatterDims 64 100000 128 scatter_S64x128_S100000x1_S100000x128_1_0_0_1.wf := rfl

/-- The counting scatter's dimension numbers are those of a scatter of elements. -/
private theorem cntDims_eq :
    scatter_S64_S100000x1_S100000_n_0_0_1
      = vecScatterDims 64 100000 scatter_S64_S100000x1_S100000_n_0_0_1.wf := rfl

/-- The pooling scatter-add of any rows u into any array x along any index column: at (g, k), x there plus column k of the
    rows whose index word, read signed, is g. -/
private theorem pool_scatter (x : A2 64 128) (idx : (⟨2, ![100000, 1]⟩ : Shape).Idx → BitVec 32) (u : A2 100000 128)
    (g : Fin 64) (k : Fin 128) :
    (Host.scatterAdd (F := Ideal) (φ := .f32) scatter_S64x128_S100000x1_S100000x128_1_0_0_1 x idx u : A2 64 128) (ix2 g k)
      = x (ix2 g k) + ∑ n ∈ Finset.univ.filter (fun n : Fin 100000 => (idx (ix2 n (0 : Fin 1))).toInt = (g.val : Int)), u (ix2 n k) := by
  unfold Host.scatterAdd
  rw [Ideal.hostScatterAdd_def, poolDims_eq]
  exact scatterAddRows_apply _ x idx u g k

/-- The counting scatter-add of any elements u into any array x along any index column: at g, x there plus the elements
    whose index word, read signed, is g. -/
private theorem cnt_scatter (x : A1 64) (idx : (⟨2, ![100000, 1]⟩ : Shape).Idx → BitVec 32) (u : A1 100000) (g : Fin 64) :
    (Host.scatterAdd (F := Ideal) (φ := .f32) scatter_S64_S100000x1_S100000_n_0_0_1 x idx u : A1 64) (ix1 g)
      = x (ix1 g) + ∑ n ∈ Finset.univ.filter (fun n : Fin 100000 => (idx (ix2 n (0 : Fin 1))).toInt = (g.val : Int)), u (ix1 n) := by
  unfold Host.scatterAdd
  rw [Ideal.hostScatterAdd_def, cntDims_eq]
  exact scatterAddVec_apply _ x idx u g

/-- Entry (n, 0) of the batch words laid out as a column is word n. -/
private theorem batchCol130 (n : Fin 100000) : idx_main_v130 (ix2 n (0 : Fin 1)) = ix1 n :=
  funext fun a => Fin.ext (by match a with | ⟨0, _⟩ => rfl)
private theorem batchCol134 (n : Fin 100000) : idx_main_v134 (ix2 n (0 : Fin 1)) = ix1 n :=
  funext fun a => Fin.ext (by match a with | ⟨0, _⟩ => rfl)

/-- The pooling scatter-add of any rows u along any index column whose words are bw, into an array that holds zero at (g, k):
    zero plus the sum of column k over the rows whose word, read signed, is g. -/
private theorem pool_general (x : A2 64 128) (idx : (⟨2, ![100000, 1]⟩ : Shape).Idx → BitVec 32) (u : A2 100000 128)
    (bw : Fin NN → BitVec 32) (g : Fin 64) (k : Fin 128)
    (hx : x (ix2 g k) = zeroE) (hidx : ∀ n : Fin 100000, idx (ix2 n (0 : Fin 1)) = bw n) :
    (Host.scatterAdd (F := Ideal) (φ := .f32) scatter_S64x128_S100000x1_S100000x128_1_0_0_1 x idx u : A2 64 128) (ix2 g k)
      = rPool bw (mat u) g k := by
  rw [pool_scatter, hx]
  unfold rPool member
  refine congrArg (zeroE + ·) ?_
  refine Finset.sum_congr (Finset.filter_congr fun n _ => ?_) fun n _ => (mat_apply u n k).symm
  rw [hidx n]

/-- The counting scatter-add of elements that are all one along any index column whose words are bw, into an array that holds
    zero at g: zero plus one for each row whose word, read signed, is g. -/
private theorem cnt_general (x : A1 64) (idx : (⟨2, ![100000, 1]⟩ : Shape).Idx → BitVec 32) (u : A1 100000)
    (bw : Fin NN → BitVec 32) (g : Fin 64)
    (hx : x (ix1 g) = zeroE) (hidx : ∀ n : Fin 100000, idx (ix2 n (0 : Fin 1)) = bw n) (hu : ∀ n : Fin 100000, u (ix1 n) = oneE) :
    (Host.scatterAdd (F := Ideal) (φ := .f32) scatter_S64_S100000x1_S100000_n_0_0_1 x idx u : A1 64) (ix1 g) = cnt bw g := by
  rw [cnt_scatter, hx]
  unfold cnt member
  refine congrArg (zeroE + ·) ?_
  refine Finset.sum_congr (Finset.filter_congr fun n _ => ?_) fun n _ => hu n
  rw [hidx n]

/-- The scatter-add of the third layer's rows into zeros along the batch words: at (g, k), zero plus the sum of column k over
    the nodes whose batch word, read signed, is g. -/
private theorem pool_read (g : Fin 64) (k : Fin 128) :
    (val_main_v131 (F := Ideal) x0 x1 x2 x3 x4 x5 x6 x7 x8 x9 x10 x11 x12 x13 x14 x15 x16 x17 x18 x19 x20 : A2 64 128) (ix2 g k)
      = rPool (wvec x2) (mat (val_main_v128 (F := Ideal) x0 x1 x3 x4 x5 x6 x7 x8 x9 x10 x11 x12 x13 x14 x15 x16 x17 x18 x19 x20)) g k := by
  unfold val_main_v131
  generalize val_main_v128 (F := Ideal) x0 x1 x3 x4 x5 x6 x7 x8 x9 x10 x11 x12 x13 x14 x15 x16 x17 x18 x19 x20 = Y
  refine pool_general _ _ Y (wvec x2) g k ?_ fun n => ?_
  · rw [val_main_v129_apply, val_main_cst_18_apply, Ideal.ofBits_def, zeroE_def]
  · rw [val_main_v130_apply, batchCol130, wvec_apply]

/-- The scatter-add of ones into zeros along the batch words: at g, zero plus one for each node whose batch word, read
    signed, is g. -/
private theorem cnt_read (g : Fin 64) :
    (val_main_v135 (F := Ideal) x2 : A1 64) (ix1 g) = cnt (wvec x2) g := by
  unfold val_main_v135
  refine cnt_general _ _ _ (wvec x2) g ?_ (fun n => ?_) fun n => ?_
  · rw [val_main_v133_apply, val_main_cst_20_apply, Ideal.ofBits_def, zeroE_def]
  · rw [val_main_v134_apply, batchCol134, wvec_apply]
  · rw [val_main_v132_apply, val_main_cst_19_apply, Ideal.ofBits_def, oneE_def]

theorem ref_tail (g : Fin 64) (j : Fin 2) :
    (val_main_v144 (F := Ideal) x0 x1 x2 x3 x4 x5 x6 x7 x8 x9 x10 x11 x12 x13 x14 x15 x16 x17 x18 x19 x20 x21 x22 : A2 64 2) (ix2 g j)
      = head (mat x21) (vec x22) (cnt (wvec x2)) (rPool (wvec x2) (mat (val_main_v128 (F := Ideal) x0 x1 x3 x4 x5 x6 x7 x8 x9 x10 x11 x12 x13 x14 x15 x16 x17 x18 x19 x20))) g j := by
  have hb : idx_main_v142 (idx_main_v143 (ix2 g j)) = ix1 j :=
    funext fun a => Fin.ext (by match a with | ⟨0, _⟩ => rfl)
  rw [val_main_v144_apply, val_main_v141_apply, val_main_v143_apply, val_main_v142_apply, hb, Ideal.addf_def]
  unfold head
  refine congrArg₂ (· + ·) (Finset.sum_congr rfl fun k _ => ?_) (vec_apply x22 j).symm
  have hl : lidx_main_v141 (ix2 g j) k = ix2 g k :=
    funext fun a => Fin.ext (by match a with | ⟨0, _⟩ => rfl | ⟨1, _⟩ => rfl)
  have hr : ridx_main_v141 (ix2 g j) k = ix2 k j :=
    funext fun a => Fin.ext (by match a with | ⟨0, _⟩ => rfl | ⟨1, _⟩ => rfl)
  have hc : idx_main_v138 (idx_main_v139 (ix2 g k)) = ix1 g :=
    funext fun a => Fin.ext (by match a with | ⟨0, _⟩ => rfl)
  rw [hl, hr, val_main_v140_apply, val_main_v139_apply, val_main_v138_apply, hc, val_main_v137_apply, val_main_v136_apply,
    val_main_cst_21_apply, cnt_read, pool_read, Ideal.hostDivf_def, Ideal.maximumf_def, Ideal.ofBits_def, oneE_def, mat_apply]

end Cert.ReferenceIdeal.RefValue

end
-- ==== Proof.RefValue.lean ====
/-
  The reference program's result, entry by entry, as the network of Net.lean in its second arrangement.
-/
import proofs.«400615_j49314814493137_3_alg».proof.Proof.RefL1
import proofs.«400615_j49314814493137_3_alg».proof.Proof.RefL2
import proofs.«400615_j49314814493137_3_alg».proof.Proof.RefL3
import proofs.«400615_j49314814493137_3_alg».proof.Proof.RefT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read Cert.Gcn
open Idealize.ShloMosaic Idealize.ShloMosaic.TcCoe Idealize.ShloMosaic.ValueIdx Idealize.SL.Sem

attribute [local irreducible] val_main_v62 val_main_v95 val_main_v128 val_main_v3 val_main_v6 val_main_v144

/-- The network's second arrangement assembled from its three layers' arrays and its tail, over arbitrary arguments and arrays. -/
private theorem refOut_of_layers (A : Args) (V1 V2 V3 : A2 100000 128) (out : EReal) (g : Fin 64) (j : Fin 2)
    (h1 : ∀ n k, V1 (ix2 n k) = rAct A.sw A.dw A.p1 (lin A.x A.w1) n k)
    (h2 : ∀ n k, V2 (ix2 n k) = rAct A.sw A.dw A.p2 (lin (mat V1) A.w2) n k)
    (h3 : ∀ n k, V3 (ix2 n k) = rAct A.sw A.dw A.p3 (lin (mat V2) A.w3) n k)
    (ht : out = head A.lw A.lb (cnt A.bw) (rPool A.bw (mat V3)) g j) : out = refOut A g j := by
  have e1 : mat V1 = rY1 A := funext fun n => funext fun k => h1 n k
  have e2 : mat V2 = rY2 A := funext fun n => funext fun k => (h2 n k).trans (by rw [e1]; rfl)
  have e3 : mat V3 = rY3 A := funext fun n => funext fun k => (h3 n k).trans (by rw [e2]; rfl)
  rw [ht, e3]
  rfl

section Arrays

variable (x0 : (⟨S100000x3, .f32⟩ : BufTy).Contents (Elt Ideal)) (x1 : (⟨S2x1600000, .i32⟩ : BufTy).Contents (Elt Ideal)) (x2 : (⟨S100000, .i32⟩ : BufTy).Contents (Elt Ideal))
  (x3 : (⟨S3x128, .f32⟩ : BufTy).Contents (Elt Ideal)) (x5 x7 : (⟨S128x128, .f32⟩ : BufTy).Contents (Elt Ideal))
  (x4 x6 x8 x9 x10 x11 x12 x13 x14 x15 x16 x17 x18 x19 x20 : (⟨S128, .f32⟩ : BufTy).Contents (Elt Ideal))
  (x21 : (⟨S128x2, .f32⟩ : BufTy).Contents (Elt Ideal)) (x22 : (⟨S2, .f32⟩ : BufTy).Contents (Elt Ideal))

/-- The reference's last stage over arbitrary argument arrays: the network's output on those arrays, the edge words laid
    out by the reference's first operations. -/
private theorem ref_value_arrays (g : Fin 64) (j : Fin 2) :
    (val_main_v144 (F := Ideal) x0 x1 x2 x3 x4 x5 x6 x7 x8 x9 x10 x11 x12 x13 x14 x15 x16 x17 x18 x19 x20 x21 x22 : A2 64 2) (ix2 g j)
      = refOut (Args.ofArrays x0 (val_main_v3 (F := Ideal) x1) (val_main_v6 (F := Ideal) x1) x2 x3 x4 x5 x6 x7 x8 x9 x10 x11 x12 x13 x14 x15 x16 x17 x18 x19 x20 x21 x22) g j := by
  refine refOut_of_layers (Args.ofArrays x0 (val_main_v3 (F := Ideal) x1) (val_main_v6 (F := Ideal) x1) x2 x3 x4 x5 x6 x7 x8 x9 x10 x11 x12 x13 x14 x15 x16 x17 x18 x19 x20 x21 x22)
    (val_main_v62 (F := Ideal) x0 x1 x3 x4 x9 x10 x11 x12) (val_main_v95 (F := Ideal) x0 x1 x3 x4 x5 x6 x9 x10 x11 x12 x13 x14 x15 x16) (val_main_v128 (F := Ideal) x0 x1 x3 x4 x5 x6 x7 x8 x9 x10 x11 x12 x13 x14 x15 x16 x17 x18 x19 x20) _ g j (fun n k => ?_) (fun n k => ?_) (fun n k => ?_) ?_
  · exact ref_layer1 (x0 := x0) (x1 := x1) (x3 := x3) (x4 := x4) (x9 := x9) (x10 := x10) (x11 := x11) (x12 := x12) n k
  · exact ref_layer2 (x0 := x0) (x1 := x1) (x3 := x3) (x4 := x4) (x5 := x5) (x6 := x6) (x9 := x9) (x10 := x10) (x11 := x11) (x12 := x12) (x13 := x13) (x14 := x14) (x15 := x15) (x16 := x16) n k
  · exact ref_layer3 (x0 := x0) (x1 := x1) (x3 := x3) (x4 := x4) (x5 := x5) (x6 := x6) (x7 := x7) (x8 := x8) (x9 := x9) (x10 := x10) (x11 := x11) (x12 := x12) (x13 := x13) (x14 := x14) (x15 := x15) (x16 := x16) (x17 := x17) (x18 := x18) (x19 := x19) (x20 := x20) n k
  · exact ref_tail (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) (x17 := x17) (x18 := x18) (x19 := x19) (x20 := x20) (x21 := x21) (x22 := x22) g j

end Arrays

variable (m : (ℓ : Loc nD τ sig) → Buf (Elt Ideal) ℓ)

/-- The network's arguments as the reference program reads them: the argument arrays, the edge words as its first
    operations lay them out (self-loops appended). -/
def argsR (c : Dev nD) : Args :=
  Args.ofArrays (m ((c.tc : Thread nD τ).loc main_arg0))
    (val_main_v3 (F := Ideal) (m ((c.tc : Thread nD τ).loc main_arg1)))
    (val_main_v6 (F := Ideal) (m ((c.tc : Thread nD τ).loc main_arg1)))
    (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
    (m ((c.tc : Thread nD τ).loc main_arg22))

/-- The reference's result is the network's output in its second arrangement. -/
theorem ref_value (c : Dev nD) (g : Fin 64) (j : Fin 2) :
    (res_out0 (F := Ideal) m c : A2 64 2) (ix2 g j) = refOut (argsR m c) g j := by
  show (Cert.ReferenceIdeal.Value.res_main_v144 m c : A2 64 2) (ix2 g j) = _
  rw [val_main_v144_eq (F := Ideal) m c]
  exact ref_value_arrays (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (x13 := (m ((c.tc : Thread nD τ).loc main_arg13))) (x14 := (m ((c.tc : Thread nD τ).loc main_arg14))) (x15 := (m ((c.tc : Thread nD τ).loc main_arg15))) (x16 := (m ((c.tc : Thread nD τ).loc main_arg16))) (x17 := (m ((c.tc : Thread nD τ).loc main_arg17))) (x18 := (m ((c.tc : Thread nD τ).loc main_arg18))) (x19 := (m ((c.tc : Thread nD τ).loc main_arg19))) (x20 := (m ((c.tc : Thread nD τ).loc main_arg20))) (x21 := (m ((c.tc : Thread nD τ).loc main_arg21))) (x22 := (m ((c.tc : Thread nD τ).loc main_arg22))) g j

end Cert.ReferenceIdeal.RefValue

end
-- ==== Proof.EdgeWords.lean ====
/-
  The edge words: the kernel program's first host stretch and the reference's first operations lay out the source and
  destination words of the edges by the same operations of the edge list (a slice of one row, a reshape, a concatenate with
  the node numbers for the self-loops), so they are the same arrays.
-/
import proofs.«400615_j49314814493137_3_alg».proof.Proof.Gen.KernelIdeal.Frame
import proofs.«400615_j49314814493137_3_alg».proof.Proof.RefRead
import proofs.«400615_j49314814493137_3_alg».proof.Proof.Net
import Idealize.ShloMosaic.Lib.StableHlo.Run

set_option maxRecDepth 16384

noncomputable section

namespace Cert.Proof

open Idealize.ShloMosaic Idealize.ShloMosaic.TcCoe Idealize.ShloMosaic.ValueIdx Idealize.SL.Sem Cert.Gcn

/-- No operation of a listed stretch writes the given buffer. -/
local macro "no_write_in " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem src_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W3 m ρ c (Proc.devRef .tc Cert.KernelIdeal.main_v3) : IW1 1700000)
      = Cert.ReferenceIdeal.Read.val_main_v3 (F := Ideal) (m ((c.tc : Thread Cert.KernelIdeal.nD Cert.KernelIdeal.τ).loc Cert.KernelIdeal.main_arg1)) := by
  have h3 : Cert.KernelIdeal.Gen.W3 m ρ c (Proc.devRef .tc Cert.KernelIdeal.main_v3)
      = Cert.KernelIdeal.Gen.W2 m ρ c (Proc.devRef .tc Cert.KernelIdeal.main_v3) :=
    StableHlo.after_of_forall_not_mem (b := Proc.devRef .tc Cert.KernelIdeal.main_v3) _ _ (by
      no_write_in Cert.KernelIdeal.Gen.hostOps0_2)
  have h2 : Cert.KernelIdeal.Gen.W2 m ρ c (Proc.devRef .tc Cert.KernelIdeal.main_v3)
      = Cert.KernelIdeal.Gen.W1 m ρ c (Proc.devRef .tc Cert.KernelIdeal.main_v3) :=
    StableHlo.after_of_forall_not_mem (b := Proc.devRef .tc Cert.KernelIdeal.main_v3) _ _ (by
      no_write_in Cert.KernelIdeal.Gen.hostOps0_1)
  rw [h3, h2]
  show StableHlo.after Cert.KernelIdeal.Gen.hostOps0 (Cert.KernelIdeal.Gen.W0 m ρ c) (Proc.devRef .tc Cert.KernelIdeal.main_v3) = _
  after_results
  unfold Cert.ReferenceIdeal.Read.val_main_v3 Cert.ReferenceIdeal.Read.val_main_v2 Cert.ReferenceIdeal.Read.val_main_v1 Cert.ReferenceIdeal.Read.val_main_v0
  rfl

theorem dst_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W3 m ρ c (Proc.devRef .tc Cert.KernelIdeal.main_v6) : IW1 1700000)
      = Cert.ReferenceIdeal.Read.val_main_v6 (F := Ideal) (m ((c.tc : Thread Cert.KernelIdeal.nD Cert.KernelIdeal.τ).loc Cert.KernelIdeal.main_arg1)) := by
  have h3 : Cert.KernelIdeal.Gen.W3 m ρ c (Proc.devRef .tc Cert.KernelIdeal.main_v6)
      = Cert.KernelIdeal.Gen.W2 m ρ c (Proc.devRef .tc Cert.KernelIdeal.main_v6) :=
    StableHlo.after_of_forall_not_mem (b := Proc.devRef .tc Cert.KernelIdeal.main_v6) _ _ (by
      no_write_in Cert.KernelIdeal.Gen.hostOps0_2)
  have h2 : Cert.KernelIdeal.Gen.W2 m ρ c (Proc.devRef .tc Cert.KernelIdeal.main_v6)
      = Cert.KernelIdeal.Gen.W1 m ρ c (Proc.devRef .tc Cert.KernelIdeal.main_v6) :=
    StableHlo.after_of_forall_not_mem (b := Proc.devRef .tc Cert.KernelIdeal.main_v6) _ _ (by
      no_write_in Cert.KernelIdeal.Gen.hostOps0_1)
  rw [h3, h2]
  show StableHlo.after Cert.KernelIdeal.Gen.hostOps0 (Cert.KernelIdeal.Gen.W0 m ρ c) (Proc.devRef .tc Cert.KernelIdeal.main_v6) = _
  after_results
  unfold Cert.ReferenceIdeal.Read.val_main_v6 Cert.ReferenceIdeal.Read.val_main_v5 Cert.ReferenceIdeal.Read.val_main_v4 Cert.ReferenceIdeal.Read.val_main_v0
  rfl

end Cert.Proof

end
-- ==== Proof.lean ====
/-
  A three-layer graph convolution network with mean pooling: the kernel program against its jnp reference.

  The kernel program computes each layer's dense part in a kernel region (rows times a weight matrix, scaled by the node's
  inverse square root in-degree dinv; the next region first scales the aggregated rows by dinv again and applies bias, batch
  norm and the rectifier), and leaves the gather by source and scatter-add by destination to host operations; the last region
  pools with a 0/1 membership matrix. The reference multiplies every edge's gathered row by the edge's norm
  dinv (source) * dinv (destination) and pools by a scatter-add. At the extended reals the two are one function of the
  arguments (Proof/Net.lean, net_eq): multiplication by a nonnegative real distributes over any sum of extended reals, and an
  edge that lands on a node has that node as its destination row; finiteness of the inputs is not used.

  The kernel's run is the generated frame's launch with the result buffer named (Proof/KernelRun.lean) and its value the launch
  memory carried through host stretches and regions (Proof/KValue.lean over Proof/KReg0 … KReg3 and Proof/KHostA, KHostB, KHostE);
  the reference's run is its generated run, read stage by stage (Proof/RefValue.lean over Proof/RefA, RefL1 … RefL3, RefT).
  The ideal pass rewrote nothing, so the preservation claim is trivial.
-/
import proofs.«400615_j49314814493137_3_alg».proof.Defs
import proofs.«400615_j49314814493137_3_alg».proof.Proof.Gen.Kernel
import proofs.«400615_j49314814493137_3_alg».proof.Proof.Gen.Kernel.Skeleton
import proofs.«400615_j49314814493137_3_alg».proof.Proof.Gen.Kernel.Launch
import proofs.«400615_j49314814493137_3_alg».proof.Proof.Gen.Kernel.Points
import proofs.«400615_j49314814493137_3_alg».proof.Proof.Gen.Kernel.Frame
import proofs.«400615_j49314814493137_3_alg».proof.Proof.Gen.KernelIdeal
import proofs.«400615_j49314814493137_3_alg».proof.Proof.Gen.KernelIdeal.Skeleton
import proofs.«400615_j49314814493137_3_alg».proof.Proof.Gen.KernelIdeal.Launch
import proofs.«400615_j49314814493137_3_alg».proof.Proof.Gen.KernelIdeal.Points
import proofs.«400615_j49314814493137_3_alg».proof.Proof.Gen.KernelIdeal.Frame
import proofs.«400615_j49314814493137_3_alg».proof.Proof.Gen.ReferenceIdeal
import proofs.«400615_j49314814493137_3_alg».proof.Proof.Gen.Pre_finite_inputs
import proofs.«400615_j49314814493137_3_alg».proof.Proof.KernelRun
import proofs.«400615_j49314814493137_3_alg».proof.Proof.KValue
import proofs.«400615_j49314814493137_3_alg».proof.Proof.RefValue
import proofs.«400615_j49314814493137_3_alg».proof.Proof.Net
import proofs.«400615_j49314814493137_3_alg».proof.Proof.EdgeWords
import Idealize.ShloMosaic.Adequacy
import Idealize.ShloMosaic.Init
import Idealize.ShloMosaic.Lib.StableHlo.Run

set_option maxRecDepth 16384

noncomputable section

namespace Cert.Proof

open Idealize.ShloMosaic Idealize.ShloMosaic.TcCoe Idealize.ShloMosaic.ValueIdx Idealize.SL.Sem Cert.Gcn

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments the two programs read the same network arguments, so their results are the two
    arrangements of one network. -/
theorem algebraic : Cert.algebraic_KernelIdeal_ReferenceIdeal := by
  intro m ρ m' ρ' _ hagree
  refine ⟨fun c => Cert.KernelIdeal.Gen.W11 m ρ c (Proc.devRef .tc Cert.KernelIdeal.main_v87),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hargs : Cert.ReferenceIdeal.RefValue.argsR m' c = Cert.KernelIdeal.KValue.argsK m ρ c := by
    obtain ⟨h0, h1, h2, h3, h4, h5, h6, h7, h8, h9, h10, h11, h12, h13, h14, h15, h16, h17, h18, h19, h20, h21, h22⟩ := hagree c
    unfold Cert.ReferenceIdeal.RefValue.argsR Cert.KernelIdeal.KValue.argsK
    rw [h0, h1, h2, h3, h4, h5, h6, h7, h8, h9, h10, h11, h12, h13, h14, h15, h16, h17, h18, h19, h20, h21, h22, ← src_eq m ρ c, ← dst_eq m ρ c]
  show (Cert.ReferenceIdeal.Value.res_out0 (F := Ideal) m' c : A2 64 2)
    = (Cert.KernelIdeal.Gen.W11 m ρ c (Proc.devRef .tc Cert.KernelIdeal.main_v87) : A2 64 2)
  funext idx
  obtain ⟨g, j, rfl⟩ : ∃ (g : Fin 64) (j : Fin 2), idx = ix2 g j := ⟨idx 0, idx 1, eq_ix2 idx⟩
  rw [Cert.ReferenceIdeal.RefValue.ref_value m' c g j, hargs, ← net_eq, Cert.KernelIdeal.KValue.kernel_value m ρ c g j]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
